-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v177) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x32x512x512 : Shape := ⟨4, ![8, 32, 512, 512]⟩
abbrev S8x512x512x2 : Shape := ⟨4, ![8, 512, 512, 2]⟩
abbrev S_ : Shape := ⟨0, ![]⟩

class Facts : Prop where
  bcast_S_S8x32x512x512 : S_.BroadcastsInDim S8x32x512x512 (![] : Fin 0 → Fin S8x32x512x512.rank)
  reducesTo_S8x32x512x512_S_d0_1_2_3 : S8x32x512x512.ReducesTo [0, 1, 2, 3] S_
  h_S_ : 0 < S_.numel
  bcast_S_S8x512x512x2 : S_.BroadcastsInDim S8x512x512x2 (![] : Fin 0 → Fin S8x512x512x2.rank)
  reducesTo_S8x512x512x2_S_d0_1_2_3 : S8x512x512x2.ReducesTo [0, 1, 2, 3] S_

variable [Facts]

def fn {F : FTy → Type} [FloatOps F] (main_arg0 : FVec F S8x32x512x512 .f32) (main_arg1 : FVec F S8x512x512x2 .f32) : IVec S_ 1 :=
  let main_v0 : FVec F S8x32x512x512 .f32 := Host.absf main_arg0
  let main_cst : FVec F S_ .f32 := constant S_ .f32 0x7F800000#32
  let main_v1 : FVec F S8x32x512x512 .f32 := broadcastInDim S8x32x512x512 ![] bcast_S_S8x32x512x512 main_cst
  let main_v2 : IVec S8x32x512x512 1 := cmpf .olt main_v0 main_v1
  let main_c : IVec S_ 1 := constantI S_ 1 1#1
  let main_v3 : IVec S_ 1 := (fun x v => Host.reduce IntOp.andi x v reducesTo_S8x32x512x512_S_d0_1_2_3 h_S_) main_v2 main_c
  let main_v4 : FVec F S8x512x512x2 .f32 := Host.absf main_arg1
  let main_cst_0 : FVec F S_ .f32 := constant S_ .f32 0x7F800000#32
  let main_v5 : FVec F S8x512x512x2 .f32 := broadcastInDim S8x512x512x2 ![] bcast_S_S8x512x512x2 main_cst_0
  let main_v6 : IVec S8x512x512x2 1 := cmpf .olt main_v4 main_v5
  let main_c_1 : IVec S_ 1 := constantI S_ 1 1#1
  let main_v7 : IVec S_ 1 := (fun x v => Host.reduce IntOp.andi x v reducesTo_S8x512x512x2_S_d0_1_2_3 h_S_) main_v6 main_c_1
  let main_v8 : IVec S_ 1 := andi main_v3 main_v7
  main_v8
-- ==== Kernel.lean ====
abbrev S8x32x512x512 : Shape := ⟨4, ![8, 32, 512, 512]⟩
abbrev S8x512x512x2 : Shape := ⟨4, ![8, 512, 512, 2]⟩
abbrev S8x262144x2 : Shape := ⟨3, ![8, 262144, 2]⟩
abbrev S8x512x512 : Shape := ⟨3, ![8, 512, 512]⟩
abbrev S1x2048x2 : Shape := ⟨3, ![1, 2048, 2]⟩
abbrev S1x512x512 : Shape := ⟨3, ![1, 512, 512]⟩
abbrev S512x512 : Shape := ⟨2, ![512, 512]⟩
abbrev S1x2048x1 : Shape := ⟨3, ![1, 2048, 1]⟩
abbrev S2048x1 : Shape := ⟨2, ![2048, 1]⟩
abbrev S2048x512 : Shape := ⟨2, ![2048, 512]⟩
abbrev S1x8x512x512 : Shape := ⟨4, ![1, 8, 512, 512]⟩

abbrev nBuf : Space → Nat
  | .hbm => 5
  | .vmem => 9
  | .smem => 0
  | _ => 0

abbrev bufTy : (tb : Table) → Fin (tcTables nBuf tb) → BufTy
  | .hbm, ⟨0, _⟩ => ⟨S8x32x512x512, .f32⟩
  | .hbm, ⟨1, _⟩ => ⟨S8x512x512x2, .f32⟩
  | .hbm, ⟨2, _⟩ => ⟨S8x262144x2, .f32⟩
  | .hbm, ⟨3, _⟩ => ⟨S8x512x512, .f32⟩
  | .hbm, ⟨4, _⟩ => ⟨S8x32x512x512, .f32⟩
  | .local _ .vmem, ⟨0, _⟩ => ⟨S1x2048x2, .f32⟩
  | .local _ .vmem, ⟨1, _⟩ => ⟨S1x2048x2, .f32⟩
  | .local _ .vmem, ⟨2, _⟩ => ⟨S1x512x512, .f32⟩
  | .local _ .vmem, ⟨3, _⟩ => ⟨S1x512x512, .f32⟩
  | .local _ .vmem, ⟨4, _⟩ => ⟨S512x512, .f32⟩
  | .local _ .vmem, ⟨5, _⟩ => ⟨S1x512x512, .f32⟩
  | .local _ .vmem, ⟨6, _⟩ => ⟨S1x512x512, .f32⟩
  | .local _ .vmem, ⟨7, _⟩ => ⟨S1x8x512x512, .f32⟩
  | .local _ .vmem, ⟨8, _⟩ => ⟨S1x8x512x512, .f32⟩
  | _, _ => ⟨S8x32x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7

abbrev nD : Nat := 1
abbrev τ : Topo := Topo.v7x

variable {F : FTy → Type} [FloatOps F]

abbrev grid0 : Pipeline.Grid := ⟨2, ![8, 128], ![false, false]⟩

def k0_cond2 (i : grid0.Coords) : BitVec 1 :=
  let arg1 : BitVec 32 := BitVec.ofNat 32 (i 1).val
  let c127_i32 : BitVec 32 := 127#32
  let v100 : BitVec 1 := Scalar.cmpi .eq arg1 c127_i32
  let v101 : BitVec 32 := Scalar.extui v100
  let c0_i32_34 : BitVec 32 := 0#32
  let v102 : BitVec 1 := Scalar.cmpi .ne v101 c0_i32_34
  v102

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![8, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x8x512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

class Facts₀ : Prop where
  shapeCasts_S8x512x512x2_S8x262144x2 : S8x512x512x2.ShapeCasts S8x262144x2
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x2048x2_S1x2048x1_0_0_0 : ∀ a, (![0, 0, 0] : Fin 3 → Nat) a + S1x2048x1.size a ≤ S1x2048x2.size a
  h_S1x2048x1 : 0 < S1x2048x1.numel
  shapeCasts_S1x2048x1_S2048x1 : S1x2048x1.ShapeCasts S2048x1
  inb_S1x2048x2_S1x2048x1_0_0_1 : ∀ a, (![0, 0, 1] : Fin 3 → Nat) a + S1x2048x1.size a ≤ S1x2048x2.size a
  iota_S2048x512_d1_w32 : S2048x512.Iotas .tc 32 [1]
  broadcasts_S2048x1_S2048x512 : S2048x1.Broadcasts S2048x512
  shapeCasts_S2048x1_S2048x1 : S2048x1.ShapeCasts S2048x1
  bitsLt_bf16_f32 : FTy.bits .bf16 < FTy.bits .f32
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  shapeCasts_S512x512_S1x512x512 : S512x512.ShapeCasts S1x512x512
  shapeCasts_S1x512x512_S1x512x512 : S1x512x512.ShapeCasts S1x512x512
  broadcasts_S1x512x512_S8x512x512 : S1x512x512.Broadcasts S8x512x512
  inb_S1x8x512x512_S1x8x512x512_0_0_0_0 : ∀ a, (![0, 0, 0, 0] : Fin 4 → Nat) a + S1x8x512x512.size a ≤ S1x8x512x512.size a
  h_S1x8x512x512 : 0 < S1x8x512x512.numel
  shapeCasts_S1x8x512x512_S8x512x512 : S1x8x512x512.ShapeCasts S8x512x512
  shapeCasts_S8x512x512_S1x8x512x512 : S8x512x512.ShapeCasts S1x8x512x512
  dot_S2048x512_S2048x512_S512x512_0_0_1_1_n_n_wf : DotDims.WF S2048x512 S2048x512 S512x512 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x2.size a ≤ S8x262144x2.size a
  hwx0_0 : ∀ i : grid0.Coords, EltTy.bits .f32 = 32 ∨ (Rect.block (s := S8x262144x2) S1x2048x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S8x512x512.size a
  hwx0_1 : ∀ i : grid0.Coords, EltTy.bits .f32 = 32 ∨ (Rect.block (s := S8x512x512) S1x512x512.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x512.size a ≤ S8x512x512.size a
  hwx1_0 : ∀ i : grid1.Coords, EltTy.bits .f32 = 32 ∨ (Rect.block (s := S8x512x512) S1x512x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x8x512x512.size a ≤ S8x32x512x512.size a
  hwx1_1 : ∀ i : grid1.Coords, EltTy.bits .f32 = 32 ∨ (Rect.block (s := S8x32x512x512) S1x8x512x512.size (cc1_transform_1 i) (hinb1_1 i)).WholeWords (EltTy.packing .f32)

variable [Facts₀]

def dot_S2048x512_S2048x512_S512x512_0_0_1_1_n_n : DotDims S2048x512 S2048x512 S512x512 where
  lhsContracting := [0]
  rhsContracting := [0]
  lhsNonContracting := [1]
  rhsNonContracting := [1]
  lhsBatch := []
  rhsBatch := []
  wf := dot_S2048x512_S2048x512_S512x512_0_0_1_1_n_n_wf

abbrev win0_0 : Pipeline.Window sig grid0 :=
  Pipeline.Window.ofSpec (Memref.whole main_v0) S1x2048x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x512x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_v1) S1x512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1x8x512x512.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S8x32x512x512 : Shape := ⟨4, ![8, 32, 512, 512]⟩
abbrev S8x512x512x2 : Shape := ⟨4, ![8, 512, 512, 2]⟩
abbrev S_ : Shape := ⟨0, ![]⟩
abbrev S8x512x512x1 : Shape := ⟨4, ![8, 512, 512, 1]⟩
abbrev S8x512x512 : Shape := ⟨3, ![8, 512, 512]⟩
abbrev S8 : Shape := ⟨1, ![8]⟩
abbrev S8x1x1 : Shape := ⟨3, ![8, 1, 1]⟩
abbrev S8x515x515 : Shape := ⟨3, ![8, 515, 515]⟩
abbrev S8x512x512x3 : Shape := ⟨4, ![8, 512, 512, 3]⟩
abbrev S8x1x512x512 : Shape := ⟨4, ![8, 1, 512, 512]⟩

abbrev nBuf : Space → Nat
  | .hbm => 257
  | .vmem => 0
  | .smem => 0
  | _ => 0

abbrev hbmTy0_0 (i : Nat) : BufTy := match i % 128 with
  | 0 => ⟨S8x32x512x512, .f32⟩
  | 1 => ⟨S8x512x512x2, .f32⟩
  | 2 => ⟨S_, .f32⟩
  | 3 => ⟨S8x512x512x2, .f32⟩
  | 4 => ⟨S8x512x512x2, .f32⟩
  | 5 => ⟨S_, .f32⟩
  | 6 => ⟨S8x512x512x2, .f32⟩
  | 7 => ⟨S8x512x512x2, .f32⟩
  | 8 => ⟨S8x512x512x1, .f32⟩
  | 9 => ⟨S8x512x512, .f32⟩
  | 10 => ⟨S_, .f32⟩
  | 11 => ⟨S8x512x512, .f32⟩
  | 12 => ⟨S8x512x512, .f32⟩
  | 13 => ⟨S_, .f32⟩
  | 14 => ⟨S8x512x512, .f32⟩
  | 15 => ⟨S8x512x512, .f32⟩
  | 16 => ⟨S_, .f32⟩
  | 17 => ⟨S_, .f32⟩
  | 18 => ⟨S_, .f32⟩
  | 19 => ⟨S8x512x512, .f32⟩
  | 20 => ⟨S8x512x512, .f32⟩
  | 21 => ⟨S_, .f32⟩
  | 22 => ⟨S8x512x512, .f32⟩
  | 23 => ⟨S8x512x512, .f32⟩
  | 24 => ⟨S8x512x512x1, .f32⟩
  | 25 => ⟨S8x512x512, .f32⟩
  | 26 => ⟨S_, .f32⟩
  | 27 => ⟨S8x512x512, .f32⟩
  | 28 => ⟨S8x512x512, .f32⟩
  | 29 => ⟨S_, .f32⟩
  | 30 => ⟨S8x512x512, .f32⟩
  | 31 => ⟨S8x512x512, .f32⟩
  | 32 => ⟨S_, .f32⟩
  | 33 => ⟨S_, .f32⟩
  | 34 => ⟨S_, .f32⟩
  | 35 => ⟨S8x512x512, .f32⟩
  | 36 => ⟨S8x512x512, .f32⟩
  | 37 => ⟨S_, .f32⟩
  | 38 => ⟨S8x512x512, .f32⟩
  | 39 => ⟨S8x512x512, .f32⟩
  | 40 => ⟨S8x512x512, .i32⟩
  | 41 => ⟨S8x512x512, .i32⟩
  | 42 => ⟨S8, .i32⟩
  | 43 => ⟨S8x1x1, .i32⟩
  | 44 => ⟨S_, .f32⟩
  | 45 => ⟨S8x515x515, .f32⟩
  | 46 => ⟨S_, .i32⟩
  | 47 => ⟨S8x512x512, .i32⟩
  | 48 => ⟨S8x512x512, .i32⟩
  | 49 => ⟨S8x512x512, .f32⟩
  | 50 => ⟨S8x512x512, .f32⟩
  | 51 => ⟨S8x512x512, .f32⟩
  | 52 => ⟨S_, .f32⟩
  | 53 => ⟨S8x512x512, .f32⟩
  | 54 => ⟨S8x512x512, .f32⟩
  | 55 => ⟨S_, .f32⟩
  | 56 => ⟨S8x512x512, .f32⟩
  | 57 => ⟨S8x512x512, .f32⟩
  | 58 => ⟨S_, .i32⟩
  | 59 => ⟨S8x512x512, .i32⟩
  | 60 => ⟨S8x512x512, .i32⟩
  | 61 => ⟨S8x512x512, .f32⟩
  | 62 => ⟨S8x512x512, .f32⟩
  | 63 => ⟨S8x512x512, .f32⟩
  | 64 => ⟨S_, .f32⟩
  | 65 => ⟨S8x512x512, .f32⟩
  | 66 => ⟨S8x512x512, .f32⟩
  | 67 => ⟨S_, .f32⟩
  | 68 => ⟨S8x512x512, .f32⟩
  | 69 => ⟨S8x512x512, .f32⟩
  | 70 => ⟨S_, .i32⟩
  | 71 => ⟨S8x512x512, .i32⟩
  | 72 => ⟨S8x512x512, .i32⟩
  | 73 => ⟨S_, .i32⟩
  | 74 => ⟨S8x512x512, .i32⟩
  | 75 => ⟨S8x512x512, .i32⟩
  | 76 => ⟨S8x512x512, .f32⟩
  | 77 => ⟨S_, .i32⟩
  | 78 => ⟨S8x1x1, .i32⟩
  | 79 => ⟨S8x1x1, .i1⟩
  | 80 => ⟨S_, .i32⟩
  | 81 => ⟨S8x1x1, .i32⟩
  | 82 => ⟨S8x1x1, .i32⟩
  | 83 => ⟨S8x1x1, .i32⟩
  | 84 => ⟨S_, .i32⟩
  | 85 => ⟨S8x512x512, .i32⟩
  | 86 => ⟨S8x512x512, .i1⟩
  | 87 => ⟨S_, .i32⟩
  | 88 => ⟨S8x512x512, .i32⟩
  | 89 => ⟨S8x512x512, .i32⟩
  | 90 => ⟨S8x512x512, .i32⟩
  | 91 => ⟨S_, .i32⟩
  | 92 => ⟨S8x512x512, .i32⟩
  | 93 => ⟨S8x512x512, .i1⟩
  | 94 => ⟨S_, .i32⟩
  | 95 => ⟨S8x512x512, .i32⟩
  | 96 => ⟨S8x512x512, .i32⟩
  | 97 => ⟨S8x512x512, .i32⟩
  | 98 => ⟨S8x512x512, .i32⟩
  | 99 => ⟨S8x512x512x1, .i32⟩
  | 100 => ⟨S8x512x512x1, .i32⟩
  | 101 => ⟨S8x512x512x1, .i32⟩
  | 102 => ⟨S8x512x512x3, .i32⟩
  | 103 => ⟨S8x515x515, .f32⟩
  | 104 => ⟨S_, .i32⟩
  | 105 => ⟨S8x512x512, .i32⟩
  | 106 => ⟨S8x512x512, .i32⟩
  | 107 => ⟨S8x512x512, .f32⟩
  | 108 => ⟨S8x512x512, .f32⟩
  | 109 => ⟨S8x512x512, .f32⟩
  | 110 => ⟨S_, .f32⟩
  | 111 => ⟨S8x512x512, .f32⟩
  | 112 => ⟨S8x512x512, .f32⟩
  | 113 => ⟨S_, .f32⟩
  | 114 => ⟨S8x512x512, .f32⟩
  | 115 => ⟨S8x512x512, .f32⟩
  | 116 => ⟨S_, .i32⟩
  | 117 => ⟨S8x512x512, .i32⟩
  | 118 => ⟨S8x512x512, .i32⟩
  | 119 => ⟨S_, .i32⟩
  | 120 => ⟨S8x512x512, .i32⟩
  | 121 => ⟨S8x512x512, .i32⟩
  | 122 => ⟨S8x512x512, .f32⟩
  | 123 => ⟨S_, .i32⟩
  | 124 => ⟨S8x1x1, .i32⟩
  | 125 => ⟨S8x1x1, .i1⟩
  | 126 => ⟨S_, .i32⟩
  | 127 => ⟨S8x1x1, .i32⟩
  | _ => ⟨S8x32x512x512, .f32⟩

abbrev hbmTy0_1 (i : Nat) : BufTy := match i % 128 with
  | 0 => ⟨S8x1x1, .i32⟩
  | 1 => ⟨S8x1x1, .i32⟩
  | 2 => ⟨S_, .i32⟩
  | 3 => ⟨S8x512x512, .i32⟩
  | 4 => ⟨S8x512x512, .i1⟩
  | 5 => ⟨S_, .i32⟩
  | 6 => ⟨S8x512x512, .i32⟩
  | 7 => ⟨S8x512x512, .i32⟩
  | 8 => ⟨S8x512x512, .i32⟩
  | 9 => ⟨S_, .i32⟩
  | 10 => ⟨S8x512x512, .i32⟩
  | 11 => ⟨S8x512x512, .i1⟩
  | 12 => ⟨S_, .i32⟩
  | 13 => ⟨S8x512x512, .i32⟩
  | 14 => ⟨S8x512x512, .i32⟩
  | 15 => ⟨S8x512x512, .i32⟩
  | 16 => ⟨S8x512x512, .i32⟩
  | 17 => ⟨S8x512x512x1, .i32⟩
  | 18 => ⟨S8x512x512x1, .i32⟩
  | 19 => ⟨S8x512x512x1, .i32⟩
  | 20 => ⟨S8x512x512x3, .i32⟩
  | 21 => ⟨S8x515x515, .f32⟩
  | 22 => ⟨S_, .i32⟩
  | 23 => ⟨S8x512x512, .i32⟩
  | 24 => ⟨S8x512x512, .i32⟩
  | 25 => ⟨S8x512x512, .f32⟩
  | 26 => ⟨S8x512x512, .f32⟩
  | 27 => ⟨S8x512x512, .f32⟩
  | 28 => ⟨S_, .f32⟩
  | 29 => ⟨S8x512x512, .f32⟩
  | 30 => ⟨S8x512x512, .f32⟩
  | 31 => ⟨S_, .f32⟩
  | 32 => ⟨S8x512x512, .f32⟩
  | 33 => ⟨S8x512x512, .f32⟩
  | 34 => ⟨S_, .i32⟩
  | 35 => ⟨S8x512x512, .i32⟩
  | 36 => ⟨S8x512x512, .i32⟩
  | 37 => ⟨S8x512x512, .f32⟩
  | 38 => ⟨S8x512x512, .f32⟩
  | 39 => ⟨S8x512x512, .f32⟩
  | 40 => ⟨S_, .f32⟩
  | 41 => ⟨S8x512x512, .f32⟩
  | 42 => ⟨S8x512x512, .f32⟩
  | 43 => ⟨S_, .f32⟩
  | 44 => ⟨S8x512x512, .f32⟩
  | 45 => ⟨S8x512x512, .f32⟩
  | 46 => ⟨S_, .i32⟩
  | 47 => ⟨S8x512x512, .i32⟩
  | 48 => ⟨S8x512x512, .i32⟩
  | 49 => ⟨S_, .i32⟩
  | 50 => ⟨S8x512x512, .i32⟩
  | 51 => ⟨S8x512x512, .i32⟩
  | 52 => ⟨S8x512x512, .f32⟩
  | 53 => ⟨S_, .i32⟩
  | 54 => ⟨S8x1x1, .i32⟩
  | 55 => ⟨S8x1x1, .i1⟩
  | 56 => ⟨S_, .i32⟩
  | 57 => ⟨S8x1x1, .i32⟩
  | 58 => ⟨S8x1x1, .i32⟩
  | 59 => ⟨S8x1x1, .i32⟩
  | 60 => ⟨S_, .i32⟩
  | 61 => ⟨S8x512x512, .i32⟩
  | 62 => ⟨S8x512x512, .i1⟩
  | 63 => ⟨S_, .i32⟩
  | 64 => ⟨S8x512x512, .i32⟩
  | 65 => ⟨S8x512x512, .i32⟩
  | 66 => ⟨S8x512x512, .i32⟩
  | 67 => ⟨S_, .i32⟩
  | 68 => ⟨S8x512x512, .i32⟩
  | 69 => ⟨S8x512x512, .i1⟩
  | 70 => ⟨S_, .i32⟩
  | 71 => ⟨S8x512x512, .i32⟩
  | 72 => ⟨S8x512x512, .i32⟩
  | 73 => ⟨S8x512x512, .i32⟩
  | 74 => ⟨S8x512x512, .i32⟩
  | 75 => ⟨S8x512x512x1, .i32⟩
  | 76 => ⟨S8x512x512x1, .i32⟩
  | 77 => ⟨S8x512x512x1, .i32⟩
  | 78 => ⟨S8x512x512x3, .i32⟩
  | 79 => ⟨S8x515x515, .f32⟩
  | 80 => ⟨S_, .i32⟩
  | 81 => ⟨S8x512x512, .i32⟩
  | 82 => ⟨S8x512x512, .i32⟩
  | 83 => ⟨S8x512x512, .f32⟩
  | 84 => ⟨S8x512x512, .f32⟩
  | 85 => ⟨S8x512x512, .f32⟩
  | 86 => ⟨S_, .f32⟩
  | 87 => ⟨S8x512x512, .f32⟩
  | 88 => ⟨S8x512x512, .f32⟩
  | 89 => ⟨S_, .f32⟩
  | 90 => ⟨S8x512x512, .f32⟩
  | 91 => ⟨S8x512x512, .f32⟩
  | 92 => ⟨S_, .i32⟩
  | 93 => ⟨S8x512x512, .i32⟩
  | 94 => ⟨S8x512x512, .i32⟩
  | 95 => ⟨S_, .i32⟩
  | 96 => ⟨S8x512x512, .i32⟩
  | 97 => ⟨S8x512x512, .i32⟩
  | 98 => ⟨S8x512x512, .f32⟩
  | 99 => ⟨S_, .i32⟩
  | 100 => ⟨S8x1x1, .i32⟩
  | 101 => ⟨S8x1x1, .i1⟩
  | 102 => ⟨S_, .i32⟩
  | 103 => ⟨S8x1x1, .i32⟩
  | 104 => ⟨S8x1x1, .i32⟩
  | 105 => ⟨S8x1x1, .i32⟩
  | 106 => ⟨S_, .i32⟩
  | 107 => ⟨S8x512x512, .i32⟩
  | 108 => ⟨S8x512x512, .i1⟩
  | 109 => ⟨S_, .i32⟩
  | 110 => ⟨S8x512x512, .i32⟩
  | 111 => ⟨S8x512x512, .i32⟩
  | 112 => ⟨S8x512x512, .i32⟩
  | 113 => ⟨S_, .i32⟩
  | 114 => ⟨S8x512x512, .i32⟩
  | 115 => ⟨S8x512x512, .i1⟩
  | 116 => ⟨S_, .i32⟩
  | 117 => ⟨S8x512x512, .i32⟩
  | 118 => ⟨S8x512x512, .i32⟩
  | 119 => ⟨S8x512x512, .i32⟩
  | 120 => ⟨S8x512x512, .i32⟩
  | 121 => ⟨S8x512x512x1, .i32⟩
  | 122 => ⟨S8x512x512x1, .i32⟩
  | 123 => ⟨S8x512x512x1, .i32⟩
  | 124 => ⟨S8x512x512x3, .i32⟩
  | 125 => ⟨S8x515x515, .f32⟩
  | 126 => ⟨S8x512x512, .f32⟩
  | 127 => ⟨S8x1x512x512, .f32⟩
  | _ => ⟨S8x32x512x512, .f32⟩

abbrev hbmTy0_2 (i : Nat) : BufTy := match i % 128 with
  | 0 => ⟨S8x32x512x512, .f32⟩
  | _ => ⟨S8x32x512x512, .f32⟩

abbrev hbmTy (i : Nat) : BufTy := match i / 128 with
  | 0 => hbmTy0_0 i
  | 1 => hbmTy0_1 i
  | 2 => hbmTy0_2 i
  | _ => ⟨S8x32x512x512, .f32⟩

abbrev bufTy : (tb : Table) → Fin (tcTables nBuf tb) → BufTy
  | .hbm, ⟨i, _⟩ => hbmTy i
  | _, _ => ⟨S8x32x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_cst_4 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_5 : Ref sig .tc := ⟨.hbm, 26, rfl⟩
abbrev main_v13 : Ref sig .tc := ⟨.hbm, 27, rfl⟩
abbrev main_v14 : Ref sig .tc := ⟨.hbm, 28, rfl⟩
abbrev main_cst_6 : Ref sig .tc := ⟨.hbm, 29, rfl⟩
abbrev main_v15 : Ref sig .tc := ⟨.hbm, 30, rfl⟩
abbrev main_v16 : Ref sig .tc := ⟨.hbm, 31, rfl⟩
abbrev main_cst_7 : Ref sig .tc := ⟨.hbm, 32, rfl⟩
abbrev main_cst_8 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_9 : Ref sig .tc := ⟨.hbm, 44, rfl⟩
abbrev main_v22 : Ref sig .tc := ⟨.hbm, 45, rfl⟩
abbrev main_c : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_10 : Ref sig .tc := ⟨.hbm, 52, rfl⟩
abbrev main_v28 : Ref sig .tc := ⟨.hbm, 53, rfl⟩
abbrev main_v29 : Ref sig .tc := ⟨.hbm, 54, rfl⟩
abbrev main_call2_cst : Ref sig .tc := ⟨.hbm, 55, rfl⟩
abbrev main_call2_v0 : Ref sig .tc := ⟨.hbm, 56, rfl⟩
abbrev main_v30 : Ref sig .tc := ⟨.hbm, 57, rfl⟩
abbrev main_c_11 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_cst_12 : Ref sig .tc := ⟨.hbm, 64, rfl⟩
abbrev main_v36 : Ref sig .tc := ⟨.hbm, 65, rfl⟩
abbrev main_v37 : Ref sig .tc := ⟨.hbm, 66, rfl⟩
abbrev main_call3_cst : Ref sig .tc := ⟨.hbm, 67, rfl⟩
abbrev main_call3_v0 : Ref sig .tc := ⟨.hbm, 68, rfl⟩
abbrev main_v38 : Ref sig .tc := ⟨.hbm, 69, rfl⟩
abbrev main_c_13 : Ref sig .tc := ⟨.hbm, 70, rfl⟩
abbrev main_v39 : Ref sig .tc := ⟨.hbm, 71, rfl⟩
abbrev main_v40 : Ref sig .tc := ⟨.hbm, 72, rfl⟩
abbrev main_c_14 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_c_15 : Ref sig .tc := ⟨.hbm, 77, rfl⟩
abbrev main_v44 : Ref sig .tc := ⟨.hbm, 78, rfl⟩
abbrev main_v45 : Ref sig .tc := ⟨.hbm, 79, rfl⟩
abbrev main_c_16 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_c_17 : Ref sig .tc := ⟨.hbm, 84, rfl⟩
abbrev main_v49 : Ref sig .tc := ⟨.hbm, 85, rfl⟩
abbrev main_v50 : Ref sig .tc := ⟨.hbm, 86, rfl⟩
abbrev main_c_18 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_c_19 : Ref sig .tc := ⟨.hbm, 91, rfl⟩
abbrev main_v54 : Ref sig .tc := ⟨.hbm, 92, rfl⟩
abbrev main_v55 : Ref sig .tc := ⟨.hbm, 93, rfl⟩
abbrev main_c_20 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_c_21 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_cst_22 : Ref sig .tc := ⟨.hbm, 110, rfl⟩
abbrev main_v70 : Ref sig .tc := ⟨.hbm, 111, rfl⟩
abbrev main_v71 : Ref sig .tc := ⟨.hbm, 112, rfl⟩
abbrev main_call4_cst : Ref sig .tc := ⟨.hbm, 113, rfl⟩
abbrev main_call4_v0 : Ref sig .tc := ⟨.hbm, 114, rfl⟩
abbrev main_v72 : Ref sig .tc := ⟨.hbm, 115, rfl⟩
abbrev main_c_23 : Ref sig .tc := ⟨.hbm, 116, rfl⟩
abbrev main_v73 : Ref sig .tc := ⟨.hbm, 117, rfl⟩
abbrev main_v74 : Ref sig .tc := ⟨.hbm, 118, rfl⟩
abbrev main_c_24 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_c_25 : Ref sig .tc := ⟨.hbm, 123, rfl⟩
abbrev main_v78 : Ref sig .tc := ⟨.hbm, 124, rfl⟩
abbrev main_v79 : Ref sig .tc := ⟨.hbm, 125, rfl⟩
abbrev main_c_26 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_c_27 : Ref sig .tc := ⟨.hbm, 130, rfl⟩
abbrev main_v83 : Ref sig .tc := ⟨.hbm, 131, rfl⟩
abbrev main_v84 : Ref sig .tc := ⟨.hbm, 132, rfl⟩
abbrev main_c_28 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_c_29 : Ref sig .tc := ⟨.hbm, 137, rfl⟩
abbrev main_v88 : Ref sig .tc := ⟨.hbm, 138, rfl⟩
abbrev main_v89 : Ref sig .tc := ⟨.hbm, 139, rfl⟩
abbrev main_c_30 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_c_31 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_cst_32 : Ref sig .tc := ⟨.hbm, 156, rfl⟩
abbrev main_v104 : Ref sig .tc := ⟨.hbm, 157, rfl⟩
abbrev main_v105 : Ref sig .tc := ⟨.hbm, 158, rfl⟩
abbrev main_call5_cst : Ref sig .tc := ⟨.hbm, 159, rfl⟩
abbrev main_call5_v0 : Ref sig .tc := ⟨.hbm, 160, rfl⟩
abbrev main_v106 : Ref sig .tc := ⟨.hbm, 161, rfl⟩
abbrev main_c_33 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_cst_34 : Ref sig .tc := ⟨.hbm, 168, rfl⟩
abbrev main_v112 : Ref sig .tc := ⟨.hbm, 169, rfl⟩
abbrev main_v113 : Ref sig .tc := ⟨.hbm, 170, rfl⟩
abbrev main_call6_cst : Ref sig .tc := ⟨.hbm, 171, rfl⟩
abbrev main_call6_v0 : Ref sig .tc := ⟨.hbm, 172, rfl⟩
abbrev main_v114 : Ref sig .tc := ⟨.hbm, 173, rfl⟩
abbrev main_c_35 : Ref sig .tc := ⟨.hbm, 174, rfl⟩
abbrev main_v115 : Ref sig .tc := ⟨.hbm, 175, rfl⟩
abbrev main_v116 : Ref sig .tc := ⟨.hbm, 176, rfl⟩
abbrev main_c_36 : Ref sig .tc := ⟨.hbm, 177, rfl⟩
abbrev main_v117 : Ref sig .tc := ⟨.hbm, 178, rfl⟩
abbrev main_v118 : Ref sig .tc := ⟨.hbm, 179, rfl⟩
abbrev main_v119 : Ref sig .tc := ⟨.hbm, 180, rfl⟩
abbrev main_c_37 : Ref sig .tc := ⟨.hbm, 181, rfl⟩
abbrev main_v120 : Ref sig .tc := ⟨.hbm, 182, rfl⟩
abbrev main_v121 : Ref sig .tc := ⟨.hbm, 183, rfl⟩
abbrev main_c_38 : Ref sig .tc := ⟨.hbm, 184, rfl⟩
abbrev main_v122 : Ref sig .tc := ⟨.hbm, 185, rfl⟩
abbrev main_v123 : Ref sig .tc := ⟨.hbm, 186, rfl⟩
abbrev main_v124 : Ref sig .tc := ⟨.hbm, 187, rfl⟩
abbrev main_c_39 : Ref sig .tc := ⟨.hbm, 188, rfl⟩
abbrev main_v125 : Ref sig .tc := ⟨.hbm, 189, rfl⟩
abbrev main_v126 : Ref sig .tc := ⟨.hbm, 190, rfl⟩
abbrev main_c_40 : Ref sig .tc := ⟨.hbm, 191, rfl⟩
abbrev main_v127 : Ref sig .tc := ⟨.hbm, 192, rfl⟩
abbrev main_v128 : Ref sig .tc := ⟨.hbm, 193, rfl⟩
abbrev main_v129 : Ref sig .tc := ⟨.hbm, 194, rfl⟩
abbrev main_c_41 : Ref sig .tc := ⟨.hbm, 195, rfl⟩
abbrev main_v130 : Ref sig .tc := ⟨.hbm, 196, rfl⟩
abbrev main_v131 : Ref sig .tc := ⟨.hbm, 197, rfl⟩
abbrev main_c_42 : Ref sig .tc := ⟨.hbm, 198, rfl⟩
abbrev main_v132 : Ref sig .tc := ⟨.hbm, 199, rfl⟩
abbrev main_v133 : Ref sig .tc := ⟨.hbm, 200, rfl⟩
abbrev main_v134 : Ref sig .tc := ⟨.hbm, 201, rfl⟩
abbrev main_v135 : Ref sig .tc := ⟨.hbm, 202, rfl⟩
abbrev main_v136 : Ref sig .tc := ⟨.hbm, 203, rfl⟩
abbrev main_v137 : Ref sig .tc := ⟨.hbm, 204, rfl⟩
abbrev main_v138 : Ref sig .tc := ⟨.hbm, 205, rfl⟩
abbrev main_v139 : Ref sig .tc := ⟨.hbm, 206, rfl⟩
abbrev main_v140 : Ref sig .tc := ⟨.hbm, 207, rfl⟩
abbrev main_c_43 : Ref sig .tc := ⟨.hbm, 208, rfl⟩
abbrev main_v141 : Ref sig .tc := ⟨.hbm, 209, rfl⟩
abbrev main_v142 : Ref sig .tc := ⟨.hbm, 210, rfl⟩
abbrev main_v143 : Ref sig .tc := ⟨.hbm, 211, rfl⟩
abbrev main_v144 : Ref sig .tc := ⟨.hbm, 212, rfl⟩
abbrev main_v145 : Ref sig .tc := ⟨.hbm, 213, rfl⟩
abbrev main_cst_44 : Ref sig .tc := ⟨.hbm, 214, rfl⟩
abbrev main_v146 : Ref sig .tc := ⟨.hbm, 215, rfl⟩
abbrev main_v147 : Ref sig .tc := ⟨.hbm, 216, rfl⟩
abbrev main_call7_cst : Ref sig .tc := ⟨.hbm, 217, rfl⟩
abbrev main_call7_v0 : Ref sig .tc := ⟨.hbm, 218, rfl⟩
abbrev main_v148 : Ref sig .tc := ⟨.hbm, 219, rfl⟩
abbrev main_c_45 : Ref sig .tc := ⟨.hbm, 220, rfl⟩
abbrev main_v149 : Ref sig .tc := ⟨.hbm, 221, rfl⟩
abbrev main_v150 : Ref sig .tc := ⟨.hbm, 222, rfl⟩
abbrev main_c_46 : Ref sig .tc := ⟨.hbm, 223, rfl⟩
abbrev main_v151 : Ref sig .tc := ⟨.hbm, 224, rfl⟩
abbrev main_v152 : Ref sig .tc := ⟨.hbm, 225, rfl⟩
abbrev main_v153 : Ref sig .tc := ⟨.hbm, 226, rfl⟩
abbrev main_c_47 : Ref sig .tc := ⟨.hbm, 227, rfl⟩
abbrev main_v154 : Ref sig .tc := ⟨.hbm, 228, rfl⟩
abbrev main_v155 : Ref sig .tc := ⟨.hbm, 229, rfl⟩
abbrev main_c_48 : Ref sig .tc := ⟨.hbm, 230, rfl⟩
abbrev main_v156 : Ref sig .tc := ⟨.hbm, 231, rfl⟩
abbrev main_v157 : Ref sig .tc := ⟨.hbm, 232, rfl⟩
abbrev main_v158 : Ref sig .tc := ⟨.hbm, 233, rfl⟩
abbrev main_c_49 : Ref sig .tc := ⟨.hbm, 234, rfl⟩
abbrev main_v159 : Ref sig .tc := ⟨.hbm, 235, rfl⟩
abbrev main_v160 : Ref sig .tc := ⟨.hbm, 236, rfl⟩
abbrev main_c_50 : Ref sig .tc := ⟨.hbm, 237, rfl⟩
abbrev main_v161 : Ref sig .tc := ⟨.hbm, 238, rfl⟩
abbrev main_v162 : Ref sig .tc := ⟨.hbm, 239, rfl⟩
abbrev main_v163 : Ref sig .tc := ⟨.hbm, 240, rfl⟩
abbrev main_c_51 : Ref sig .tc := ⟨.hbm, 241, rfl⟩
abbrev main_v164 : Ref sig .tc := ⟨.hbm, 242, rfl⟩
abbrev main_v165 : Ref sig .tc := ⟨.hbm, 243, rfl⟩
abbrev main_c_52 : Ref sig .tc := ⟨.hbm, 244, rfl⟩
abbrev main_v166 : Ref sig .tc := ⟨.hbm, 245, rfl⟩
abbrev main_v167 : Ref sig .tc := ⟨.hbm, 246, rfl⟩
abbrev main_v168 : Ref sig .tc := ⟨.hbm, 247, rfl⟩
abbrev main_v169 : Ref sig .tc := ⟨.hbm, 248, rfl⟩
abbrev main_v170 : Ref sig .tc := ⟨.hbm, 249, rfl⟩
abbrev main_v171 : Ref sig .tc := ⟨.hbm, 250, rfl⟩
abbrev main_v172 : Ref sig .tc := ⟨.hbm, 251, rfl⟩
abbrev main_v173 : Ref sig .tc := ⟨.hbm, 252, rfl⟩
abbrev main_v174 : Ref sig .tc := ⟨.hbm, 253, rfl⟩
abbrev main_v175 : Ref sig .tc := ⟨.hbm, 254, rfl⟩
abbrev main_v176 : Ref sig .tc := ⟨.hbm, 255, rfl⟩
abbrev main_v177 : Ref sig .tc := ⟨.hbm, 256, rfl⟩

abbrev nD : Nat := 1
abbrev τ : Topo := Topo.v7x

variable {F : FTy → Type} [FloatOps F]

class Facts₀ : Prop where
  bcast_S_S8x512x512x2 : S_.BroadcastsInDim S8x512x512x2 (![] : Fin 0 → Fin S8x512x512x2.rank)
  slices_S8x512x512x2_S8x512x512x1_0_0_0_0 : S8x512x512x2.Slices ![0, 0, 0, 0] S8x512x512x1
  shapeCasts_S8x512x512x1_S8x512x512 : S8x512x512x1.ShapeCasts S8x512x512
  bcast_S_S8x512x512 : S_.BroadcastsInDim S8x512x512 (![] : Fin 0 → Fin S8x512x512.rank)
  slices_S8x512x512x2_S8x512x512x1_0_0_0_1 : S8x512x512x2.Slices ![0, 0, 0, 1] S8x512x512x1
  bcast_S8_S8x1x1_0 : S8.BroadcastsInDim S8x1x1 (![0] : Fin 1 → Fin S8x1x1.rank)
  bcast_S_S8x515x515 : S_.BroadcastsInDim S8x515x515 (![] : Fin 0 → Fin S8x515x515.rank)
  bcast_S_S8x1x1 : S_.BroadcastsInDim S8x1x1 (![] : Fin 0 → Fin S8x1x1.rank)
  bcast_S8x1x1_S8x512x512_0_1_2 : S8x1x1.BroadcastsInDim S8x512x512 (![0, 1, 2] : Fin 3 → Fin S8x512x512.rank)
  bcast_S8x512x512_S8x512x512x1_0_1_2 : S8x512x512.BroadcastsInDim S8x512x512x1 (![0, 1, 2] : Fin 3 → Fin S8x512x512x1.rank)
  concatenates_S8x512x512x1_S8x512x512x1_S8x512x512x1_S8x512x512x3_d3 : Shape.Concatenates [S8x512x512x1, S8x512x512x1, S8x512x512x1] S8x512x512x3 3
  slices_S8x515x515_S8x512x512_0_1_1 : S8x515x515.Slices ![0, 1, 1] S8x512x512
  bcast_S8x512x512_S8x1x512x512_0_2_3 : S8x512x512.BroadcastsInDim S8x1x512x512 (![0, 2, 3] : Fin 3 → Fin S8x1x512x512.rank)
  bcast_S8x1x512x512_S8x32x512x512_0_1_2_3 : S8x1x512x512.BroadcastsInDim S8x32x512x512 (![0, 1, 2, 3] : Fin 4 → Fin S8x32x512x512.rank)
  scatter_S8x515x515_S8x512x512x3_S8x512x512_n_012_012_3_wf : ScatterDims.WF S8x515x515 S8x512x512x3 S8x512x512 [] [0, 1, 2] [0, 1, 2] 3

variable [Facts₀]

def scatter_S8x515x515_S8x512x512x3_S8x512x512_n_012_012_3 : ScatterDims S8x515x515 S8x512x512x3 S8x512x512 where
  updateWindowDims := []
  insertedWindowDims := [0, 1, 2]
  scatterDimsToOperandDims := [0, 1, 2]
  indexVectorDim := 3
  wf := scatter_S8x515x515_S8x512x512x3_S8x512x512_n_012_012_3_wf

class Facts : Prop extends Facts₀ where

variable [Facts]
-- ==== Proof.K.Data.lean ====
/-
  The proof data of the two kernel regions, at any float instance `F` and any contents `V` of the TensorCore's
  buffers at a region's entry.

  Region 0 walks the grid 8 × 128: point `t` is batch `t / 128`, tile `t % 128`. Each point adds to a 512 × 512
  accumulator (a scratch buffer kept from point to point) the contraction, over the tile's 2048 pixels, of the
  two axes' weight rows; the first tile of a batch starts from zeros; the last one copies the accumulator to the
  output block. `step` is one point's update, `accAt` the accumulator after each point.
  Region 1 walks the grid 8 × 4 and writes the batch's 512 × 512 map on 8 channels at a time.
-/
import proofs.«115873_j3066606649874_1_alg».proof.Proof.Gen.Kernel.Launch
import proofs.«115873_j3066606649874_1_alg».proof.Proof.Gen.Kernel.Skeleton
import proofs.«115873_j3066606649874_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0: the accumulation -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The two columns of a tile's [1, 2048, 2] block: the first axis' raw coordinates and the second's. -/
abbrev colI : Rect S1x2048x2 := Rect.unit (s := S1x2048x2) ![0, 0, 0] S1x2048x1.size inb_S1x2048x2_S1x2048x1_0_0_0
abbrev colJ : Rect S1x2048x2 := Rect.unit (s := S1x2048x2) ![0, 0, 1] S1x2048x1.size inb_S1x2048x2_S1x2048x1_0_0_1

/-- One point's update of the accumulator: the tile's block `x`, the accumulator `acc` as the point finds it
    (after the reset, at a batch's first tile). -/
def step (x : Vec F S1x2048x2 .f32) (acc : Vec F S512x512 .f32) : Vec F S512x512 .f32 :=
  k0_pay1 (k0_pay7 (View.ld x colJ))
    (k0_pay9 (k0_pay5 (View.ld x colJ)) (k0_pay7 (View.ld x colJ)))
    (k0_pay10 (k0_pay5 (View.ld x colJ)) (k0_pay7 (View.ld x colJ)))
    (iota .tc S2048x512 32 [1] iota_S2048x512_d1_w32)
    (k0_pay11 (k0_pay4 (View.ld x colI)) (k0_pay6 (View.ld x colI)) (k0_pay8 (View.ld x colI)) (Scalar.ofBits .f32 0x3F800000#32))
    (k0_pay12 (k0_pay7 (View.ld x colJ)))
    acc

/-- The accumulator after the body at position `n`: a batch's first tile (`n % 128 = 0`) steps from zeros, every
    other tile from what the point before left. -/
def accAt (c : Dev nD) : (n : ℕ) → n < cfg0.N → Vec F S512x512 .f32
  | 0, hn => step (iblk0 V c 0 ⟨0, hn⟩) (k0_pay3 (F := F))
  | n + 1, hn =>
    if (n + 1) % 128 = 0 then step (iblk0 V c 0 ⟨n + 1, hn⟩) (k0_pay3 (F := F))
    else step (iblk0 V c 0 ⟨n + 1, hn⟩) (accAt c n (Nat.lt_of_succ_lt hn))

theorem accAt_first (c : Dev nD) (t : Fin cfg0.N) (h : t.val % 128 = 0) :
    accAt V c t.val t.isLt = step (iblk0 V c 0 t) (k0_pay3 (F := F)) := by
  obtain ⟨n, hn⟩ := t
  cases n with
  | zero => rfl
  | succ n => exact if_pos h

theorem accAt_next (c : Dev nD) (t : Fin cfg0.N) (h : ¬t.val % 128 = 0) :
    accAt V c t.val t.isLt = step (iblk0 V c 0 t) (accAt V c (t.val - 1) (Nat.lt_of_le_of_lt (Nat.sub_le _ _) t.isLt)) := by
  obtain ⟨n, hn⟩ := t
  cases n with
  | zero => exact absurd (Nat.zero_mod _) h
  | succ n => exact if_neg h

/-- The scratch accumulator as a memref, and the other region's staging buffers, which ride along untouched. -/
abbrev accM : Memref sig .tc .vmem S512x512 .f32 := Memref.whole cc0_scratch0

/-- The scoped buffers region 0 does not stage, less the accumulator: region 1's four staging buffers, each whole
    at some contents. -/
def others0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f))

/-- The region's invariant before position `n`: before the first point every scoped buffer it does not stage at
    anything and the generator register at some state; afterwards the accumulator at what the point before left,
    the rest as before. -/
def PhiS (c : Dev nD) : (n : ℕ) → n ≤ cfg0.N → sProp 𝕄
  | 0, _ => Pipeline.ΦA spec0 c
  | n + 1, hn => iprop(owns (c : Thread nD τ) accM fullShare (accAt V c n hn) ∗ others0 (F := F) c ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(owns (c : Thread nD τ) accM fullShare (accAt V c n hn) ∗ others0 (F := F) c ∗ (∃ r, prngReg c r)) := rfl

theorem PhiS_pos (c : Dev nD) (n : ℕ) (h : n ≤ cfg0.N) (hz : n ≠ 0) :
    PhiS V c n h = iprop(owns (c : Thread nD τ) accM fullShare (accAt V c (n - 1) (by omega)) ∗ others0 (F := F) c ∗ (∃ r, prngReg c r)) := by
  cases n with
  | zero => exact absurd rfl hz
  | succ n => rfl

/-- The class invariant with the accumulator taken out of the scoped rest. -/
theorem PhiA0_eq (c : Dev nD) :
    (Pipeline.ΦA spec0 c : sProp 𝕄)
      = iprop(((∃ d, owns (c : Thread nD τ) accM fullShare d) ∗ others0 (F := F) c) ∗ (∃ r, prngReg c r)) := by
  unfold Pipeline.ΦA others0; rw [scopedRest0_eq]; simp only [accM, owns_whole]; rfl

/-- The proof data of region 0 on core `c`: the arrays as the region finds them; after the body at point `t` the
    input's buffer at its block and the output's at the accumulator after the point, relaid as [1, 512, 512] (read
    only where the block is written back: at a batch's last tile); the invariant `PhiS`; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => k0_pay2 (accAt V c t.val t.isLt)
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = k0_pay2 (accAt V c t.val t.isLt) := by dsimp only [dat0]
theorem Phi0_castSucc (c : Dev nD) (t : Fin cfg0.N) :
    (dat0 V c).Φ t.castSucc = PhiS V c t.val (Nat.le_of_lt t.isLt) := by
  dsimp only [dat0]; simp only [Fin.coe_castSucc]

/-! ## Region 1: the map on every channel -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev whole1 : Rect S1x512x512 := Rect.unit (s := S1x512x512) ![0, 0, 0] S1x512x512.size inb_S1x512x512_S1x512x512_0_0_0
abbrev whole8 : Rect S1x8x512x512 := Rect.unit (s := S1x8x512x512) ![0, 0, 0, 0] S1x8x512x512.size inb_S1x8x512x512_S1x8x512x512_0_0_0_0

/-- What the body leaves in the output's staging buffer: its one store, of the input block on 8 channels. -/
def out1_1 (x0 : Vec F S1x512x512 .f32) : Vec F S1x8x512x512 .f32 :=
  View.canon [⟨whole8, k1_pay1 (View.ld x0 whole1)⟩]

/-- The proof data of region 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]

end Cert.Kernel.Hand

end
-- ==== Proof.K.Region0.lean ====
/-
  Region 0's body at every grid point: the accumulator reset at a batch's first tile, stepped at every tile, copied out at the last.

  The body is run once per case of its two conditionals (first tile, middle tile, last tile), on arbitrary whole
  memrefs, with the contents each buffer ends with stated outright: the accumulator at `step` of the input block and
  of what it held (zeros after the reset), the output block at the stepped accumulator relaid. The two conditions are
  put in closed form over the grid (tile number 0, tile number 127), and the three runs are then fitted to the
  invariant `PhiS` point by point.
-/
import proofs.«115873_j3066606649874_1_alg».proof.Proof.K.Data
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's two conditions and the three runs -/

/-- The zero offsets of a whole-buffer access, in the two spellings the body uses. -/
theorem r0_offs2 : (![0, 0] : Fin 2 → Nat) = fun _ => 0 := funext fun a => by fin_cases a <;> rfl
theorem r0_offs3 : (![0, 0, 0] : Fin 3 → Nat) = fun _ => 0 := funext fun a => by fin_cases a <;> rfl

/-- The reset's condition at a coordinate: the tile number is zero. -/
abbrev cond0_0 (i : grid0.Coords) : Prop := (Scalar.cmpi .ne (Scalar.extui (Scalar.cmpi .eq (BitVec.ofNat 32 (i 1).val) 0#32)) 0#32) = 1#1
/-- The copy-out's condition: the tile number is 127. -/
abbrev cond0_1 (i : grid0.Coords) : Prop := k0_cond2 i = 1#1

/-- A whole-shape store, wherever it stands in the list of stores, covers the accumulator; -/
theorem r0_cover_acc (p : Vec F S512x512 .f32) (L : List (View.Piece (Elt F) S512x512 .f32)) (y : S512x512.Idx) :
    ∃ pc ∈ ((⟨Rect.unit ![0, 0] S512x512.size inb_S512x512_S512x512_0_0, p⟩ : View.Piece (Elt F) S512x512 .f32) :: L), y ∈ pc.1.set :=
  ⟨_, List.mem_cons_self, View.mem_set_unit_zero r0_offs2 inb_S512x512_S512x512_0_0 y⟩

/-- and likewise the output block. -/
theorem r0_cover_out (p : Vec F S1x512x512 .f32) (L : List (View.Piece (Elt F) S1x512x512 .f32)) (y : S1x512x512.Idx) :
    ∃ pc ∈ ((⟨Rect.unit ![0, 0, 0] S1x512x512.size inb_S1x512x512_S1x512x512_0_0_0, p⟩ : View.Piece (Elt F) S1x512x512 .f32) :: L), y ∈ pc.1.set :=
  ⟨_, List.mem_cons_self, View.mem_set_unit_zero r0_offs3 inb_S1x512x512_S1x512x512_0_0_0 y⟩

set_option maxHeartbeats 1000000 in
/-- A batch's first tile: the reset stores zeros over whatever the accumulator held, the step reads them back; the
    output's buffer is untouched. -/
theorem run0_first (c : Dev nD) (E : Set ℕ) (i : grid0.Coords) (arg2 : Memref sig .tc .vmem S1x2048x2 .f32) (harg2 : arg2.IsWhole) (arg3 : Memref sig .tc .vmem S1x512x512 .f32) (harg3 : arg3.IsWhole) (arg4 : Memref sig .tc .vmem S512x512 .f32) (harg4 : arg4.IsWhole)
    (hc0 : cond0_0 i) (hc1 : ¬cond0_1 i)
    (x0 : Vec F S1x2048x2 .f32) (xi1 : Vec F S1x512x512 .f32) (K : PUnit → sProp 𝕄) :
    iprop(owns (c : Thread nD τ) arg2 fullShare x0 ∗ owns (c : Thread nD τ) arg3 fullShare xi1 ∗ (∃ d, owns (c : Thread nD τ) arg4 fullShare d)
        ∗ (iprop(owns (c : Thread nD τ) arg2 fullShare x0 ∗ owns (c : Thread nD τ) arg3 fullShare xi1 ∗ owns (c : Thread nD τ) arg4 fullShare (step x0 (k0_pay3 (F := F)))) -∗ K ⟨⟩))
      ⊢ wp frame (wpE (defs₀ (F := F)) Variants.none c none) E (cc0_kernel i arg2 harg2 arg3 harg3 arg4 harg4) K := by
  simp only [cc0_kernel_eq_skeleton]; unfold cc0_kernel_skel
  unfold owns
  iintro ⟨⟨%f0, %hf0, H0⟩, ⟨%f1, %hf1, H1⟩, ⟨%ds0, %fs0, -, HS0⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS0
  ipureintro
  rw [View.read_writes_eq_canon _ _ _ (r0_cover_acc _ _)]
  sl_unfold_words
  rw [View.canon_cons_unit_zero (S := S512x512) r0_offs2, View.readCov_unit_zero (S := S512x512) _ r0_offs2]
  unfold step
  simp only [View.readAt_eq_ld, harg2.read_unread]

set_option maxHeartbeats 1000000 in
/-- A middle tile: neither the reset nor the copy-out runs; the accumulator is stepped, the output's buffer untouched. -/
theorem run0_mid (c : Dev nD) (E : Set ℕ) (i : grid0.Coords) (arg2 : Memref sig .tc .vmem S1x2048x2 .f32) (harg2 : arg2.IsWhole) (arg3 : Memref sig .tc .vmem S1x512x512 .f32) (harg3 : arg3.IsWhole) (arg4 : Memref sig .tc .vmem S512x512 .f32) (harg4 : arg4.IsWhole)
    (hc0 : ¬cond0_0 i) (hc1 : ¬cond0_1 i)
    (x0 : Vec F S1x2048x2 .f32) (xi1 : Vec F S1x512x512 .f32) (acc : Vec F S512x512 .f32) (K : PUnit → sProp 𝕄) :
    iprop(owns (c : Thread nD τ) arg2 fullShare x0 ∗ owns (c : Thread nD τ) arg3 fullShare xi1 ∗ owns (c : Thread nD τ) arg4 fullShare acc
        ∗ (iprop(owns (c : Thread nD τ) arg2 fullShare x0 ∗ owns (c : Thread nD τ) arg3 fullShare xi1 ∗ owns (c : Thread nD τ) arg4 fullShare (step x0 acc)) -∗ K ⟨⟩))
      ⊢ wp frame (wpE (defs₀ (F := F)) Variants.none c none) E (cc0_kernel i arg2 harg2 arg3 harg3 arg4 harg4) K := by
  simp only [cc0_kernel_eq_skeleton]; unfold cc0_kernel_skel
  unfold owns
  iintro ⟨⟨%f0, %hf0, H0⟩, ⟨%f1, %hf1, H1⟩, ⟨%fs0, %hfs0, HS0⟩, Hk⟩
  obtain rfl := harg2.eq_unread hf0; obtain rfl := harg3.eq_unread hf1; obtain rfl := harg4.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS0
  ipureintro
  rw [View.read_writes_eq_canon _ _ _ (r0_cover_acc _ _)]
  sl_unfold_words
  rw [View.canon_unit_zero r0_offs2]
  unfold step
  simp only [View.readAt_eq_ld, harg2.read_unread, harg4.read_unread, View.ld_unit_zero (S := S512x512) r0_offs2]

set_option maxHeartbeats 1000000 in
/-- A batch's last tile: the accumulator is stepped, then read back and copied, relaid as [1, 512, 512], over
    whatever the output's buffer held. -/
theorem run0_last (c : Dev nD) (E : Set ℕ) (i : grid0.Coords) (arg2 : Memref sig .tc .vmem S1x2048x2 .f32) (harg2 : arg2.IsWhole) (arg3 : Memref sig .tc .vmem S1x512x512 .f32) (harg3 : arg3.IsWhole) (arg4 : Memref sig .tc .vmem S512x512 .f32) (harg4 : arg4.IsWhole)
    (hc0 : ¬cond0_0 i) (hc1 : cond0_1 i)
    (x0 : Vec F S1x2048x2 .f32) (acc : Vec F S512x512 .f32) (K : PUnit → sProp 𝕄) :
    iprop(owns (c : Thread nD τ) arg2 fullShare x0 ∗ (∃ d, owns (c : Thread nD τ) arg3 fullShare d) ∗ owns (c : Thread nD τ) arg4 fullShare acc
        ∗ (iprop(owns (c : Thread nD τ) arg2 fullShare x0 ∗ owns (c : Thread nD τ) arg3 fullShare (k0_pay2 (step x0 acc)) ∗ owns (c : Thread nD τ) arg4 fullShare (step x0 acc)) -∗ K ⟨⟩))
      ⊢ wp frame (wpE (defs₀ (F := F)) Variants.none c none) E (cc0_kernel i arg2 harg2 arg3 harg3 arg4 harg4) K := by
  simp only [cc0_kernel_eq_skeleton]; unfold cc0_kernel_skel
  unfold owns
  iintro ⟨⟨%f0, %hf0, H0⟩, ⟨%d1, %f1, -, H1⟩, ⟨%fs0, %hfs0, HS0⟩, Hk⟩
  obtain rfl := harg2.eq_unread hf0; obtain rfl := harg4.eq_unread hfs0
  sl_exec (disch := first | exact hc0 | exact hc1)
  sl_step
  iapply Hk
  isplitl [H0]
  · iexists _; isplitr; · ipureintro; exact harg2.read_unread _
    iexact H0
  isplitl [H1]
  · iexists _; isplitr
    swap; · iexact H1
    ipureintro
    sl_unfold_words
    rw [View.read_writes_eq_canon _ _ _ (r0_cover_out _ _)]
    rw [View.canon_unit_zero r0_offs3, View.readCov_unit_zero (S := S512x512) _ r0_offs2]
    unfold step
    simp only [View.readAt_eq_ld, harg2.read_unread, harg4.read_unread, View.ld_unit_zero (S := S512x512) r0_offs2]
  iexists _; isplitr
  swap; · iexact HS0
  ipureintro
  sl_unfold_words
  rw [View.read_writes_eq_canon _ _ _ (r0_cover_acc _ _)]
  rw [View.canon_unit_zero r0_offs2]
  unfold step
  simp only [View.readAt_eq_ld, harg2.read_unread, harg4.read_unread, View.ld_unit_zero (S := S512x512) r0_offs2]

/-! ## The conditions and the output window's idleness over the grid -/

/-- The reset runs exactly at a batch's first tile, -/
theorem hcond0_0 : ∀ t : Fin cfg0.N, cond0_0 (grid0.coords t) ↔ t.val % 128 = 0 :=
  (by decide +kernel : ∀ t : Fin grid0.N, cond0_0 (grid0.coords t) ↔ t.val % 128 = 0)
/-- the copy-out exactly at its last. -/
theorem hcond0_1 : ∀ t : Fin cfg0.N, cond0_1 (grid0.coords t) ↔ t.val % 128 = 127 :=
  (by decide +kernel : ∀ t : Fin grid0.N, cond0_1 (grid0.coords t) ↔ t.val % 128 = 127)

/-- The input window is never idle. -/
theorem liveAt0_0 : ∀ t : Fin cfg0.N, cfg0.idle 0 (grid0.coords t) = false := by decide +kernel
/-- The output window is idle at every tile but the last, and not written back there; -/
theorem idleAt0_1 : ∀ t : Fin cfg0.N, ¬cond0_1 (grid0.coords t) → cfg0.idle 1 (grid0.coords t) = true := by decide +kernel
theorem noFlush0_1 : ∀ t : Fin cfg0.N, ¬cond0_1 (grid0.coords t) → (cfg0.win 1).flush t = false := by decide +kernel
/-- at the last tile it is live. -/
theorem liveAt0_1 : ∀ t : Fin cfg0.N, cond0_1 (grid0.coords t) → cfg0.idle 1 (grid0.coords t) = false := by decide +kernel

/-! ## The body at a grid point -/

/-- Each window's current staging memref at point `t`, as the pipeline passes it to the body, with its wholeness. -/
abbrev ms0_0 (t : Fin cfg0.N) : Memref sig .tc .vmem S1x2048x2 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x512 .f32 := win0_1.stage (cfg0.slots t 1)
abbrev hs0_1 (t : Fin cfg0.N) : (ms0_1 t).IsWhole := hstage0_1 ((cfg0.slots t 1).cast nbuf0_1)

/-- The input's current staging buffer holds its block at every point. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4000000 in
/-- The body at any point. The tile number decides the case: at a batch's last tile the accumulator the point before
    left is stepped and copied out; at its first the accumulator, whatever it holds (anything before the very first
    point, the previous batch's total afterwards), is reset and stepped, the idle output buffer handed back as it came;
    at any other tile the accumulator is stepped, the output buffer handed back as it came. The other scoped buffers,
    the generator register and the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
    unfold Dat.leavesExact; rw [liveAt0_0 t], after0_0]
  have hN : t.val < 1024 := lt_of_lt_of_eq t.isLt (show cfg0.N = 1024 from N_0)
  by_cases h1 : t.val % 128 = 127
  · have h0 : ¬t.val % 128 = 0 := by omega
    have hz : t.val ≠ 0 := by omega
    rw [show (dat0 V c).leavesExact 1 t = owns (c : Thread nD τ) (ms0_1 t) fullShare ((dat0 V c).after 1 t) from by
      unfold Dat.leavesExact; rw [liveAt0_1 t ((hcond0_1 t).mpr h1)], after0_1]
    rw [accAt_next V c t h0]
    rw [Phi0_castSucc V c t, PhiS_pos V c _ _ hz]
    iintro ⟨⟨HS0, Hoth, Hg⟩, Ho, ⟨%d0, H0⟩, ⟨%d1, H1⟩⟩
    iapply (run0_last c Set.univ (grid0.coords t) _ _ _ _ _ _ (fun h => h0 ((hcond0_0 t).mp h)) ((hcond0_1 t).mpr h1) (iblk0 V c 0 t) _ _)
    isplitl [H0]; · iexact H0
    isplitl [H1]; · iexists _; iexact H1
    isplitl [HS0]; · iexact HS0
    iintro ⟨H0, H1, HS0⟩
    isplitl [HS0 Hoth Hg]
    · isplitl [HS0]; · iexact HS0
      isplitl [Hoth]; · iexact Hoth
      iexact Hg
    isplitl [Ho]; · iexact Ho
    isplitl [H0]; · iexact H0
    iexact H1
  · rw [Dat.leavesExact_idle (dat0 V c) 1 t (idleAt0_1 t (fun h => h1 ((hcond0_1 t).mp h))) (noFlush0_1 t (fun h => h1 ((hcond0_1 t).mp h)))]
    by_cases h0 : t.val % 128 = 0
    · rw [accAt_first V c t h0]
      by_cases hz : t.val = 0
      · rw [Phi0_castSucc V c t, PhiS_zero V c _ _ hz, PhiA0_eq]
        iintro ⟨⟨⟨HS0, Hoth⟩, Hg⟩, Ho, ⟨%d0, H0⟩, ⟨%d1, H1⟩⟩
        iapply (run0_first c Set.univ (grid0.coords t) _ _ _ _ _ _ ((hcond0_0 t).mpr h0) (fun h => h1 ((hcond0_1 t).mp h)) (iblk0 V c 0 t) _ _)
        isplitl [H0]; · iexact H0
        isplitl [H1]; · iexact H1
        isplitl [HS0]; · iexact HS0
        iintro ⟨H0, H1, HS0⟩
        isplitl [HS0 Hoth Hg]
        · isplitl [HS0]; · iexact HS0
          isplitl [Hoth]; · iexact Hoth
          iexact Hg
        isplitl [Ho]; · iexact Ho
        isplitl [H0]; · iexact H0
        iexists _; iexact H1
      · rw [Phi0_castSucc V c t, PhiS_pos V c _ _ hz]
        iintro ⟨⟨HS0, Hoth, Hg⟩, Ho, ⟨%d0, H0⟩, ⟨%d1, H1⟩⟩
        iapply (run0_first c Set.univ (grid0.coords t) _ _ _ _ _ _ ((hcond0_0 t).mpr h0) (fun h => h1 ((hcond0_1 t).mp h)) (iblk0 V c 0 t) _ _)
        isplitl [H0]; · iexact H0
        isplitl [H1]; · iexact H1
        isplitl [HS0]; · iexists _; iexact HS0
        iintro ⟨H0, H1, HS0⟩
        isplitl [HS0 Hoth Hg]
        · isplitl [HS0]; · iexact HS0
          isplitl [Hoth]; · iexact Hoth
          iexact Hg
        isplitl [Ho]; · iexact Ho
        isplitl [H0]; · iexact H0
        iexists _; iexact H1
    · have hz : t.val ≠ 0 := fun e => h0 (by rw [e])
      rw [accAt_next V c t h0]
      rw [Phi0_castSucc V c t, PhiS_pos V c _ _ hz]
      iintro ⟨⟨HS0, Hoth, Hg⟩, Ho, ⟨%d0, H0⟩, ⟨%d1, H1⟩⟩
      iapply (run0_mid c Set.univ (grid0.coords t) _ _ _ _ _ _ (fun h => h0 ((hcond0_0 t).mp h)) (fun h => h1 ((hcond0_1 t).mp h)) (iblk0 V c 0 t) _ _ _)
      isplitl [H0]; · iexact H0
      isplitl [H1]; · iexact H1
      isplitl [HS0]; · iexact HS0
      iintro ⟨H0, H1, HS0⟩
      isplitl [HS0 Hoth Hg]
      · isplitl [HS0]; · iexact HS0
        isplitl [Hoth]; · iexact Hoth
        iexact Hg
      isplitl [Ho]; · iexact Ho
      isplitl [H0]; · iexact H0
      iexists _; iexact H1

/-- The body obligation of region 0, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]

/-- After the last point the invariant gives the class invariant back: the accumulator's contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 1024 := N_0; omega), PhiA0_eq]
  iintro ⟨HS0, Hoth, Hg⟩
  isplitl [HS0 Hoth]
  · isplitl [HS0]; · iexists _; iexact HS0
    iexact Hoth
  iexact Hg

end Cert.Kernel.Hand

end
-- ==== Proof.K.Region1.lean ====
/-
  Region 1's body at every grid point: one load of the batch's map, one store of it on 8 channels.
-/
import proofs.«115873_j3066606649874_1_alg».proof.Proof.K.Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input window between fetches -/

/-- The input's current staging buffer holds its block at every point, fetched there or not. The window is an
    input, uncut and never idle, and the body leaves its block in place; at a point where nothing is fetched the
    block index is the previous point's, so the block found is this point's block. -/
theorem before1_0 (c : Dev nD) (t : Fin cfg1.N) (d) : (dat1 V c).before 0 t d = iblk1 V c 0 t := by
  have hkeep : ∀ s : Fin cfg1.N,
      (cfg1.win 0).cut (cfg1.grid.coords s) ((dat1 V c).after 0 s) = (dat1 V c).blockOf 0 s := fun s => by
    rw [after1_0]; unfold Dat.blockOf iblk1; rw [A_eq1]; try rfl
  refine ((dat1 V c).before_in_eq_fetched 0 rfl (fun _ => rfl) (fun _ _ _ => rfl) hkeep t d).trans ?_
  unfold Dat.fetched Dat.blockOf iblk1; rw [A_eq1]; try rfl

/-! ## The one store fills the output's buffer -/

/-- The store's rectangle is the whole [1, 8, 512, 512] buffer: a single tile of the buffer's own size. -/
theorem cover1_1 (p : Vec F S1x8x512x512 .f32) (y : S1x8x512x512.Idx) :
    ∃ pc ∈ ([⟨whole8, p⟩] : List (View.Piece (Elt F) S1x8x512x512 .f32)), y ∈ pc.1.set :=
  View.cover_of_tiled [⟨whole8, p⟩] S1x8x512x512.size (by rfl) y

/-! ## The body on whole staging memrefs -/

set_option maxHeartbeats 1000000 in
/-- With the input's memref at `x0` and the output's at anything, the body runs to a continuation that holds the
    input's memref unchanged and the output's at `out1_1 x0`: the load of the whole input reads `x0` through
    `whole1`, the load of the output is not used, and the store through `whole8` overwrites every element. -/
theorem sound_kernel1 (c : Dev nD) (E : Set ℕ) (i : grid1.Coords)
    (arg2 : Memref sig .tc .vmem S1x512x512 .f32) (harg2 : arg2.IsWhole)
    (arg3 : Memref sig .tc .vmem S1x8x512x512 .f32) (harg3 : arg3.IsWhole)
    (x0 : Vec F S1x512x512 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out1_1 x0)) -∗ K ⟨⟩))
      ⊢ wp frame (wpE (defs₀ (F := F)) Variants.none c none) E (cc1__bcast_kernel i arg2 harg2 arg3 harg3) K := by
  simp only [cc1__bcast_kernel_eq_skeleton]; unfold cc1__bcast_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _)

/-! ## The body obligation at a point -/

/-- What the body is handed at point `t`: the invariant, the core's debts, and the two windows' current staging
    memrefs, each whole at what the point finds in it. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- What it hands back: the same invariant and debts, the memrefs at what the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

/-- The body at any point: the input's memref holds the point's block (`before1_0`), so `sound_kernel1` applies
    at `x0 := iblk1 V c 0 t`; the invariant and the debts are constant in the point and pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ _ _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of region 1, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Run.lean ====
/-
  The run of @main from the launch to the return, as three segments: the reshape of the coordinate array, region 0
  (the accumulation of the 512 × 512 maps) and region 1 (the maps on every channel). The buffers' contents at each
  boundary are a fold from the launch memory: a host operation's result, then each region's arrays at what its
  write-backs leave. Every final memory holds the output array at region 1's folded write-backs and both argument
  arrays as launched.
-/
import proofs.«115873_j3066606649874_1_alg».proof.Proof.K.Region0
import proofs.«115873_j3066606649874_1_alg».proof.Proof.K.Region1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

/-- Core `c`'s buffers at launch. -/
abbrev W0 : Dev nD → Valuation τ sig (Elt F) := fun c b => (s₀ m ρ).mem ((c : Dev nD), b)
/-- After the reshape (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the input as entered, the output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents, region 1's entry contents). -/
abbrev V2 : (c : Dev nD) → (b : Ref sig .tc) → Buf (Elt F) ((c : Thread nD τ).loc b) := fun c b => W2 m ρ c b
/-- At region 0's exit each of its arrays holds what the pipeline leaves and every other buffer what it held at
    entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references (region 1's exit contents). -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## What each boundary holds, buffer by buffer -/

/-- The reshape writes no buffer but its result. -/
theorem W1_of_ne (c : Dev nD) (b : Ref sig .tc) (hb : b ≠ main_v0) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne hb))

/-- Region 0 reads the coordinate array relaid as [8, 262144, 2]: the launch contents in row-major order. -/
theorem V1_main_v0 (c : Dev nD) :
    V1 m ρ c main_v0 = shapeCast S8x262144x2 (m ((c : Thread nD τ).loc main_arg1)) shapeCasts_S8x512x512x2_S8x262144x2 := by
  show StableHlo.after hostOps0 _ (Proc.devRef .tc main_v0) = _
  after_results
  rfl

/-- Region 1 reads the map array at what region 0's write-backs leave. -/
theorem V2_main_v1 (c : Dev nD) : V2 m ρ c main_v1 = (dat0 (V1 m ρ) c).arrAt 1 cfg0.N :=
  W2_arr m ρ c 1

/-- Region 0 only reads the relaid coordinate array: it leaves it as entered. -/
theorem V2_main_v0 (c : Dev nD) : V2 m ρ c main_v0 = V1 m ρ c main_v0 :=
  (W2_arr m ρ c 0).trans (((dat0 (V1 m ρ) c).arrAt_in 0 rfl _).trans (A_eq0 (V1 m ρ) c 0))

/-- The output array ends at what region 1's write-backs leave. -/
theorem W3_main_v2 (c : Dev nD) : W3 m ρ c (Proc.devRef .tc main_v2) = (dat1 (V2 m ρ) c).arrAt 1 cfg1.N :=
  W3_arr m ρ c 1

/-- The arguments end as launched: the reshape writes its result only, and no region has an argument among its
    arrays. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := W1_of_ne m ρ c main_arg0 (by decide)
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := W1_of_ne m ρ c main_arg1 (by decide)
    _ = m ((c : Thread nD τ).loc main_arg1) := rfl

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    dues, at nothing. -/
abbrev R (c : Dev nD) : sProp 𝕄 := iprop((∃ r, prngReg c r) ∗ ∃ W, owes (c : Thread nD τ) (0 : CellTallies nD τ sig Unit) W)
/-- A stretch of host operations as a segment: over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The reshape allocates no buffer. -/
theorem hostOps0_fresh : (hostOps0 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- REGION 0 over the thread state: entered from every unscoped buffer at `W1`, left at `W2`. Its arrays split out
    of the unscoped buffers and put back at the exit contents; the generator register and the scoped buffers it does
    not stage into its invariant before the first point and out of the invariant after the last; nothing owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (V1 m ρ) c).Φ 0 from rfl]
    iintro ⟨Hp, -, Hr⟩
    iapply (hin0 (V1 m ρ) c)
    unfold Pipeline.ΦA
    isplitl [Hr]; · iexact Hr
    iexact Hp
  hout c := by
    rw [Pipeline.ownSems0_none, show (pdats m ρ 0 c).Φ (Fin.last _) = (dat0 (V1 m ρ) c).Φ (Fin.last cfg0.N) from rfl]
    iintro H
    ihave H' := (hout0 (V1 m ρ) c) $$ H
    unfold Pipeline.ΦA
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W2`, left at `W3` (what the launch reads at
    the end). Its arrays split out of the unscoped buffers and put back at the exit contents; the generator register
    into the class invariant and out; nothing owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 3 segments in order: the reshape from the launch contents, then the two regions. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
/-- @main is the run of the segments. -/
theorem main_run (c : Dev nD) : main (F := F) c = Pipeline.Seg.run (segs m ρ) := (main_chain c).trans (by chain_rfl)

set_option backward.isDefEq.respectTransparency.types false in
/-- THE RUN: from any memory with zero counters, every weakly fair execution of @main on the TensorCores terminates,
    nothing faulting, and every final memory holds each unscoped buffer of each core at the last boundary's
    contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun _ h => h)

/-- THE FRAME: every final memory holds both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W3_main_arg0 m ρ c),
     (h c _ (mem_uc main_arg1 (by decide))).trans (W3_main_arg1 m ρ c)⟩) (run_all m ρ)

/-- THE VALUE: every final memory holds the output array at what region 1's write-backs leave, read off region 0's,
    and both argument arrays as launched. -/
theorem run_value : θ_run defs (onTc (τ := τ) (main (F := F))) ⟨m, fun _ => 0, ρ⟩ (fun r => ∀ c : Dev nD,
      r.2.mem ((c.tc : Thread nD τ).loc main_v2) = (dat1 (V2 m ρ) c).arrAt 1 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_v2 (by decide))).trans (W3_main_v2 m ρ c),
     (h c _ (mem_uc main_arg0 (by decide))).trans (W3_main_arg0 m ρ c),
     (h c _ (mem_uc main_arg1 (by decide))).trans (W3_main_arg1 m ρ c)⟩) (run_all m ρ)

end Cert.Kernel.Hand

end
-- ==== Proof.KI.Data.lean ====
/-
  The proof data of the two kernel regions, at any float instance `F` and any contents `V` of the TensorCore's
  buffers at a region's entry.

  Region 0 walks the grid 8 × 128: point `t` is batch `t / 128`, tile `t % 128`. Each point adds to a 512 × 512
  accumulator (a scratch buffer kept from point to point) the contraction, over the tile's 2048 pixels, of the
  two axes' weight rows; the first tile of a batch starts from zeros; the last one copies the accumulator to the
  output block. `step` is one point's update, `accAt` the accumulator after each point.
  Region 1 walks the grid 8 × 4 and writes the batch's 512 × 512 map on 8 channels at a time.
-/
import proofs.«115873_j3066606649874_1_alg».proof.Proof.Gen.KernelIdeal.Launch
import proofs.«115873_j3066606649874_1_alg».proof.Proof.Gen.KernelIdeal.Skeleton
import proofs.«115873_j3066606649874_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0: the accumulation -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The two columns of a tile's [1, 2048, 2] block: the first axis' raw coordinates and the second's. -/
abbrev colI : Rect S1x2048x2 := Rect.unit (s := S1x2048x2) ![0, 0, 0] S1x2048x1.size inb_S1x2048x2_S1x2048x1_0_0_0
abbrev colJ : Rect S1x2048x2 := Rect.unit (s := S1x2048x2) ![0, 0, 1] S1x2048x1.size inb_S1x2048x2_S1x2048x1_0_0_1

/-- One point's update of the accumulator: the tile's block `x`, the accumulator `acc` as the point finds it
    (after the reset, at a batch's first tile). -/
def step (x : Vec F S1x2048x2 .f32) (acc : Vec F S512x512 .f32) : Vec F S512x512 .f32 :=
  k0_pay1 (k0_pay7 (View.ld x colJ))
    (k0_pay9 (k0_pay5 (View.ld x colJ)) (k0_pay7 (View.ld x colJ)))
    (k0_pay10 (k0_pay5 (View.ld x colJ)) (k0_pay7 (View.ld x colJ)))
    (iota .tc S2048x512 32 [1] iota_S2048x512_d1_w32)
    (k0_pay11 (k0_pay4 (View.ld x colI)) (k0_pay6 (View.ld x colI)) (k0_pay8 (View.ld x colI)) (Scalar.ofBits .f32 0x3F800000#32))
    (k0_pay12 (k0_pay7 (View.ld x colJ)))
    acc

/-- The accumulator after the body at position `n`: a batch's first tile (`n % 128 = 0`) steps from zeros, every
    other tile from what the point before left. -/
def accAt (c : Dev nD) : (n : ℕ) → n < cfg0.N → Vec F S512x512 .f32
  | 0, hn => step (iblk0 V c 0 ⟨0, hn⟩) (k0_pay3 (F := F))
  | n + 1, hn =>
    if (n + 1) % 128 = 0 then step (iblk0 V c 0 ⟨n + 1, hn⟩) (k0_pay3 (F := F))
    else step (iblk0 V c 0 ⟨n + 1, hn⟩) (accAt c n (Nat.lt_of_succ_lt hn))

theorem accAt_first (c : Dev nD) (t : Fin cfg0.N) (h : t.val % 128 = 0) :
    accAt V c t.val t.isLt = step (iblk0 V c 0 t) (k0_pay3 (F := F)) := by
  obtain ⟨n, hn⟩ := t
  cases n with
  | zero => rfl
  | succ n => exact if_pos h

theorem accAt_next (c : Dev nD) (t : Fin cfg0.N) (h : ¬t.val % 128 = 0) :
    accAt V c t.val t.isLt = step (iblk0 V c 0 t) (accAt V c (t.val - 1) (Nat.lt_of_le_of_lt (Nat.sub_le _ _) t.isLt)) := by
  obtain ⟨n, hn⟩ := t
  cases n with
  | zero => exact absurd (Nat.zero_mod _) h
  | succ n => exact if_neg h

/-- The scratch accumulator as a memref, and the other region's staging buffers, which ride along untouched. -/
abbrev accM : Memref sig .tc .vmem S512x512 .f32 := Memref.whole cc0_scratch0

/-- The scoped buffers region 0 does not stage, less the accumulator: region 1's four staging buffers, each whole
    at some contents. -/
def others0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f))

/-- The region's invariant before position `n`: before the first point every scoped buffer it does not stage at
    anything and the generator register at some state; afterwards the accumulator at what the point before left,
    the rest as before. -/
def PhiS (c : Dev nD) : (n : ℕ) → n ≤ cfg0.N → sProp 𝕄
  | 0, _ => Pipeline.ΦA spec0 c
  | n + 1, hn => iprop(owns (c : Thread nD τ) accM fullShare (accAt V c n hn) ∗ others0 (F := F) c ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(owns (c : Thread nD τ) accM fullShare (accAt V c n hn) ∗ others0 (F := F) c ∗ (∃ r, prngReg c r)) := rfl

theorem PhiS_pos (c : Dev nD) (n : ℕ) (h : n ≤ cfg0.N) (hz : n ≠ 0) :
    PhiS V c n h = iprop(owns (c : Thread nD τ) accM fullShare (accAt V c (n - 1) (by omega)) ∗ others0 (F := F) c ∗ (∃ r, prngReg c r)) := by
  cases n with
  | zero => exact absurd rfl hz
  | succ n => rfl

/-- The class invariant with the accumulator taken out of the scoped rest. -/
theorem PhiA0_eq (c : Dev nD) :
    (Pipeline.ΦA spec0 c : sProp 𝕄)
      = iprop(((∃ d, owns (c : Thread nD τ) accM fullShare d) ∗ others0 (F := F) c) ∗ (∃ r, prngReg c r)) := by
  unfold Pipeline.ΦA others0; rw [scopedRest0_eq]; simp only [accM, owns_whole]; rfl

/-- The proof data of region 0 on core `c`: the arrays as the region finds them; after the body at point `t` the
    input's buffer at its block and the output's at the accumulator after the point, relaid as [1, 512, 512] (read
    only where the block is written back: at a batch's last tile); the invariant `PhiS`; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => k0_pay2 (accAt V c t.val t.isLt)
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = k0_pay2 (accAt V c t.val t.isLt) := by dsimp only [dat0]
theorem Phi0_castSucc (c : Dev nD) (t : Fin cfg0.N) :
    (dat0 V c).Φ t.castSucc = PhiS V c t.val (Nat.le_of_lt t.isLt) := by
  dsimp only [dat0]; simp only [Fin.coe_castSucc]

/-! ## Region 1: the map on every channel -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev whole1 : Rect S1x512x512 := Rect.unit (s := S1x512x512) ![0, 0, 0] S1x512x512.size inb_S1x512x512_S1x512x512_0_0_0
abbrev whole8 : Rect S1x8x512x512 := Rect.unit (s := S1x8x512x512) ![0, 0, 0, 0] S1x8x512x512.size inb_S1x8x512x512_S1x8x512x512_0_0_0_0

/-- What the body leaves in the output's staging buffer: its one store, of the input block on 8 channels. -/
def out1_1 (x0 : Vec F S1x512x512 .f32) : Vec F S1x8x512x512 .f32 :=
  View.canon [⟨whole8, k1_pay1 (View.ld x0 whole1)⟩]

/-- The proof data of region 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]

end Cert.KernelIdeal.Hand

end
-- ==== Proof.KI.Region0.lean ====
/-
  Region 0's body at every grid point: the accumulator reset at a batch's first tile, stepped at every tile, copied out at the last.

  The body is run once per case of its two conditionals (first tile, middle tile, last tile), on arbitrary whole
  memrefs, with the contents each buffer ends with stated outright: the accumulator at `step` of the input block and
  of what it held (zeros after the reset), the output block at the stepped accumulator relaid. The two conditions are
  put in closed form over the grid (tile number 0, tile number 127), and the three runs are then fitted to the
  invariant `PhiS` point by point.
-/
import proofs.«115873_j3066606649874_1_alg».proof.Proof.KI.Data
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's two conditions and the three runs -/

/-- The zero offsets of a whole-buffer access, in the two spellings the body uses. -/
theorem r0_offs2 : (![0, 0] : Fin 2 → Nat) = fun _ => 0 := funext fun a => by fin_cases a <;> rfl
theorem r0_offs3 : (![0, 0, 0] : Fin 3 → Nat) = fun _ => 0 := funext fun a => by fin_cases a <;> rfl

/-- The reset's condition at a coordinate: the tile number is zero. -/
abbrev cond0_0 (i : grid0.Coords) : Prop := (Scalar.cmpi .ne (Scalar.extui (Scalar.cmpi .eq (BitVec.ofNat 32 (i 1).val) 0#32)) 0#32) = 1#1
/-- The copy-out's condition: the tile number is 127. -/
abbrev cond0_1 (i : grid0.Coords) : Prop := k0_cond2 i = 1#1

/-- A whole-shape store, wherever it stands in the list of stores, covers the accumulator; -/
theorem r0_cover_acc (p : Vec F S512x512 .f32) (L : List (View.Piece (Elt F) S512x512 .f32)) (y : S512x512.Idx) :
    ∃ pc ∈ ((⟨Rect.unit ![0, 0] S512x512.size inb_S512x512_S512x512_0_0, p⟩ : View.Piece (Elt F) S512x512 .f32) :: L), y ∈ pc.1.set :=
  ⟨_, List.mem_cons_self, View.mem_set_unit_zero r0_offs2 inb_S512x512_S512x512_0_0 y⟩

/-- and likewise the output block. -/
theorem r0_cover_out (p : Vec F S1x512x512 .f32) (L : List (View.Piece (Elt F) S1x512x512 .f32)) (y : S1x512x512.Idx) :
    ∃ pc ∈ ((⟨Rect.unit ![0, 0, 0] S1x512x512.size inb_S1x512x512_S1x512x512_0_0_0, p⟩ : View.Piece (Elt F) S1x512x512 .f32) :: L), y ∈ pc.1.set :=
  ⟨_, List.mem_cons_self, View.mem_set_unit_zero r0_offs3 inb_S1x512x512_S1x512x512_0_0_0 y⟩

set_option maxHeartbeats 1000000 in
/-- A batch's first tile: the reset stores zeros over whatever the accumulator held, the step reads them back; the
    output's buffer is untouched. -/
theorem run0_first (c : Dev nD) (E : Set ℕ) (i : grid0.Coords) (arg2 : Memref sig .tc .vmem S1x2048x2 .f32) (harg2 : arg2.IsWhole) (arg3 : Memref sig .tc .vmem S1x512x512 .f32) (harg3 : arg3.IsWhole) (arg4 : Memref sig .tc .vmem S512x512 .f32) (harg4 : arg4.IsWhole)
    (hc0 : cond0_0 i) (hc1 : ¬cond0_1 i)
    (x0 : Vec F S1x2048x2 .f32) (xi1 : Vec F S1x512x512 .f32) (K : PUnit → sProp 𝕄) :
    iprop(owns (c : Thread nD τ) arg2 fullShare x0 ∗ owns (c : Thread nD τ) arg3 fullShare xi1 ∗ (∃ d, owns (c : Thread nD τ) arg4 fullShare d)
        ∗ (iprop(owns (c : Thread nD τ) arg2 fullShare x0 ∗ owns (c : Thread nD τ) arg3 fullShare xi1 ∗ owns (c : Thread nD τ) arg4 fullShare (step x0 (k0_pay3 (F := F)))) -∗ K ⟨⟩))
      ⊢ wp frame (wpE (defs₀ (F := F)) Variants.none c none) E (cc0_kernel i arg2 harg2 arg3 harg3 arg4 harg4) K := by
  simp only [cc0_kernel_eq_skeleton]; unfold cc0_kernel_skel
  unfold owns
  iintro ⟨⟨%f0, %hf0, H0⟩, ⟨%f1, %hf1, H1⟩, ⟨%ds0, %fs0, -, HS0⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS0
  ipureintro
  rw [View.read_writes_eq_canon _ _ _ (r0_cover_acc _ _)]
  sl_unfold_words
  rw [View.canon_cons_unit_zero (S := S512x512) r0_offs2, View.readCov_unit_zero (S := S512x512) _ r0_offs2]
  unfold step
  simp only [View.readAt_eq_ld, harg2.read_unread]

set_option maxHeartbeats 1000000 in
/-- A middle tile: neither the reset nor the copy-out runs; the accumulator is stepped, the output's buffer untouched. -/
theorem run0_mid (c : Dev nD) (E : Set ℕ) (i : grid0.Coords) (arg2 : Memref sig .tc .vmem S1x2048x2 .f32) (harg2 : arg2.IsWhole) (arg3 : Memref sig .tc .vmem S1x512x512 .f32) (harg3 : arg3.IsWhole) (arg4 : Memref sig .tc .vmem S512x512 .f32) (harg4 : arg4.IsWhole)
    (hc0 : ¬cond0_0 i) (hc1 : ¬cond0_1 i)
    (x0 : Vec F S1x2048x2 .f32) (xi1 : Vec F S1x512x512 .f32) (acc : Vec F S512x512 .f32) (K : PUnit → sProp 𝕄) :
    iprop(owns (c : Thread nD τ) arg2 fullShare x0 ∗ owns (c : Thread nD τ) arg3 fullShare xi1 ∗ owns (c : Thread nD τ) arg4 fullShare acc
        ∗ (iprop(owns (c : Thread nD τ) arg2 fullShare x0 ∗ owns (c : Thread nD τ) arg3 fullShare xi1 ∗ owns (c : Thread nD τ) arg4 fullShare (step x0 acc)) -∗ K ⟨⟩))
      ⊢ wp frame (wpE (defs₀ (F := F)) Variants.none c none) E (cc0_kernel i arg2 harg2 arg3 harg3 arg4 harg4) K := by
  simp only [cc0_kernel_eq_skeleton]; unfold cc0_kernel_skel
  unfold owns
  iintro ⟨⟨%f0, %hf0, H0⟩, ⟨%f1, %hf1, H1⟩, ⟨%fs0, %hfs0, HS0⟩, Hk⟩
  obtain rfl := harg2.eq_unread hf0; obtain rfl := harg3.eq_unread hf1; obtain rfl := harg4.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS0
  ipureintro
  rw [View.read_writes_eq_canon _ _ _ (r0_cover_acc _ _)]
  sl_unfold_words
  rw [View.canon_unit_zero r0_offs2]
  unfold step
  simp only [View.readAt_eq_ld, harg2.read_unread, harg4.read_unread, View.ld_unit_zero (S := S512x512) r0_offs2]

set_option maxHeartbeats 1000000 in
/-- A batch's last tile: the accumulator is stepped, then read back and copied, relaid as [1, 512, 512], over
    whatever the output's buffer held. -/
theorem run0_last (c : Dev nD) (E : Set ℕ) (i : grid0.Coords) (arg2 : Memref sig .tc .vmem S1x2048x2 .f32) (harg2 : arg2.IsWhole) (arg3 : Memref sig .tc .vmem S1x512x512 .f32) (harg3 : arg3.IsWhole) (arg4 : Memref sig .tc .vmem S512x512 .f32) (harg4 : arg4.IsWhole)
    (hc0 : ¬cond0_0 i) (hc1 : cond0_1 i)
    (x0 : Vec F S1x2048x2 .f32) (acc : Vec F S512x512 .f32) (K : PUnit → sProp 𝕄) :
    iprop(owns (c : Thread nD τ) arg2 fullShare x0 ∗ (∃ d, owns (c : Thread nD τ) arg3 fullShare d) ∗ owns (c : Thread nD τ) arg4 fullShare acc
        ∗ (iprop(owns (c : Thread nD τ) arg2 fullShare x0 ∗ owns (c : Thread nD τ) arg3 fullShare (k0_pay2 (step x0 acc)) ∗ owns (c : Thread nD τ) arg4 fullShare (step x0 acc)) -∗ K ⟨⟩))
      ⊢ wp frame (wpE (defs₀ (F := F)) Variants.none c none) E (cc0_kernel i arg2 harg2 arg3 harg3 arg4 harg4) K := by
  simp only [cc0_kernel_eq_skeleton]; unfold cc0_kernel_skel
  unfold owns
  iintro ⟨⟨%f0, %hf0, H0⟩, ⟨%d1, %f1, -, H1⟩, ⟨%fs0, %hfs0, HS0⟩, Hk⟩
  obtain rfl := harg2.eq_unread hf0; obtain rfl := harg4.eq_unread hfs0
  sl_exec (disch := first | exact hc0 | exact hc1)
  sl_step
  iapply Hk
  isplitl [H0]
  · iexists _; isplitr; · ipureintro; exact harg2.read_unread _
    iexact H0
  isplitl [H1]
  · iexists _; isplitr
    swap; · iexact H1
    ipureintro
    sl_unfold_words
    rw [View.read_writes_eq_canon _ _ _ (r0_cover_out _ _)]
    rw [View.canon_unit_zero r0_offs3, View.readCov_unit_zero (S := S512x512) _ r0_offs2]
    unfold step
    simp only [View.readAt_eq_ld, harg2.read_unread, harg4.read_unread, View.ld_unit_zero (S := S512x512) r0_offs2]
  iexists _; isplitr
  swap; · iexact HS0
  ipureintro
  sl_unfold_words
  rw [View.read_writes_eq_canon _ _ _ (r0_cover_acc _ _)]
  rw [View.canon_unit_zero r0_offs2]
  unfold step
  simp only [View.readAt_eq_ld, harg2.read_unread, harg4.read_unread, View.ld_unit_zero (S := S512x512) r0_offs2]

/-! ## The conditions and the output window's idleness over the grid -/

/-- The reset runs exactly at a batch's first tile, -/
theorem hcond0_0 : ∀ t : Fin cfg0.N, cond0_0 (grid0.coords t) ↔ t.val % 128 = 0 :=
  (by decide +kernel : ∀ t : Fin grid0.N, cond0_0 (grid0.coords t) ↔ t.val % 128 = 0)
/-- the copy-out exactly at its last. -/
theorem hcond0_1 : ∀ t : Fin cfg0.N, cond0_1 (grid0.coords t) ↔ t.val % 128 = 127 :=
  (by decide +kernel : ∀ t : Fin grid0.N, cond0_1 (grid0.coords t) ↔ t.val % 128 = 127)

/-- The input window is never idle. -/
theorem liveAt0_0 : ∀ t : Fin cfg0.N, cfg0.idle 0 (grid0.coords t) = false := by decide +kernel
/-- The output window is idle at every tile but the last, and not written back there; -/
theorem idleAt0_1 : ∀ t : Fin cfg0.N, ¬cond0_1 (grid0.coords t) → cfg0.idle 1 (grid0.coords t) = true := by decide +kernel
theorem noFlush0_1 : ∀ t : Fin cfg0.N, ¬cond0_1 (grid0.coords t) → (cfg0.win 1).flush t = false := by decide +kernel
/-- at the last tile it is live. -/
theorem liveAt0_1 : ∀ t : Fin cfg0.N, cond0_1 (grid0.coords t) → cfg0.idle 1 (grid0.coords t) = false := by decide +kernel

/-! ## The body at a grid point -/

/-- Each window's current staging memref at point `t`, as the pipeline passes it to the body, with its wholeness. -/
abbrev ms0_0 (t : Fin cfg0.N) : Memref sig .tc .vmem S1x2048x2 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x512 .f32 := win0_1.stage (cfg0.slots t 1)
abbrev hs0_1 (t : Fin cfg0.N) : (ms0_1 t).IsWhole := hstage0_1 ((cfg0.slots t 1).cast nbuf0_1)

/-- The input's current staging buffer holds its block at every point. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4000000 in
/-- The body at any point. The tile number decides the case: at a batch's last tile the accumulator the point before
    left is stepped and copied out; at its first the accumulator, whatever it holds (anything before the very first
    point, the previous batch's total afterwards), is reset and stepped, the idle output buffer handed back as it came;
    at any other tile the accumulator is stepped, the output buffer handed back as it came. The other scoped buffers,
    the generator register and the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
    unfold Dat.leavesExact; rw [liveAt0_0 t], after0_0]
  have hN : t.val < 1024 := lt_of_lt_of_eq t.isLt (show cfg0.N = 1024 from N_0)
  by_cases h1 : t.val % 128 = 127
  · have h0 : ¬t.val % 128 = 0 := by omega
    have hz : t.val ≠ 0 := by omega
    rw [show (dat0 V c).leavesExact 1 t = owns (c : Thread nD τ) (ms0_1 t) fullShare ((dat0 V c).after 1 t) from by
      unfold Dat.leavesExact; rw [liveAt0_1 t ((hcond0_1 t).mpr h1)], after0_1]
    rw [accAt_next V c t h0]
    rw [Phi0_castSucc V c t, PhiS_pos V c _ _ hz]
    iintro ⟨⟨HS0, Hoth, Hg⟩, Ho, ⟨%d0, H0⟩, ⟨%d1, H1⟩⟩
    iapply (run0_last c Set.univ (grid0.coords t) _ _ _ _ _ _ (fun h => h0 ((hcond0_0 t).mp h)) ((hcond0_1 t).mpr h1) (iblk0 V c 0 t) _ _)
    isplitl [H0]; · iexact H0
    isplitl [H1]; · iexists _; iexact H1
    isplitl [HS0]; · iexact HS0
    iintro ⟨H0, H1, HS0⟩
    isplitl [HS0 Hoth Hg]
    · isplitl [HS0]; · iexact HS0
      isplitl [Hoth]; · iexact Hoth
      iexact Hg
    isplitl [Ho]; · iexact Ho
    isplitl [H0]; · iexact H0
    iexact H1
  · rw [Dat.leavesExact_idle (dat0 V c) 1 t (idleAt0_1 t (fun h => h1 ((hcond0_1 t).mp h))) (noFlush0_1 t (fun h => h1 ((hcond0_1 t).mp h)))]
    by_cases h0 : t.val % 128 = 0
    · rw [accAt_first V c t h0]
      by_cases hz : t.val = 0
      · rw [Phi0_castSucc V c t, PhiS_zero V c _ _ hz, PhiA0_eq]
        iintro ⟨⟨⟨HS0, Hoth⟩, Hg⟩, Ho, ⟨%d0, H0⟩, ⟨%d1, H1⟩⟩
        iapply (run0_first c Set.univ (grid0.coords t) _ _ _ _ _ _ ((hcond0_0 t).mpr h0) (fun h => h1 ((hcond0_1 t).mp h)) (iblk0 V c 0 t) _ _)
        isplitl [H0]; · iexact H0
        isplitl [H1]; · iexact H1
        isplitl [HS0]; · iexact HS0
        iintro ⟨H0, H1, HS0⟩
        isplitl [HS0 Hoth Hg]
        · isplitl [HS0]; · iexact HS0
          isplitl [Hoth]; · iexact Hoth
          iexact Hg
        isplitl [Ho]; · iexact Ho
        isplitl [H0]; · iexact H0
        iexists _; iexact H1
      · rw [Phi0_castSucc V c t, PhiS_pos V c _ _ hz]
        iintro ⟨⟨HS0, Hoth, Hg⟩, Ho, ⟨%d0, H0⟩, ⟨%d1, H1⟩⟩
        iapply (run0_first c Set.univ (grid0.coords t) _ _ _ _ _ _ ((hcond0_0 t).mpr h0) (fun h => h1 ((hcond0_1 t).mp h)) (iblk0 V c 0 t) _ _)
        isplitl [H0]; · iexact H0
        isplitl [H1]; · iexact H1
        isplitl [HS0]; · iexists _; iexact HS0
        iintro ⟨H0, H1, HS0⟩
        isplitl [HS0 Hoth Hg]
        · isplitl [HS0]; · iexact HS0
          isplitl [Hoth]; · iexact Hoth
          iexact Hg
        isplitl [Ho]; · iexact Ho
        isplitl [H0]; · iexact H0
        iexists _; iexact H1
    · have hz : t.val ≠ 0 := fun e => h0 (by rw [e])
      rw [accAt_next V c t h0]
      rw [Phi0_castSucc V c t, PhiS_pos V c _ _ hz]
      iintro ⟨⟨HS0, Hoth, Hg⟩, Ho, ⟨%d0, H0⟩, ⟨%d1, H1⟩⟩
      iapply (run0_mid c Set.univ (grid0.coords t) _ _ _ _ _ _ (fun h => h0 ((hcond0_0 t).mp h)) (fun h => h1 ((hcond0_1 t).mp h)) (iblk0 V c 0 t) _ _ _)
      isplitl [H0]; · iexact H0
      isplitl [H1]; · iexact H1
      isplitl [HS0]; · iexact HS0
      iintro ⟨H0, H1, HS0⟩
      isplitl [HS0 Hoth Hg]
      · isplitl [HS0]; · iexact HS0
        isplitl [Hoth]; · iexact Hoth
        iexact Hg
      isplitl [Ho]; · iexact Ho
      isplitl [H0]; · iexact H0
      iexists _; iexact H1

/-- The body obligation of region 0, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]

/-- After the last point the invariant gives the class invariant back: the accumulator's contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 1024 := N_0; omega), PhiA0_eq]
  iintro ⟨HS0, Hoth, Hg⟩
  isplitl [HS0 Hoth]
  · isplitl [HS0]; · iexists _; iexact HS0
    iexact Hoth
  iexact Hg

end Cert.KernelIdeal.Hand

end
-- ==== Proof.KI.Region1.lean ====
/-
  Region 1's body at every grid point: one load of the batch's map, one store of it on 8 channels.
-/
import proofs.«115873_j3066606649874_1_alg».proof.Proof.KI.Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input window between fetches -/

/-- The input's current staging buffer holds its block at every point, fetched there or not. The window is an
    input, uncut and never idle, and the body leaves its block in place; at a point where nothing is fetched the
    block index is the previous point's, so the block found is this point's block. -/
theorem before1_0 (c : Dev nD) (t : Fin cfg1.N) (d) : (dat1 V c).before 0 t d = iblk1 V c 0 t := by
  have hkeep : ∀ s : Fin cfg1.N,
      (cfg1.win 0).cut (cfg1.grid.coords s) ((dat1 V c).after 0 s) = (dat1 V c).blockOf 0 s := fun s => by
    rw [after1_0]; unfold Dat.blockOf iblk1; rw [A_eq1]; try rfl
  refine ((dat1 V c).before_in_eq_fetched 0 rfl (fun _ => rfl) (fun _ _ _ => rfl) hkeep t d).trans ?_
  unfold Dat.fetched Dat.blockOf iblk1; rw [A_eq1]; try rfl

/-! ## The one store fills the output's buffer -/

/-- The store's rectangle is the whole [1, 8, 512, 512] buffer: a single tile of the buffer's own size. -/
theorem cover1_1 (p : Vec F S1x8x512x512 .f32) (y : S1x8x512x512.Idx) :
    ∃ pc ∈ ([⟨whole8, p⟩] : List (View.Piece (Elt F) S1x8x512x512 .f32)), y ∈ pc.1.set :=
  View.cover_of_tiled [⟨whole8, p⟩] S1x8x512x512.size (by rfl) y

/-! ## The body on whole staging memrefs -/

set_option maxHeartbeats 1000000 in
/-- With the input's memref at `x0` and the output's at anything, the body runs to a continuation that holds the
    input's memref unchanged and the output's at `out1_1 x0`: the load of the whole input reads `x0` through
    `whole1`, the load of the output is not used, and the store through `whole8` overwrites every element. -/
theorem sound_kernel1 (c : Dev nD) (E : Set ℕ) (i : grid1.Coords)
    (arg2 : Memref sig .tc .vmem S1x512x512 .f32) (harg2 : arg2.IsWhole)
    (arg3 : Memref sig .tc .vmem S1x8x512x512 .f32) (harg3 : arg3.IsWhole)
    (x0 : Vec F S1x512x512 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out1_1 x0)) -∗ K ⟨⟩))
      ⊢ wp frame (wpE (defs₀ (F := F)) Variants.none c none) E (cc1__bcast_kernel i arg2 harg2 arg3 harg3) K := by
  simp only [cc1__bcast_kernel_eq_skeleton]; unfold cc1__bcast_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _)

/-! ## The body obligation at a point -/

/-- What the body is handed at point `t`: the invariant, the core's debts, and the two windows' current staging
    memrefs, each whole at what the point finds in it. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- What it hands back: the same invariant and debts, the memrefs at what the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

/-- The body at any point: the input's memref holds the point's block (`before1_0`), so `sound_kernel1` applies
    at `x0 := iblk1 V c 0 t`; the invariant and the debts are constant in the point and pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ _ _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of region 1, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Run.lean ====
/-
  The run of @main from the launch to the return, as three segments: the reshape of the coordinate array, region 0
  (the accumulation of the 512 × 512 maps) and region 1 (the maps on every channel). The buffers' contents at each
  boundary are a fold from the launch memory: a host operation's result, then each region's arrays at what its
  write-backs leave. Every final memory holds the output array at region 1's folded write-backs and both argument
  arrays as launched.
-/
import proofs.«115873_j3066606649874_1_alg».proof.Proof.KI.Region0
import proofs.«115873_j3066606649874_1_alg».proof.Proof.KI.Region1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

/-- Core `c`'s buffers at launch. -/
abbrev W0 : Dev nD → Valuation τ sig (Elt F) := fun c b => (s₀ m ρ).mem ((c : Dev nD), b)
/-- After the reshape (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the input as entered, the output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents, region 1's entry contents). -/
abbrev V2 : (c : Dev nD) → (b : Ref sig .tc) → Buf (Elt F) ((c : Thread nD τ).loc b) := fun c b => W2 m ρ c b
/-- At region 0's exit each of its arrays holds what the pipeline leaves and every other buffer what it held at
    entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references (region 1's exit contents). -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## What each boundary holds, buffer by buffer -/

/-- The reshape writes no buffer but its result. -/
theorem W1_of_ne (c : Dev nD) (b : Ref sig .tc) (hb : b ≠ main_v0) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne hb))

/-- Region 0 reads the coordinate array relaid as [8, 262144, 2]: the launch contents in row-major order. -/
theorem V1_main_v0 (c : Dev nD) :
    V1 m ρ c main_v0 = shapeCast S8x262144x2 (m ((c : Thread nD τ).loc main_arg1)) shapeCasts_S8x512x512x2_S8x262144x2 := by
  show StableHlo.after hostOps0 _ (Proc.devRef .tc main_v0) = _
  after_results
  rfl

/-- Region 1 reads the map array at what region 0's write-backs leave. -/
theorem V2_main_v1 (c : Dev nD) : V2 m ρ c main_v1 = (dat0 (V1 m ρ) c).arrAt 1 cfg0.N :=
  W2_arr m ρ c 1

/-- Region 0 only reads the relaid coordinate array: it leaves it as entered. -/
theorem V2_main_v0 (c : Dev nD) : V2 m ρ c main_v0 = V1 m ρ c main_v0 :=
  (W2_arr m ρ c 0).trans (((dat0 (V1 m ρ) c).arrAt_in 0 rfl _).trans (A_eq0 (V1 m ρ) c 0))

/-- The output array ends at what region 1's write-backs leave. -/
theorem W3_main_v2 (c : Dev nD) : W3 m ρ c (Proc.devRef .tc main_v2) = (dat1 (V2 m ρ) c).arrAt 1 cfg1.N :=
  W3_arr m ρ c 1

/-- The arguments end as launched: the reshape writes its result only, and no region has an argument among its
    arrays. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := W1_of_ne m ρ c main_arg0 (by decide)
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := W1_of_ne m ρ c main_arg1 (by decide)
    _ = m ((c : Thread nD τ).loc main_arg1) := rfl

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    dues, at nothing. -/
abbrev R (c : Dev nD) : sProp 𝕄 := iprop((∃ r, prngReg c r) ∗ ∃ W, owes (c : Thread nD τ) (0 : CellTallies nD τ sig Unit) W)
/-- A stretch of host operations as a segment: over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The reshape allocates no buffer. -/
theorem hostOps0_fresh : (hostOps0 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- REGION 0 over the thread state: entered from every unscoped buffer at `W1`, left at `W2`. Its arrays split out
    of the unscoped buffers and put back at the exit contents; the generator register and the scoped buffers it does
    not stage into its invariant before the first point and out of the invariant after the last; nothing owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (V1 m ρ) c).Φ 0 from rfl]
    iintro ⟨Hp, -, Hr⟩
    iapply (hin0 (V1 m ρ) c)
    unfold Pipeline.ΦA
    isplitl [Hr]; · iexact Hr
    iexact Hp
  hout c := by
    rw [Pipeline.ownSems0_none, show (pdats m ρ 0 c).Φ (Fin.last _) = (dat0 (V1 m ρ) c).Φ (Fin.last cfg0.N) from rfl]
    iintro H
    ihave H' := (hout0 (V1 m ρ) c) $$ H
    unfold Pipeline.ΦA
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W2`, left at `W3` (what the launch reads at
    the end). Its arrays split out of the unscoped buffers and put back at the exit contents; the generator register
    into the class invariant and out; nothing owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 3 segments in order: the reshape from the launch contents, then the two regions. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
/-- @main is the run of the segments. -/
theorem main_run (c : Dev nD) : main (F := F) c = Pipeline.Seg.run (segs m ρ) := (main_chain c).trans (by chain_rfl)

set_option backward.isDefEq.respectTransparency.types false in
/-- THE RUN: from any memory with zero counters, every weakly fair execution of @main on the TensorCores terminates,
    nothing faulting, and every final memory holds each unscoped buffer of each core at the last boundary's
    contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun _ h => h)

/-- THE FRAME: every final memory holds both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W3_main_arg0 m ρ c),
     (h c _ (mem_uc main_arg1 (by decide))).trans (W3_main_arg1 m ρ c)⟩) (run_all m ρ)

/-- THE VALUE: every final memory holds the output array at what region 1's write-backs leave, read off region 0's,
    and both argument arrays as launched. -/
theorem run_value : θ_run defs (onTc (τ := τ) (main (F := F))) ⟨m, fun _ => 0, ρ⟩ (fun r => ∀ c : Dev nD,
      r.2.mem ((c.tc : Thread nD τ).loc main_v2) = (dat1 (V2 m ρ) c).arrAt 1 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_v2 (by decide))).trans (W3_main_v2 m ρ c),
     (h c _ (mem_uc main_arg0 (by decide))).trans (W3_main_arg0 m ρ c),
     (h c _ (mem_uc main_arg1 (by decide))).trans (W3_main_arg1 m ρ c)⟩) (run_all m ρ)

end Cert.KernelIdeal.Hand

end
-- ==== Proof.Spec.lean ====
/-
  The mathematics both programs compute, as plain functions on the extended reals.

  A source pixel with raw grid coordinate `x` sits at the clamped position
  `pos x = min 513 (max 0 ((x + 1) · ½ · 512 + 1))`; its cell is `cell x`, the position truncated toward zero,
  and its tent weight against an integer `k` is `tent x k = max (1 - |pos x - k|) 0`.
  Along one axis the pixel touches the two lines `cell x - 1` and `cell x` of the cropped output, with
  weights `tent x (cell x)` and `tent x (cell x + 1)`: `line x h`.
  The splat map of a batch is the sum over its source pixels of the outer product of the two axes' lines
  (`splat`); the result repeats it on every channel (`onChannels`).
  The scatter form (`scat`) adds, corner by corner, the product of the two tent weights onto the cell
  `(cell + di, cell + dj)` of a padded 515 × 515 map and crops the border away.
-/
import Idealize.ShloMosaic.PureOps.Ideal
import Idealize.ShloMosaic.Lib.ValueIdx

noncomputable section

namespace Cert.Splat

open Idealize.ShloMosaic Idealize.ShloMosaic.ValueIdx

/-- The literals of the coordinate map, as both programs print them. -/
abbrev one : EReal := Ideal.ofBits .f32 0x3F800000#32
abbrev half : EReal := Ideal.ofBits .f32 0x3F000000#32
abbrev extent : EReal := Ideal.ofBits .f32 0x44000000#32
abbrev top : EReal := Ideal.ofBits .f32 0x44004000#32
abbrev zero : EReal := Ideal.ofBits .f32 0x00000000#32

/-- The clamped pixel position of a raw grid coordinate. -/
def pos (x : EReal) : EReal := min top (max zero ((x + one) * half * extent + one))

/-- The cell of a position: truncation toward zero, as a 32-bit word. -/
def cell (x : EReal) : BitVec 32 := Ideal.fptosi 32 (pos x)

/-- The tent weight of the position against the integer the word `k` denotes (read signed). -/
def tent (x : EReal) (k : BitVec 32) : EReal :=
  max (one - (max (pos x - ((k.toInt : ℝ) : EReal)) (-(pos x - ((k.toInt : ℝ) : EReal))))) zero

/-- One axis of one source pixel, over the 512 lines of the cropped output: weight `tent x (cell x)` on line
    `cell x - 1`, weight `tent x (cell x + 1)` on line `cell x`, nothing elsewhere. -/
def line (x : EReal) (h : Fin 512) : EReal :=
  if BitVec.ofNat 32 h.val = cell x - 1#32 then tent x (cell x)
  else if BitVec.ofNat 32 h.val = cell x then tent x (cell x + 1#32)
  else zero

/-- The flat pixel number of tile `s`, row `t`. -/
def pix (s : Fin 128) (t : Fin 2048) : Fin 262144 := ⟨2048 * s.val + t.val, by omega⟩

/-- The splat map from the flattened grid [8, 262144, 2]: per batch, the sum over the 128 tiles of 2048 pixels of
    the outer product of the two axes' lines. -/
def splat (g : (⟨3, ![8, 262144, 2]⟩ : Shape).Idx → EReal) : (⟨3, ![8, 512, 512]⟩ : Shape).Idx → EReal :=
  fun j => ∑ s : Fin 128, ∑ t : Fin 2048, line (g (ix3 (j 0) (pix s t) 0)) (j 1) * line (g (ix3 (j 0) (pix s t) 1)) (j 2)

/-- The same map on each of the 32 channels. -/
def onChannels (d : (⟨3, ![8, 512, 512]⟩ : Shape).Idx → EReal) : (⟨4, ![8, 32, 512, 512]⟩ : Shape).Idx → EReal :=
  fun i => d (ix3 (i 0) (i 2) (i 3))

/-- Pixel `p` of the flattened grid is row `p / 512`, column `p % 512`. -/
def rowOf (p : Fin 262144) : Fin 512 := ⟨p.val / 512, by omega⟩
def colOf (p : Fin 262144) : Fin 512 := ⟨p.val % 512, Nat.mod_lt _ (by norm_num)⟩

/-- The grid [8, 512, 512, 2] flattened to [8, 262144, 2]. -/
def flat (a : (⟨4, ![8, 512, 512, 2]⟩ : Shape).Idx → EReal) : (⟨3, ![8, 262144, 2]⟩ : Shape).Idx → EReal :=
  fun i => a (ix4 (i 0) (rowOf (i 1)) (colOf (i 1)) (i 2))

/-- One corner's share of the padded map at cell `(r, q)` of batch `b`: the pixels whose cell, shifted by the
    corner `(di, dj)`, is `(r, q)` — the words read signed — each with the product of its two tent weights. -/
def corner (a : (⟨4, ![8, 512, 512, 2]⟩ : Shape).Idx → EReal) (di dj : BitVec 32) (b : Fin 8) (r q : Fin 515) : EReal :=
  ∑ u ∈ (Finset.univ : Finset (Fin 512 × Fin 512)).filter (fun u =>
      (cell (a (ix4 b u.1 u.2 0)) + di).toInt = (r.val : Int) ∧ (cell (a (ix4 b u.1 u.2 1)) + dj).toInt = (q.val : Int)),
    tent (a (ix4 b u.1 u.2 0)) (cell (a (ix4 b u.1 u.2 0)) + di) * tent (a (ix4 b u.1 u.2 1)) (cell (a (ix4 b u.1 u.2 1)) + dj)

/-- Line `h` of the cropped output is line `h + 1` of the padded map. -/
def inner (h : Fin 512) : Fin 515 := ⟨h.val + 1, by omega⟩

/-- The scatter form: the four corners added in the order (0,0), (0,1), (1,0), (1,1) onto a zero map, read at the
    cropped cell `(h + 1, w + 1)`, on every channel. -/
def scat (a : (⟨4, ![8, 512, 512, 2]⟩ : Shape).Idx → EReal) : (⟨4, ![8, 32, 512, 512]⟩ : Shape).Idx → EReal :=
  fun i =>
    (((zero + corner a 0#32 0#32 (i 0) (inner (i 2)) (inner (i 3))) + corner a 0#32 1#32 (i 0) (inner (i 2)) (inner (i 3)))
      + corner a 1#32 0#32 (i 0) (inner (i 2)) (inner (i 3))) + corner a 1#32 1#32 (i 0) (inner (i 2)) (inner (i 3))

end Cert.Splat

end
-- ==== Proof.LibDotRead.lean ====
/- A matrix product's contraction sum re-indexed by the contracted coordinate: for the product of an m x k by a
   k x n matrix, and for the product of the transpose of a k x m matrix by a k x n matrix. -/
import Idealize.ShloMosaic.Lib.ValueIdx
import Idealize.ShloMosaic.PureOps.Ideal.Laws

noncomputable section

open scoped BigOperators

namespace Cert.DotRead

open Idealize.ShloMosaic Idealize.ShloMosaic.ValueIdx

/-- Rows by columns: the contraction at (a, b) runs over A (a, c) * B (c, b). -/
theorem sum_contr_plain {m k n : Nat}
    (w : DotDims.WF ⟨2, ![m, k]⟩ ⟨2, ![k, n]⟩ ⟨2, ![m, n]⟩ [1] [0] [0] [1] [] [])
    (A : (⟨2, ![m, k]⟩ : Shape).Idx → EReal) (B : (⟨2, ![k, n]⟩ : Shape).Idx → EReal) (a : Fin m) (b : Fin n) :
    ∑ q : (⟨[1], [0], [0], [1], [], [], w⟩ : DotDims ⟨2, ![m, k]⟩ ⟨2, ![k, n]⟩ ⟨2, ![m, n]⟩).contr.Idx,
        A ((⟨[1], [0], [0], [1], [], [], w⟩ : DotDims ⟨2, ![m, k]⟩ ⟨2, ![k, n]⟩ ⟨2, ![m, n]⟩).lhsIdx (ix2 a b) q)
          * B ((⟨[1], [0], [0], [1], [], [], w⟩ : DotDims ⟨2, ![m, k]⟩ ⟨2, ![k, n]⟩ ⟨2, ![m, n]⟩).rhsIdx (ix2 a b) q)
      = ∑ c : Fin k, A (ix2 a c) * B (ix2 c b) := by
  rw [← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The left operand transposed: the contraction at (a, b) runs over A (c, a) * B (c, b). -/
theorem sum_contr_lhsT {m k n : Nat}
    (w : DotDims.WF ⟨2, ![k, m]⟩ ⟨2, ![k, n]⟩ ⟨2, ![m, n]⟩ [0] [0] [1] [1] [] [])
    (A : (⟨2, ![k, m]⟩ : Shape).Idx → EReal) (B : (⟨2, ![k, n]⟩ : Shape).Idx → EReal) (a : Fin m) (b : Fin n) :
    ∑ q : (⟨[0], [0], [1], [1], [], [], w⟩ : DotDims ⟨2, ![k, m]⟩ ⟨2, ![k, n]⟩ ⟨2, ![m, n]⟩).contr.Idx,
        A ((⟨[0], [0], [1], [1], [], [], w⟩ : DotDims ⟨2, ![k, m]⟩ ⟨2, ![k, n]⟩ ⟨2, ![m, n]⟩).lhsIdx (ix2 a b) q)
          * B ((⟨[0], [0], [1], [1], [], [], w⟩ : DotDims ⟨2, ![k, m]⟩ ⟨2, ![k, n]⟩ ⟨2, ![m, n]⟩).rhsIdx (ix2 a b) q)
      = ∑ c : Fin k, A (ix2 c a) * B (ix2 c b) := by
  rw [← Equiv.sum_comp (contrEquiv1 (⟨[0], [0], [1], [1], [], [], w⟩ : DotDims ⟨2, ![k, m]⟩ ⟨2, ![k, n]⟩ ⟨2, ![m, n]⟩) k rfl rfl).symm]
  refine Finset.sum_congr rfl fun c _ => ?_
  have c2 := contrEquiv1_symm_val (⟨[0], [0], [1], [1], [], [], w⟩ : DotDims ⟨2, ![k, m]⟩ ⟨2, ![k, n]⟩ ⟨2, ![m, n]⟩) k rfl rfl c
  have l2 : (⟨[0], [0], [1], [1], [], [], w⟩ : DotDims ⟨2, ![k, m]⟩ ⟨2, ![k, n]⟩ ⟨2, ![m, n]⟩).lhsIdx (ix2 a b)
      ((contrEquiv1 _ k rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [0], [1], [1], [], [], w⟩ : DotDims ⟨2, ![k, m]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.DotRead

end
-- ==== Proof.KI.StepRead.lean ====
/-
  One grid point's update of the accumulator, read at an entry, over the extended reals: entry (h, w) grows by the
  sum over the tile's 2048 pixels of the first axis' line weight at h times the second axis' at w. With it the
  small relayouts: the zero fill, the copy to the [1, 512, 512] block, the copy onto 8 channels.
-/
import proofs.«115873_j3066606649874_1_alg».proof.Proof.KI.Data
import proofs.«115873_j3066606649874_1_alg».proof.Proof.Spec
import proofs.«115873_j3066606649874_1_alg».proof.Proof.LibDotRead
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.ValueIdx

/-! ## Layout: a column broadcast along the lines, the two columns of a tile's block, the block's unit axis dropped -/

/-- A [2048, 1] column broadcast to [2048, 512] reads, at (t, h), the column at t. -/
theorem bcol {α : Type} (v : S2048x1.Idx → α) (t : Fin 2048) (h : Fin 512) :
    broadcastTo S2048x512 v broadcasts_S2048x1_S2048x512 (ix2 t h) = v (ix2 t 0) := by
  refine broadcastTo_apply v _ (ix2 t h) (ix2 t 0) fun ax => ?_
  match ax with
  | ⟨0, _⟩ => rfl
  | ⟨1, _⟩ => rfl

/-- The first column of the block [1, 2048, 2] at pixel t is the block at (0, t, 0). -/
theorem ldI (x : Vec Ideal S1x2048x2 .f32) (t : Fin 2048) : View.ld x colI (ix3 0 t 0) = x (ix3 0 t 0) := by
  refine congrArg x (funext fun a => Fin.ext ?_)
  match a with
  | ⟨0, _⟩ => rfl
  | ⟨1, _⟩ => show 0 + 1 * t.val = t.val; omega
  | ⟨2, _⟩ => rfl

/-- The second column at pixel t is the block at (0, t, 1). -/
theorem ldJ (x : Vec Ideal S1x2048x2 .f32) (t : Fin 2048) : View.ld x colJ (ix3 0 t 0) = x (ix3 0 t 1) := by
  refine congrArg x (funext fun a => Fin.ext ?_)
  match a with
  | ⟨0, _⟩ => rfl
  | ⟨1, _⟩ => show 0 + 1 * t.val = t.val; omega
  | ⟨2, _⟩ => rfl

/-- A [1, 2048, 1] column viewed [2048, 1] reads, at (t, 0), the column at (0, t, 0). -/
theorem castCol {α : Type} (v : S1x2048x1.Idx → α) (t : Fin 2048) :
    shapeCast S2048x1 v shapeCasts_S1x2048x1_S2048x1 (ix2 t 0) = v (ix3 0 t 0) :=
  shapeCast_1ab_ab_apply v _ t 0

/-! ## One pixel's position, cell and distances, per axis -/

/-- The first axis' clamped position of pixel t. -/
theorem pay4_apply (v : Vec Ideal S1x2048x1 .f32) (t : Fin 2048) :
    k0_pay4 (F := Ideal) v (ix2 t 0) = Cert.Splat.pos (v (ix3 0 t 0)) := by
  unfold k0_pay4
  show min _ (max _ ((shapeCast S2048x1 v shapeCasts_S1x2048x1_S2048x1 (ix2 t 0) + _) * _ * _ + _)) = _
  rw [castCol]; rfl

/-- The second axis' clamped position of pixel t. -/
theorem pay5_apply (v : Vec Ideal S1x2048x1 .f32) (t : Fin 2048) :
    k0_pay5 (F := Ideal) v (ix2 t 0) = Cert.Splat.pos (v (ix3 0 t 0)) := by
  unfold k0_pay5
  show min _ (max _ ((shapeCast S2048x1 v shapeCasts_S1x2048x1_S2048x1 (ix2 t 0) + _) * _ * _ + _)) = _
  rw [castCol]; rfl

/-- The first axis' cell of pixel t. -/
theorem pay6_apply (v : Vec Ideal S1x2048x1 .f32) (t : Fin 2048) :
    k0_pay6 (F := Ideal) v (ix2 t 0) = Cert.Splat.cell (v (ix3 0 t 0)) := by
  unfold k0_pay6
  show Ideal.fptosi 32 (k0_pay4 (F := Ideal) v (ix2 t 0)) = _
  rw [pay4_apply]; rfl

/-- The second axis' cell of pixel t. -/
theorem pay7_apply (v : Vec Ideal S1x2048x1 .f32) (t : Fin 2048) :
    k0_pay7 (F := Ideal) v (ix2 t 0) = Cert.Splat.cell (v (ix3 0 t 0)) := by
  unfold k0_pay7
  show Ideal.fptosi 32 (k0_pay5 (F := Ideal) v (ix2 t 0)) = _
  rw [pay5_apply]; rfl

/-- The first axis' distance of the position from its cell: |p - k| as max (p - k) (-(p - k)). -/
theorem pay8_apply (v : Vec Ideal S1x2048x1 .f32) (i : S2048x1.Idx) :
    k0_pay8 (F := Ideal) v i
      = max (k0_pay4 (F := Ideal) v i - (((k0_pay6 (F := Ideal) v i).toInt : ℝ) : EReal))
          (-(k0_pay4 (F := Ideal) v i - (((k0_pay6 (F := Ideal) v i).toInt : ℝ) : EReal))) := rfl

/-- The tent weight of a position p against the cell c, over any columns. -/
theorem pay9_apply (p : FVec Ideal S2048x1 .f32) (c : IVec S2048x1 32) (i : S2048x1.Idx) :
    k0_pay9 (F := Ideal) p c i
      = max (Cert.Splat.one - max (p i - (((c i).toInt : ℝ) : EReal)) (-(p i - (((c i).toInt : ℝ) : EReal)))) Cert.Splat.zero := rfl

/-- The tent weight of a position p against the cell after c. -/
theorem pay10_apply (p : FVec Ideal S2048x1 .f32) (c : IVec S2048x1 32) (i : S2048x1.Idx) :
    k0_pay10 (F := Ideal) p c i
      = max (Cert.Splat.one - max (p i - (((c i + 1#32).toInt : ℝ) : EReal)) (-(p i - (((c i + 1#32).toInt : ℝ) : EReal)))) Cert.Splat.zero := rfl

/-! ## The two weight matrices at an entry -/

/-- A select on the equality of two words is the `if` on it. -/
theorem select_cmpi_eq {α : Type} (a b : BitVec 32) (u v : α) :
    Scalar.select (IntOp.cmpi .eq a b) u v = if a = b then u else v := by
  by_cases h : a = b
  · subst h
    rw [if_pos rfl]
    show Scalar.select (BitVec.ofBool (a == a)) u v = u
    rw [beq_self_eq_true]; exact select_one u v
  · rw [if_neg h]
    show Scalar.select (BitVec.ofBool (a == b)) u v = v
    rw [beq_false_of_ne h]; exact select_zero u v

/-- The first axis' weight matrix at (t, h), over any columns: the weight o - a on the line before the cell c, the tent
    weight against c + 1 on the line c, zero elsewhere. -/
theorem pay11_apply (p : FVec Ideal S2048x1 .f32) (c : IVec S2048x1 32) (a : FVec Ideal S2048x1 .f32) (o : Ideal .f32)
    (t : Fin 2048) (h : Fin 512) :
    k0_pay11 (F := Ideal) p c a o (ix2 t h)
      = Scalar.select (IntOp.cmpi .eq (BitVec.ofNat 32 h.val) (c (ix2 t 0) - 1#32)) (max (o - a (ix2 t 0)) Cert.Splat.zero)
          (Scalar.select (IntOp.cmpi .eq (BitVec.ofNat 32 h.val) (c (ix2 t 0)))
             (max (Cert.Splat.one - max (p (ix2 t 0) - ((((c (ix2 t 0) + 1#32).toInt : ℝ)) : EReal))
                (-(p (ix2 t 0) - (((c (ix2 t 0) + 1#32).toInt : ℝ) : EReal)))) Cert.Splat.zero) Cert.Splat.zero) := by
  unfold k0_pay11
  show Scalar.select (IntOp.cmpi .eq (iota .tc S2048x512 32 [1] iota_S2048x512_d1_w32 (ix2 t h)) (broadcastTo S2048x512 _ broadcasts_S2048x1_S2048x512 (ix2 t h)))
        (broadcastTo S2048x512 (shapeCast S2048x1 _ shapeCasts_S2048x1_S2048x1) broadcasts_S2048x1_S2048x512 (ix2 t h))
        (Scalar.select (IntOp.cmpi .eq (iota .tc S2048x512 32 [1] iota_S2048x512_d1_w32 (ix2 t h)) (broadcastTo S2048x512 _ broadcasts_S2048x1_S2048x512 (ix2 t h)))
          (broadcastTo S2048x512 (shapeCast S2048x1 _ shapeCasts_S2048x1_S2048x1) broadcasts_S2048x1_S2048x512 (ix2 t h)) _) = _
  rw [bcol, bcol, bcol, bcol, shapeCast_self, shapeCast_self, iota_single_apply]
  rfl

/-- The mask "line h is the line before the cell c" at (t, h). -/
theorem pay12_apply (c : IVec S2048x1 32) (t : Fin 2048) (h : Fin 512) :
    k0_pay12 c (ix2 t h) = IntOp.cmpi .eq (BitVec.ofNat 32 h.val) (c (ix2 t 0) - 1#32) := by
  unfold k0_pay12
  show IntOp.cmpi .eq (iota .tc S2048x512 32 [1] iota_S2048x512_d1_w32 (ix2 t h)) (broadcastTo S2048x512 _ broadcasts_S2048x1_S2048x512 (ix2 t h)) = _
  rw [bcol, iota_single_apply]
  rfl

/-- The first axis' weight row of pixel t at line h. -/
theorem rowW_apply (x : Vec Ideal S1x2048x2 .f32) (t : Fin 2048) (h : Fin 512) :
    k0_pay11 (F := Ideal) (k0_pay4 (View.ld x colI)) (k0_pay6 (View.ld x colI)) (k0_pay8 (View.ld x colI))
        (Scalar.ofBits .f32 0x3F800000#32) (ix2 t h)
      = Cert.Splat.line (x (ix3 0 t 0)) h := by
  rw [pay11_apply, select_cmpi_eq, select_cmpi_eq, pay8_apply, pay6_apply, pay4_apply, ldI]
  rfl

/-- The second axis' weight row of pixel t at line w. -/
theorem colW_apply (x : Vec Ideal S1x2048x2 .f32) (t : Fin 2048) (w : Fin 512) :
    Scalar.select (k0_pay12 (k0_pay7 (F := Ideal) (View.ld x colJ)) (ix2 t w))
        (k0_pay9 (F := Ideal) (k0_pay5 (View.ld x colJ)) (k0_pay7 (View.ld x colJ)) (ix2 t 0))
        (Scalar.select (IntOp.cmpi .eq (iota .tc S2048x512 32 [1] iota_S2048x512_d1_w32 (ix2 t w)) (k0_pay7 (F := Ideal) (View.ld x colJ) (ix2 t 0)))
          (k0_pay10 (F := Ideal) (k0_pay5 (View.ld x colJ)) (k0_pay7 (View.ld x colJ)) (ix2 t 0)) Cert.Splat.zero)
      = Cert.Splat.line (x (ix3 0 t 1)) w := by
  rw [pay12_apply, iota_single_apply, select_cmpi_eq, select_cmpi_eq, pay9_apply, pay10_apply, pay7_apply, pay5_apply, ldJ]
  rfl

/-! ## The update at an entry -/

/-- The whole update at entry (h, w), over any operands: the accumulator plus the contraction, over the tile's pixels,
    of the first matrix' column h with the second matrix' column w, the second matrix chosen entry by entry between
    w0 (under the mask m), w1 (on the line the cell c names) and zero. -/
theorem pay1_apply (c : IVec S2048x1 32) (w0 w1 : FVec Ideal S2048x1 .f32) (io : IVec S2048x512 32)
    (A : FVec Ideal S2048x512 .bf16) (m : IVec S2048x512 1) (acc : Vec Ideal S512x512 .f32) (h w : Fin 512) :
    k0_pay1 (F := Ideal) c w0 w1 io A m acc (ix2 h w)
      = acc (ix2 h w) + ∑ t : Fin 2048, A (ix2 t h)
          * Scalar.select (m (ix2 t w)) (w0 (ix2 t 0))
              (Scalar.select (IntOp.cmpi .eq (io (ix2 t w)) (c (ix2 t 0))) (w1 (ix2 t 0)) Cert.Splat.zero) := by
  unfold k0_pay1
  rw [shapeCast_self]
  show acc (ix2 h w) + FloatOps.matmul dot_S2048x512_S2048x512_S512x512_0_0_1_1_n_n none A _ (constant S512x512 .f32 0x00000000#32) (ix2 h w) = _
  rw [Ideal.matmul_constant_zero_apply]
  refine congrArg (acc (ix2 h w) + ·) ((Cert.DotRead.sum_contr_lhsT Facts₀.dot_S2048x512_S2048x512_S512x512_0_0_1_1_n_n_wf _ _ h w).trans
    (Finset.sum_congr rfl fun t _ => ?_))
  show A (ix2 t h) * Scalar.select (m (ix2 t w)) (broadcastTo S2048x512 (shapeCast S2048x1 w0 shapeCasts_S2048x1_S2048x1) broadcasts_S2048x1_S2048x512 (ix2 t w))
      (Scalar.select (IntOp.cmpi .eq (io (ix2 t w)) (broadcastTo S2048x512 c broadcasts_S2048x1_S2048x512 (ix2 t w)))
        (broadcastTo S2048x512 (shapeCast S2048x1 w1 shapeCasts_S2048x1_S2048x1) broadcasts_S2048x1_S2048x512 (ix2 t w)) _) = _
  rw [bcol, bcol, bcol, shapeCast_self, shapeCast_self]
  rfl

/-- The zero fill of the accumulator is zero at every entry. -/
theorem zeros_apply (j : S512x512.Idx) : k0_pay3 (F := Ideal) j = 0 := by
  unfold k0_pay3
  rw [shapeCast_self]
  exact Ideal.ofBits_zero_f32

/-- One point's update at entry (h, w). -/
theorem step_apply (x : Vec Ideal S1x2048x2 .f32) (acc : Vec Ideal S512x512 .f32) (h w : Fin 512) :
    step (F := Ideal) x acc (ix2 h w)
      = acc (ix2 h w) + ∑ t : Fin 2048, Cert.Splat.line (x (ix3 0 t 0)) h * Cert.Splat.line (x (ix3 0 t 1)) w := by
  unfold step
  rw [pay1_apply]
  refine congrArg (acc (ix2 h w) + ·) (Finset.sum_congr rfl fun t _ => ?_)
  rw [rowW_apply, colW_apply]

/-- The accumulator copied to the output block [1, 512, 512]. -/
theorem relay_apply (a : Vec Ideal S512x512 .f32) (h w : Fin 512) : k0_pay2 (F := Ideal) a (ix3 0 h w) = a (ix2 h w) := by
  unfold k0_pay2
  exact shapeCast_ab_1ab_apply a _ 0 h w

/-- The batch's map copied onto 8 channels. -/
theorem chan_apply (x : Vec Ideal S1x512x512 .f32) (k : Fin 8) (h w : Fin 512) :
    k1_pay1 (F := Ideal) x (ix4 0 k h w) = x (ix3 0 h w) := by
  unfold k1_pay1
  rw [shapeCast_self]
  refine (shapeCast_abc_1abc_apply _ _ 0 k h w).trans ?_
  refine (broadcastTo_apply _ broadcasts_S1x512x512_S8x512x512 (ix3 k h w) (ix3 0 h w) fun ax => ?_).trans ?_
  · match ax with
    | ⟨0, _⟩ => rfl
    | ⟨1, _⟩ => rfl
    | ⟨2, _⟩ => rfl
  · refine (shapeCast_ab_1ab_apply _ _ 0 h w).trans ?_
    exact shapeCast_1ab_ab_apply x _ h w

end Cert.KernelIdeal.Hand

end
-- ==== Proof.KI.Value.lean ====
/-
  From blocks to the array, over the extended reals. After region 0 the array of the per-batch maps holds, at
  (b, h, w), the sum over the batch's 128 tiles of what each tile's point adds at (h, w): the splat map of the
  flattened grid.

  Point t of the grid 8 × 128 is batch t / 128, tile t % 128. Its input block is pixels 2048 (t % 128) … 2048 (t % 128) + 2047
  of batch t / 128; its output block is the whole 512 × 512 map of that batch, written back at the batch's last
  tile only. The accumulator after point t is the sum of the contributions of the tiles 0 … t % 128 of the batch
  (induction on the point), so that the block written back at point 128 b + 127 is batch b of the splat map.
-/
import proofs.«115873_j3066606649874_1_alg».proof.Proof.KI.StepRead

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-! The lemmas on the way to `final0` live in a namespace of their own. -/
namespace ToArray0

/-! ## The index maps over the grid -/

/-- The printed index maps, decided over the 1024 points: the input's block index is (batch, tile, 0), the
    output's (batch, 0, 0). -/
theorem idx_facts0 : ∀ t : Fin cfg0.N,
    win0_0.index t (0 : Fin 3) = t.val / 128 ∧ win0_0.index t (1 : Fin 3) = t.val % 128 ∧ win0_0.index t (2 : Fin 3) = 0
    ∧ win0_1.index t (0 : Fin 3) = t.val / 128 ∧ win0_1.index t (1 : Fin 3) = 0 ∧ win0_1.index t (2 : Fin 3) = 0 :=
  (by decide +kernel : ∀ t : Fin grid0.N, _)

/-- The input block at point `t` and the flattened grid at the region's entry, at their literal types. -/
abbrev xblk (c : Dev nD) (t : Fin cfg0.N) : Vec Ideal S1x2048x2 .f32 := iblk0 V c 0 t
abbrev grid (c : Dev nD) : S8x262144x2.Idx → EReal := V c main_v0

/-- Row `r`, column `k` of the input block at point `t` is pixel `2048 (t % 128) + r` of batch `t / 128`. -/
theorem xblk_apply (c : Dev nD) (t : Fin cfg0.N) (r : Fin 2048) (k : Fin 2) (i : S8x262144x2.Idx)
    (h0 : (i 0).val = t.val / 128) (h1 : (i 1).val = 2048 * (t.val % 128) + r.val) (h2 : (i 2).val = k.val) :
    xblk V c t (ix3 0 r k) = grid V c i := by
  obtain ⟨e0, e1, e2, -⟩ := idx_facts0 t
  unfold xblk iblk0
  rw [View.read_apply]
  show V c main_v0 _ = V c main_v0 i
  congr 1
  funext a
  apply Fin.ext
  match a with
  | ⟨0, _⟩ => show win0_0.index t (0 : Fin 3) * 1 + 1 * 0 = (i 0).val; rw [e0, h0]; omega
  | ⟨1, _⟩ => show win0_0.index t (1 : Fin 3) * 2048 + 1 * r.val = (i 1).val; rw [e1, h1]; omega
  | ⟨2, _⟩ => show win0_0.index t (2 : Fin 3) * 2 + 1 * k.val = (i 2).val; rw [e2, h2]; omega

/-! ## One tile's contribution, and the accumulator as the sum of the tiles so far -/

/-- What tile `s` of batch `b` adds at (h, w): the sum over its 2048 pixels of the first axis' line weight at `h`
    times the second's at `w` (zero past the grid, where it is never read). -/
def tile (g : S8x262144x2.Idx → EReal) (b s : ℕ) (h w : Fin 512) : EReal :=
  if hb : b < 8 ∧ s < 128 then
    ∑ r : Fin 2048, Cert.Splat.line (g (ix3 ⟨b, hb.1⟩ (Cert.Splat.pix ⟨s, hb.2⟩ r) 0)) h
      * Cert.Splat.line (g (ix3 ⟨b, hb.1⟩ (Cert.Splat.pix ⟨s, hb.2⟩ r) 1)) w
  else 0

/-- The input block of point `t` contributes tile `t % 128` of batch `t / 128`. -/
theorem xblk_tile (c : Dev nD) (t : Fin cfg0.N) (h w : Fin 512) :
    (∑ r : Fin 2048, Cert.Splat.line (xblk V c t (ix3 0 r 0)) h * Cert.Splat.line (xblk V c t (ix3 0 r 1)) w)
      = tile (grid V c) (t.val / 128) (t.val % 128) h w := by
  have hN : cfg0.N = 1024 := N_0
  have ht : t.val < 1024 := hN ▸ t.isLt
  unfold tile
  rw [dif_pos ⟨by omega, by omega⟩]
  refine Finset.sum_congr rfl fun r _ => ?_
  rw [xblk_apply V c t r 0 (ix3 ⟨t.val / 128, by omega⟩ (Cert.Splat.pix ⟨t.val % 128, by omega⟩ r) 0) rfl rfl rfl,
    xblk_apply V c t r 1 (ix3 ⟨t.val / 128, by omega⟩ (Cert.Splat.pix ⟨t.val % 128, by omega⟩ r) 1) rfl rfl rfl]

/-- After point `n` the accumulator holds, at (h, w), the contributions of tiles 0 … n % 128 of batch n / 128. -/
theorem accAt_apply (c : Dev nD) (h w : Fin 512) : ∀ (n : ℕ) (hn : n < cfg0.N),
    accAt (F := Ideal) V c n hn (ix2 h w) = ∑ s ∈ Finset.range (n % 128 + 1), tile (grid V c) (n / 128) s h w
  | 0, hn => by
    rw [accAt_first V c ⟨0, hn⟩ rfl, step_apply, zeros_apply, zero_add]
    show (∑ r : Fin 2048, Cert.Splat.line (xblk V c ⟨0, hn⟩ (ix3 0 r 0)) h * Cert.Splat.line (xblk V c ⟨0, hn⟩ (ix3 0 r 1)) w) = _
    rw [xblk_tile, Finset.sum_range_one]
    rfl
  | n + 1, hn => by
    by_cases hm : (n + 1) % 128 = 0
    · rw [accAt_first V c ⟨n + 1, hn⟩ hm, step_apply, zeros_apply, zero_add]
      show (∑ r : Fin 2048, Cert.Splat.line (xblk V c ⟨n + 1, hn⟩ (ix3 0 r 0)) h * Cert.Splat.line (xblk V c ⟨n + 1, hn⟩ (ix3 0 r 1)) w) = _
      rw [xblk_tile, hm, Finset.sum_range_one]
    · rw [accAt_next V c ⟨n + 1, hn⟩ hm, step_apply]
      show accAt V c n _ (ix2 h w) + (∑ r : Fin 2048, Cert.Splat.line (xblk V c ⟨n + 1, hn⟩ (ix3 0 r 0)) h * Cert.Splat.line (xblk V c ⟨n + 1, hn⟩ (ix3 0 r 1)) w) = _
      rw [accAt_apply c h w n (Nat.lt_of_succ_lt hn), xblk_tile]
      have e1 : (n + 1) / 128 = n / 128 := by omega
      have e2 : (n + 1) % 128 = n % 128 + 1 := by omega
      show _ + tile (grid V c) ((n + 1) / 128) ((n + 1) % 128) h w = _
      rw [e1, e2, Finset.sum_range_succ _ (n % 128 + 1)]

/-! ## The splat map at an entry, and the block a batch's last tile writes back -/

/-- The splat map at (b, h, w) is the sum of the batch's 128 tiles' contributions. -/
theorem splat_apply (g : S8x262144x2.Idx → EReal) (i : S8x512x512.Idx) (b : ℕ) (h w : Fin 512)
    (h0 : (i 0).val = b) (h1 : (i 1).val = h.val) (h2 : (i 2).val = w.val) :
    Cert.Splat.splat g i = ∑ s ∈ Finset.range 128, tile g b s h w := by
  subst h0
  have hb : (i 0).val < 8 := (i 0).isLt
  obtain rfl : i 1 = h := Fin.ext h1
  obtain rfl : i 2 = w := Fin.ext h2
  unfold Cert.Splat.splat
  rw [Finset.sum_range]
  refine Finset.sum_congr rfl fun s _ => ?_
  unfold tile
  rw [dif_pos ⟨hb, s.isLt⟩]
  rfl

/-- The accumulator after a batch's last tile, copied to the output block, is the splat map at the batch's entries. -/
theorem last_tile_apply (c : Dev nD) (t : Fin cfg0.N) (hm : t.val % 128 = 127) (h w : Fin 512) (i : S8x512x512.Idx)
    (h0 : (i 0).val = t.val / 128) (h1 : (i 1).val = h.val) (h2 : (i 2).val = w.val) :
    k0_pay2 (F := Ideal) (accAt V c t.val t.isLt) (ix3 0 h w) = Cert.Splat.splat (grid V c) i := by
  rw [relay_apply, accAt_apply, hm, splat_apply (grid V c) i (t.val / 128) h w h0 h1 h2]

/-- WHAT A BATCH'S LAST TILE WRITES BACK is that batch's block of the splat map of the flattened grid. -/
theorem flushed0_eq (c : Dev nD) (t : Fin cfg0.N) (hf : (cfg0.win 1).flush t = true) :
    (dat0 (F := Ideal) V c).flushed 1 t
      = ((cfg0.win 1).blk t).view.read (Elt Ideal) (Cert.Splat.splat (V c main_v0) : S8x512x512.Idx → EReal) := by
  have hN : cfg0.N = 1024 := N_0
  have ht : t.val < 1024 := hN ▸ t.isLt
  have hm : t.val % 128 = 127 := (flush0_1 t).mp hf
  obtain ⟨-, -, -, e0, e1, e2⟩ := idx_facts0 t
  show (cfg0.win 1).cut (grid0.coords t) ((dat0 (F := Ideal) V c).after 1 t) = _
  rw [after0_1]
  funext j
  have hx : (cfg0.win 1).xinj (grid0.coords t) j = (ix3 (0 : Fin 1) (j 1 : Fin 512) (j 2 : Fin 512) : S1x512x512.Idx) := by
    funext a
    match a with
    | ⟨0, _⟩ => exact Fin.ext (by have hj : (j 0).val < 1 := (j 0).isLt; show (j 0).val = 0; omega)
    | ⟨1, _⟩ => rfl
    | ⟨2, _⟩ => rfl
  refine (congrArg (k0_pay2 (F := Ideal) (accAt V c t.val t.isLt)) hx).trans ?_
  refine last_tile_apply V c t hm (j 1) (j 2) (((cfg0.win 1).blk t).view.emb j) ?_ ?_ ?_
  · show win0_1.index t (0 : Fin 3) * 1 + 1 * (j 0).val = t.val / 128
    have hj : (j 0).val < 1 := (j 0).isLt
    rw [e0]; omega
  · show win0_1.index t (1 : Fin 3) * 512 + 1 * (j 1).val = (j 1).val
    rw [e1]; omega
  · show win0_1.index t (2 : Fin 3) * 512 + 1 * (j 2).val = (j 2).val
    rw [e2]; omega

/-- An entry of the array is in point `t`'s block iff each coordinate is in the block's range on its axis. -/
theorem mem_blk0 (t : Fin cfg0.N) (i : S8x512x512.Idx) :
    i ∈ ((cfg0.win 1).blk t).view.set
      ↔ ∀ a : Fin 3, win0_1.index t a * S1x512x512.size a ≤ (i a).val ∧ (i a).val < win0_1.index t a * S1x512x512.size a + S1x512x512.size a := by
  show i ∈ ((View.whole main_v1).slice (win0_1.rect t)).set ↔ _
  rw [View.set_slice_whole, Rect.mem_set_unit]
  exact Iff.rfl

/-- Every entry (b, h, w) is in the block the last tile of batch `b`, point 128 b + 127, writes back. -/
theorem covered0 (i : S8x512x512.Idx) :
    ∃ t : Fin cfg0.N, (cfg0.win 1).flush t = true ∧ i ∈ ((cfg0.win 1).blk t).view.set := by
  have hN : cfg0.N = 1024 := N_0
  have hi0 : (i 0).val < 8 := (i 0).isLt
  have hi1 : (i 1).val < 512 := (i 1).isLt
  have hi2 : (i 2).val < 512 := (i 2).isLt
  have hlt : 128 * (i 0).val + 127 < cfg0.N := by omega
  refine ⟨⟨128 * (i 0).val + 127, hlt⟩, (flush0_1 _).mpr (by show (128 * (i 0).val + 127) % 128 = 127; omega), ?_⟩
  obtain ⟨-, -, -, e0, e1, e2⟩ := idx_facts0 ⟨128 * (i 0).val + 127, hlt⟩
  have e0' : win0_1.index ⟨128 * (i 0).val + 127, hlt⟩ (0 : Fin 3) = (i 0).val := by
    rw [e0]; show (128 * (i 0).val + 127) / 128 = (i 0).val; omega
  rw [mem_blk0]
  intro a
  match a with
  | ⟨0, _⟩ => show win0_1.index _ (0 : Fin 3) * 1 ≤ (i 0).val ∧ (i 0).val < win0_1.index _ (0 : Fin 3) * 1 + 1; rw [e0']; omega
  | ⟨1, _⟩ => show win0_1.index _ (1 : Fin 3) * 512 ≤ (i 1).val ∧ (i 1).val < win0_1.index _ (1 : Fin 3) * 512 + 512; rw [e1]; omega
  | ⟨2, _⟩ => show win0_1.index _ (2 : Fin 3) * 512 ≤ (i 2).val ∧ (i 2).val < win0_1.index _ (2 : Fin 3) * 512 + 512; rw [e2]; omega

end ToArray0

/-- Region 0 leaves in the maps' array the splat map of the flattened grid it was entered with. -/
theorem final0 (c : Dev nD) :
    (dat0 (F := Ideal) V c).arrAt 1 cfg0.N = (Cert.Splat.splat (V c main_v0) : S8x512x512.Idx → EReal) := by
  exact (dat0 (F := Ideal) V c).arrAt_eq_of_cover 1 (Cert.Splat.splat (V c main_v0) : S8x512x512.Idx → EReal)
    (fun t hf => ToArray0.flushed0_eq V c t hf) ToArray0.covered0

end Cert.KernelIdeal.Hand

end
-- ==== Proof.KI.Value1.lean ====
/-
  From blocks to the array, region 1, over the extended reals: the result holds, on every channel, the batch's map
  the region was entered with.
-/
import proofs.«115873_j3066606649874_1_alg».proof.Proof.KI.StepRead

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The offsets of the two whole-buffer rectangles are all zero. -/
theorem zeros3 : (![0, 0, 0] : Fin 3 → Nat) = fun _ => 0 := funext fun a => by fin_cases a <;> rfl
theorem zeros4 : (![0, 0, 0, 0] : Fin 4 → Nat) = fun _ => 0 := funext fun a => by fin_cases a <;> rfl

/-- The printed index maps over the grid 8 × 4: point `t` is batch `t / 4`, channel group `t % 4`; the input's
    block index is (batch, 0, 0), the output's (batch, group, 0, 0). -/
theorem block_index : ∀ t : Fin cfg1.N,
    win1_0.index t (0 : Fin 3) = t.val / 4 ∧ win1_0.index t (1 : Fin 3) = 0 ∧ win1_0.index t (2 : Fin 3) = 0
    ∧ win1_1.index t (0 : Fin 4) = t.val / 4 ∧ win1_1.index t (1 : Fin 4) = t.val % 4
    ∧ win1_1.index t (2 : Fin 4) = 0 ∧ win1_1.index t (3 : Fin 4) = 0 :=
  (by decide +kernel : ∀ t : Fin grid1.N, _)

/-- The copy onto 8 channels read at any index of the block [1, 8, 512, 512]: entry (0, k, h, w) is the map's (0, h, w). -/
theorem chan_at (x : Vec Ideal S1x512x512 .f32) (j : S1x8x512x512.Idx) :
    k1_pay1 (F := Ideal) x j = x (ix3 (0 : Fin 1) (j 2 : Fin 512) (j 3 : Fin 512)) := by
  have e : j = ix4 (0 : Fin 1) (j 1 : Fin 8) (j 2 : Fin 512) (j 3 : Fin 512) := by
    funext a
    match a with
    | ⟨0, _⟩ => exact Subsingleton.elim (α := Fin 1) _ _
    | ⟨1, _⟩ => rfl
    | ⟨2, _⟩ => rfl
    | ⟨3, _⟩ => rfl
  exact (congrArg (k1_pay1 (F := Ideal) x) e).trans (chan_apply x (j 1) (j 2) (j 3))

/-- What point `t` writes back is its block of the map on every channel. -/
theorem flushed1_eq (c : Dev nD) (t : Fin cfg1.N) :
    (dat1 (F := Ideal) V c).flushed 1 t
      = ((cfg1.win 1).blk t).view.read (Elt Ideal) (Cert.Splat.onChannels (V c main_v1) : S8x32x512x512.Idx → EReal) := by
  show (cfg1.win 1).cut (grid1.coords t) ((dat1 (F := Ideal) V c).after 1 t) = _
  rw [after1_1]
  unfold out1_1
  rw [View.canon_unit_zero zeros4]
  simp only [View.ld_unit_zero (S := S1x512x512) zeros3]
  obtain ⟨a0, a1, a2, b0, b1, b2, b3⟩ := block_index t
  refine funext fun (j : S1x8x512x512.Idx) => ?_
  refine (chan_at (iblk1 V c 0 t) j).trans ?_
  show (V c main_v1 : S8x512x512.Idx → EReal) (((cfg1.win 0).blk t).view.emb (ix3 (0 : Fin 1) (j 2 : Fin 512) (j 3 : Fin 512)))
      = (V c main_v1 : S8x512x512.Idx → EReal)
          (ix3 (((cfg1.win 1).blk t).view.emb j 0) (((cfg1.win 1).blk t).view.emb j 2) (((cfg1.win 1).blk t).view.emb j 3))
  refine congrArg _ (funext fun (a : Fin 3) => Fin.ext ?_)
  match a with
  | ⟨0, _⟩ =>
    show win1_0.index t (0 : Fin 3) * 1 + 1 * ((0 : Fin 1) : Nat) = win1_1.index t (0 : Fin 4) * 1 + 1 * (j 0).val
    have h0 : (j 0).val < 1 := (j 0).isLt
    rw [a0, b0]; simp only [Fin.val_zero]; omega
  | ⟨1, _⟩ =>
    show win1_0.index t (1 : Fin 3) * 512 + 1 * (j 2).val = win1_1.index t (2 : Fin 4) * 512 + 1 * (j 2).val
    rw [a1, b2]
  | ⟨2, _⟩ =>
    show win1_0.index t (2 : Fin 3) * 512 + 1 * (j 3).val = win1_1.index t (3 : Fin 4) * 512 + 1 * (j 3).val
    rw [a2, b3]

/-- An index of the result is in point `t`'s block iff each coordinate is in the block's range on its axis. -/
theorem mem_block (t : Fin cfg1.N) (i : S8x32x512x512.Idx) :
    i ∈ ((cfg1.win 1).blk t).view.set ↔ ∀ a : Fin 4, win1_1.index t a * S1x8x512x512.size a ≤ (i a).val
      ∧ (i a).val < win1_1.index t a * S1x8x512x512.size a + S1x8x512x512.size a := by
  show i ∈ ((View.whole main_v2).slice (win1_1.rect t)).set ↔ _
  rw [View.set_slice_whole, Rect.mem_set_unit]
  exact Iff.rfl

/-- Every index (b, ch, h, w) of the result is in the block of the point 4 b + ch / 8, which is written back. -/
theorem covered (i : S8x32x512x512.Idx) :
    ∃ t : Fin cfg1.N, (cfg1.win 1).flush t = true ∧ i ∈ ((cfg1.win 1).blk t).view.set := by
  have h0 : (i 0).val < 8 := (i 0).isLt
  have h1 : (i 1).val < 32 := (i 1).isLt
  have h2 : (i 2).val < 512 := (i 2).isLt
  have h3 : (i 3).val < 512 := (i 3).isLt
  have hN : 4 * (i 0).val + (i 1).val / 8 < cfg1.N := by rw [show cfg1.N = 32 from N_1]; omega
  refine ⟨⟨4 * (i 0).val + (i 1).val / 8, hN⟩, flush1_1 _, ?_⟩
  obtain ⟨-, -, -, b0, b1, b2, b3⟩ := block_index ⟨4 * (i 0).val + (i 1).val / 8, hN⟩
  have b0' : win1_1.index ⟨4 * (i 0).val + (i 1).val / 8, hN⟩ (0 : Fin 4) = (4 * (i 0).val + (i 1).val / 8) / 4 := b0
  have b1' : win1_1.index ⟨4 * (i 0).val + (i 1).val / 8, hN⟩ (1 : Fin 4) = (4 * (i 0).val + (i 1).val / 8) % 4 := b1
  rw [mem_block]
  intro a
  match a with
  | ⟨0, _⟩ =>
    show win1_1.index _ (0 : Fin 4) * 1 ≤ (i 0).val ∧ (i 0).val < win1_1.index _ (0 : Fin 4) * 1 + 1
    rw [b0']; omega
  | ⟨1, _⟩ =>
    show win1_1.index _ (1 : Fin 4) * 8 ≤ (i 1).val ∧ (i 1).val < win1_1.index _ (1 : Fin 4) * 8 + 8
    rw [b1']; omega
  | ⟨2, _⟩ =>
    show win1_1.index _ (2 : Fin 4) * 512 ≤ (i 2).val ∧ (i 2).val < win1_1.index _ (2 : Fin 4) * 512 + 512
    rw [b2]; omega
  | ⟨3, _⟩ =>
    show win1_1.index _ (3 : Fin 4) * 512 ≤ (i 3).val ∧ (i 3).val < win1_1.index _ (3 : Fin 4) * 512 + 512
    rw [b3]; omega

/-- Region 1 leaves in the result the map it was entered with, on every channel. -/
theorem final1 (c : Dev nD) :
    (dat1 (F := Ideal) V c).arrAt 1 cfg1.N = (Cert.Splat.onChannels (V c main_v1) : S8x32x512x512.Idx → EReal) := by
  exact (dat1 (F := Ideal) V c).arrAt_eq_of_cover 1 _ (fun t _ => flushed1_eq V c t) covered

end Cert.KernelIdeal.Hand

end
-- ==== Proof.Flat.lean ====
/-
  The grid [8, 512, 512, 2] relaid as [8, 262144, 2] keeps row-major order: pixel p of a batch is row p / 512,
  column p % 512.
-/
import proofs.«115873_j3066606649874_1_alg».proof.Proof.Spec
import Idealize.ShloMosaic.Lib.Pipeline.Value

noncomputable section

namespace Cert.Splat

open Idealize.ShloMosaic Idealize.ShloMosaic.ValueIdx

/-- A shape cast of the grid to its flattened form is `flat`. -/
theorem shapeCast_eq_flat (a : (⟨4, ![8, 512, 512, 2]⟩ : Shape).Idx → EReal)
    (h : (⟨4, ![8, 512, 512, 2]⟩ : Shape).ShapeCasts ⟨3, ![8, 262144, 2]⟩) :
    shapeCast (⟨3, ![8, 262144, 2]⟩ : Shape) a h = flat a := by
  funext j
  refine (shapeCast_apply a h j (ix4 (j 0) (rowOf (j 1)) (colOf (j 1)) (j 2)) ?_).trans rfl
  rw [Shape.rowMajor_val_four, Shape.rowMajor_val_three]
  have h1 : (j 1).val < 262144 := (j 1).isLt
  show (((j 0).val * 512 + (j 1).val / 512) * 512 + (j 1).val % 512) * 2 + (j 2).val = ((j 0).val * 262144 + (j 1).val) * 2 + (j 2).val
  omega

end Cert.Splat

end
-- ==== Proof.Bridge.lean ====
/-
  The law that joins the two programs: summing, over a batch's source pixels, the outer product of the two axes'
  lines is the same as adding, corner by corner, the product of the two tent weights onto the corner's cell.
-/
import proofs.«115873_j3066606649874_1_alg».proof.Proof.Spec
import Idealize.ShloMosaic.PureOps.Ideal.Laws
import Mathlib.Algebra.BigOperators.Group.Finset.Defs
import Mathlib.Algebra.BigOperators.Group.Finset.Basic
import Mathlib.Data.Fintype.BigOperators
import Mathlib.Data.EReal.Basic

noncomputable section

namespace Cert.Splat

open Idealize.ShloMosaic Idealize.ShloMosaic.ValueIdx

/-! ### Two facts about 32-bit words

For a word `c` and a line number `h < 512`: `h` is the word `c - 1` exactly when `c`, read signed, is `h + 1`;
and `h` is the word `c` exactly when `c + 1`, read signed, is `h + 1`. Both hold because `h + 1 ≤ 512` is far
below 2³¹, so reading signed and reading unsigned agree on it and no wrap-around can produce it otherwise. -/

private theorem word_pred (c : BitVec 32) (h : ℕ) (hh : h < 512) :
    BitVec.ofNat 32 h = c - 1#32 ↔ (c + 0#32).toInt = ((h + 1 : ℕ) : ℤ) := by
  rw [BitVec.add_zero, BitVec.toInt_eq_toNat_cond, ← BitVec.toNat_inj]
  simp only [BitVec.toNat_ofNat, BitVec.toNat_sub]
  have := c.isLt
  split <;> constructor <;> intro e <;> simp at * <;> omega

private theorem word_self (c : BitVec 32) (h : ℕ) (hh : h < 512) :
    BitVec.ofNat 32 h = c ↔ (c + 1#32).toInt = ((h + 1 : ℕ) : ℤ) := by
  rw [BitVec.toInt_eq_toNat_cond, ← BitVec.toNat_inj]
  simp only [BitVec.toNat_ofNat, BitVec.toNat_add]
  have := c.isLt
  split <;> constructor <;> intro e <;> simp at * <;> omega

/-- A word and its successor never read, signed, as the same integer: they are different words. -/
private theorem word_excl (c : BitVec 32) (k : ℤ) : ¬ ((c + 0#32).toInt = k ∧ (c + 1#32).toInt = k) := by
  rintro ⟨e0, e1⟩
  have : c + 0#32 = c + 1#32 := BitVec.toInt_inj.mp (e0.trans e1.symm)
  have h2 := congrArg BitVec.toNat this
  simp only [BitVec.toNat_add, BitVec.toNat_ofNat] at h2
  have := c.isLt
  omega

/-! ### One pixel

Along one axis a pixel puts `tent x (cell x + 0)` on the line whose padded number is `cell x + 0` and
`tent x (cell x + 1)` on the line whose padded number is `cell x + 1`, and nothing elsewhere; the two lines are
different. The product of two such axes is then the sum of the four corner terms, of which at most one is not zero.
Multiplication on the extended reals does not distribute over addition in general, so the product is not expanded:
the cases of which line is hit on each axis are gone through one by one, and in each case both sides are the same
single product (or zero, since `0 · z = z · 0 = 0`). -/

private theorem prod_split {P0 P1 Q0 Q1 : Prop} [Decidable P0] [Decidable P1] [Decidable Q0] [Decidable Q1]
    (hP : ¬ (P0 ∧ P1)) (hQ : ¬ (Q0 ∧ Q1)) (p0 p1 q0 q1 : EReal) :
    (if P0 then p0 else if P1 then p1 else 0) * (if Q0 then q0 else if Q1 then q1 else 0)
      = (((if P0 ∧ Q0 then p0 * q0 else 0) + (if P0 ∧ Q1 then p0 * q1 else 0))
          + (if P1 ∧ Q0 then p1 * q0 else 0)) + (if P1 ∧ Q1 then p1 * q1 else 0) := by
  have hP' : P0 → ¬ P1 := fun x y => hP ⟨x, y⟩
  have hQ' : Q0 → ¬ Q1 := fun x y => hQ ⟨x, y⟩
  by_cases h0 : P0
  · have h1 := hP' h0
    by_cases k0 : Q0
    · have k1 := hQ' k0
      simp [h0, h1, k0, k1]
    · by_cases k1 : Q1 <;> simp [h0, h1, k0, k1]
  · by_cases h1 : P1
    · by_cases k0 : Q0
      · have k1 := hQ' k0
        simp [h0, h1, k0, k1]
      · by_cases k1 : Q1 <;> simp [h0, h1, k0, k1]
    · simp [h0, h1]

/-- One axis of one pixel, with its two conditions written on the padded line number `h + 1`. -/
private theorem line_eq (x : EReal) (h : Fin 512) :
    line x h = if (cell x + 0#32).toInt = ((inner h).val : ℤ) then tent x (cell x + 0#32)
      else if (cell x + 1#32).toInt = ((inner h).val : ℤ) then tent x (cell x + 1#32) else 0 := by
  unfold line
  have e0 := word_pred (cell x) h.val h.isLt
  have e1 := word_self (cell x) h.val h.isLt
  have z : zero = 0 := Ideal.ofBits_zero_f32
  show (if BitVec.ofNat 32 h.val = cell x - 1#32 then tent x (cell x)
      else if BitVec.ofNat 32 h.val = cell x then tent x (cell x + 1#32) else zero)
    = if (cell x + 0#32).toInt = ((h.val + 1 : ℕ) : ℤ) then tent x (cell x + 0#32)
      else if (cell x + 1#32).toInt = ((h.val + 1 : ℕ) : ℤ) then tent x (cell x + 1#32) else 0
  rw [z, BitVec.add_zero]
  rw [BitVec.add_zero] at e0
  simp only [e0, e1]

/-! ### All the pixels of a batch

Tile `s`, row `t` is pixel `2048 s + t`, which is row `r`, column `q` of the grid with `512 r + q = 2048 s + t`:
a bijection between the 128 × 2048 pairs and the 512 × 512 pairs. -/

private def pixEquiv : Fin 128 × Fin 2048 ≃ Fin 512 × Fin 512 where
  toFun st := (rowOf (pix st.1 st.2), colOf (pix st.1 st.2))
  invFun u := (⟨(512 * u.1.val + u.2.val) / 2048, by omega⟩, ⟨(512 * u.1.val + u.2.val) % 2048, by omega⟩)
  left_inv st := by
    rcases st with ⟨s, t⟩
    apply Prod.ext <;> apply Fin.ext <;> simp [rowOf, colOf, pix] <;> omega
  right_inv u := by
    rcases u with ⟨r, q⟩
    apply Prod.ext <;> apply Fin.ext <;> simp [rowOf, colOf, pix] <;> omega

/-- The double sum over tiles and rows is the one sum over the grid's pixels. -/
private theorem sum_pix (f : Fin 512 × Fin 512 → EReal) :
    (∑ s : Fin 128, ∑ t : Fin 2048, f (rowOf (pix s t), colOf (pix s t))) = ∑ u : Fin 512 × Fin 512, f u := by
  rw [← Fintype.sum_prod_type']
  exact Fintype.sum_equiv pixEquiv _ _ (fun _ => rfl)

/-- A corner's share at a cropped cell, as a sum over all pixels of a term that is zero off the corner's cell. -/
private theorem corner_eq (a : (⟨4, ![8, 512, 512, 2]⟩ : Shape).Idx → EReal) (di dj : BitVec 32) (b : Fin 8)
    (h w : Fin 512) :
    corner a di dj b (inner h) (inner w) = ∑ u : Fin 512 × Fin 512,
      if (cell (a (ix4 b u.1 u.2 0)) + di).toInt = ((inner h).val : ℤ)
          ∧ (cell (a (ix4 b u.1 u.2 1)) + dj).toInt = ((inner w).val : ℤ)
        then tent (a (ix4 b u.1 u.2 0)) (cell (a (ix4 b u.1 u.2 0)) + di)
          * tent (a (ix4 b u.1 u.2 1)) (cell (a (ix4 b u.1 u.2 1)) + dj)
        else 0 := by
  unfold corner
  rw [Finset.sum_filter]

/-- The law at one batch and one cropped cell. Both sides become one sum over the grid's pixels (addition on the
    extended reals is commutative and associative, so the four corner sums merge term by term), and the terms agree
    pixel by pixel. -/
private theorem bridge_at (a : (⟨4, ![8, 512, 512, 2]⟩ : Shape).Idx → EReal) (b : Fin 8) (h w : Fin 512) :
    (∑ s : Fin 128, ∑ t : Fin 2048,
      line (a (ix4 b (rowOf (pix s t)) (colOf (pix s t)) 0)) h
        * line (a (ix4 b (rowOf (pix s t)) (colOf (pix s t)) 1)) w)
    = (((zero + corner a 0#32 0#32 b (inner h) (inner w)) + corner a 0#32 1#32 b (inner h) (inner w))
        + corner a 1#32 0#32 b (inner h) (inner w)) + corner a 1#32 1#32 b (inner h) (inner w) := by
  have z : zero = 0 := Ideal.ofBits_zero_f32
  rw [sum_pix (fun u => line (a (ix4 b u.1 u.2 0)) h * line (a (ix4 b u.1 u.2 1)) w)]
  rw [z, zero_add, corner_eq, corner_eq, corner_eq, corner_eq]
  simp only [← Finset.sum_add_distrib]
  refine Finset.sum_congr rfl (fun u _ => ?_)
  rw [line_eq, line_eq]
  exact prod_split (word_excl _ _) (word_excl _ _) _ _ _ _

/-- The splat map of the flattened grid, on every channel, is the scatter form. -/
theorem splat_eq_scat (a : (⟨4, ![8, 512, 512, 2]⟩ : Shape).Idx → EReal) :
    onChannels (splat (flat a)) = scat a := by
  funext i
  exact bridge_at a (i 0) (i 2) (i 3)

end Cert.Splat

end
-- ==== Proof.CellRange.lean ====
/-
  The clamped position lies in [0, 513], so a pixel's cell, read as a signed word, lies in 0 … 513.

  The two clamp literals denote 513 and 0. The position is `min 513 (max 0 …)`, hence between 0 and 513 whatever
  the raw coordinate is (an infinity included); so it is a real number `r` with `0 ≤ r ≤ 513`, its truncation
  toward zero is `⌊r⌋` with `0 ≤ ⌊r⌋ ≤ 513`, the clamp to the 32-bit signed range does nothing to it, and the
  word that integer is written into reads back, signed, as the same integer.
-/
import proofs.«115873_j3066606649874_1_alg».proof.Proof.Spec
import Idealize.ShloMosaic.PureOps.Ideal.Laws

noncomputable section

namespace Cert.Splat

open Idealize.ShloMosaic

/-- The upper clamp literal: sign 0, exponent 136, fraction 2¹⁴, that is (2²³ + 2¹⁴) · 2⁻¹⁴ = 513. -/
theorem top_eq_513 : top = ((513 : ℝ) : EReal) := by
  show Ideal.ofBits .f32 0x44004000#32 = _
  simp [Ideal.ofBits, Ideal.ieee, -EReal.coe_mul]; norm_num

/-- The lower clamp literal is the zero word. -/
theorem zero_eq_zero : zero = 0 := Ideal.ofBits_zero_f32

/-- The position is not negative: it is a minimum of 513 and of a maximum with 0. -/
theorem pos_nonneg (x : EReal) : 0 ≤ pos x := by
  unfold pos
  rw [zero_eq_zero, top_eq_513]
  refine le_min ?_ (le_max_left _ _)
  exact_mod_cast (by norm_num : (0 : ℝ) ≤ 513)

/-- The position is at most 513: it is a minimum with 513. -/
theorem pos_le_513 (x : EReal) : pos x ≤ ((513 : ℝ) : EReal) := by
  unfold pos
  rw [top_eq_513]
  exact min_le_left _ _

/-- The cell of any raw coordinate (an infinity included), read signed, is between 0 and 513. -/
theorem cell_range (x : EReal) : 0 ≤ (cell x).toInt ∧ (cell x).toInt ≤ 513 := by
  have h0 := pos_nonneg x
  have h1 := pos_le_513 x
  unfold cell
  generalize pos x = p at h0 h1
  induction p using EReal.rec with
  | bot => exact absurd h0 (by simp)
  | top => exact absurd h1 (by simp)
  | coe r =>
    have hr0 : (0 : ℝ) ≤ r := by exact_mod_cast h0
    have hr1 : r ≤ 513 := by exact_mod_cast h1
    have hf0 : 0 ≤ ⌊r⌋ := Int.floor_nonneg.mpr hr0
    have hf1 : ⌊r⌋ ≤ 513 := by
      have : ⌊r⌋ ≤ ⌊(513 : ℝ)⌋ := Int.floor_le_floor hr1
      simpa using this
    rw [Ideal.fptosi, Ideal.toIntClamped_coe, if_pos hr0]
    -- the clamp to [-2³¹, 2³¹ - 1] leaves an integer of [0, 513] alone
    have hv : max (-((2 ^ (32 - 1) : ℕ) : ℤ)) (min (((2 ^ (32 - 1) : ℕ) : ℤ) - 1) ⌊r⌋) = ⌊r⌋ := by
      norm_num
      omega
    rw [hv, BitVec.toInt_ofInt]
    -- the balanced residue modulo 2³² of an integer of [0, 513] is that integer
    have : (⌊r⌋).bmod (2 ^ 32) = ⌊r⌋ := by
      apply Int.bmod_eq_of_le <;> omega
    rw [this]
    exact ⟨hf0, hf1⟩

end Cert.Splat

end
-- ==== Proof.RefScatter.lean ====
/-
  An accumulating scatter of scalars into a three-axis map, read at one element, and the index words the
  scatter form of the splat reads.

  The map has shape [8, 515, 515]; the start indices are an [8, 512, 512, 3] array of words whose last axis is the
  index vector (batch, row, column); the updates are an [8, 512, 512] array of scalars: update (b', i, j) lands on
  map element (b, r, q) exactly when its three index words, read signed, are b, r and q, and an update whose
  words point outside the map is dropped.  When the batch word of update (b', i, j) is b' itself, the updates
  landing on (b, r, q) are those of batch b, and the sum over them is a sum over the 512 × 512 pixels of that batch.

  The index words are a pixel's cell plus 0 or 1, passed through the wrap of negative indices
  (w < 0 ? w + extent : w); a cell lies in 0 … 513, so the wrap is the identity.
-/
import Idealize.ShloMosaic.PureOps.Ideal
import Idealize.ShloMosaic.Lib.ValueIdx
import Idealize.ShloMosaic.Lib.Pipeline.Value
import proofs.«115873_j3066606649874_1_alg».proof.Proof.Spec
import proofs.«115873_j3066606649874_1_alg».proof.Proof.CellRange

noncomputable section

namespace Cert.Splat.Scatter

open Idealize.ShloMosaic Idealize.ShloMosaic.ValueIdx

abbrev SMap : Shape := ⟨3, ![8, 515, 515]⟩
abbrev SInd : Shape := ⟨4, ![8, 512, 512, 3]⟩
abbrev SUpd : Shape := ⟨3, ![8, 512, 512]⟩

/-- The dimension numbers: no window axis, the map's three axes all inserted and scattered, the index vector on
    axis 3 of the start indices. -/
abbrev dims (wf : ScatterDims.WF SMap SInd SUpd [] [0, 1, 2] [0, 1, 2] 3) : ScatterDims SMap SInd SUpd :=
  { updateWindowDims := [], insertedWindowDims := [0, 1, 2], scatterDimsToOperandDims := [0, 1, 2], indexVectorDim := 3,
    wf := wf }

variable (wf : ScatterDims.WF SMap SInd SUpd [] [0, 1, 2] [0, 1, 2] 3)

/-- The start-index position update (b', i, j) reads for component 0: (b', i, j, 0). -/
theorem siIdx0 (b' : Fin 8) (i j : Fin 512) :
    (dims wf).siIdx (ix3 b' i j) ⟨0, by show 0 < 3; omega⟩ = ix4 b' i j 0 := by
  funext a; match a with | ⟨0, _⟩ => rfl | ⟨1, _⟩ => rfl | ⟨2, _⟩ => rfl | ⟨3, _⟩ => rfl
/-- … for component 1: (b', i, j, 1). -/
theorem siIdx1 (b' : Fin 8) (i j : Fin 512) :
    (dims wf).siIdx (ix3 b' i j) ⟨1, by show 1 < 3; omega⟩ = ix4 b' i j 1 := by
  funext a; match a with | ⟨0, _⟩ => rfl | ⟨1, _⟩ => rfl | ⟨2, _⟩ => rfl | ⟨3, _⟩ => rfl
/-- … for component 2: (b', i, j, 2). -/
theorem siIdx2 (b' : Fin 8) (i j : Fin 512) :
    (dims wf).siIdx (ix3 b' i j) ⟨2, by show 2 < 3; omega⟩ = ix4 b' i j 2 := by
  funext a; match a with | ⟨0, _⟩ => rfl | ⟨1, _⟩ => rfl | ⟨2, _⟩ => rfl | ⟨3, _⟩ => rfl

variable {w : Nat} (idx : IVec SInd w)

/-- The window start on each map axis: the index word of that component, read signed. -/
theorem start0 (b' : Fin 8) (i j : Fin 512) : (dims wf).start (ix3 b' i j) idx 0 = (idx (ix4 b' i j 0)).toInt := by
  rw [← siIdx0 wf b' i j]; rfl
theorem start1 (b' : Fin 8) (i j : Fin 512) : (dims wf).start (ix3 b' i j) idx 1 = (idx (ix4 b' i j 1)).toInt := by
  rw [← siIdx1 wf b' i j]; rfl
theorem start2 (b' : Fin 8) (i j : Fin 512) : (dims wf).start (ix3 b' i j) idx 2 = (idx (ix4 b' i j 2)).toInt := by
  rw [← siIdx2 wf b' i j]; rfl

/-- No window axis: the window coordinate is 0 on every map axis. -/
theorem window0 (b' : Fin 8) (i j : Fin 512) : (dims wf).window (ix3 b' i j) 0 = 0 := rfl
theorem window1 (b' : Fin 8) (i j : Fin 512) : (dims wf).window (ix3 b' i j) 1 = 0 := rfl
theorem window2 (b' : Fin 8) (i j : Fin 512) : (dims wf).window (ix3 b' i j) 2 = 0 := rfl

/-- Update (b', i, j) lands on map element (b, r, q) exactly when its three index words, read signed, are b, r, q. -/
theorem resultIdx_iff (b' : Fin 8) (i j : Fin 512) (b : Fin 8) (r q : Fin 515) :
    (dims wf).resultIdx? (ix3 b' i j) idx = some (ix3 b r q) ↔
      (idx (ix4 b' i j 0)).toInt = (b.val : Int) ∧ (idx (ix4 b' i j 1)).toInt = (r.val : Int) ∧
        (idx (ix4 b' i j 2)).toInt = (q.val : Int) := by
  have s0 := start0 wf idx b' i j
  have s1 := start1 wf idx b' i j
  have s2 := start2 wf idx b' i j
  have w0 := window0 wf b' i j
  have w1 := window1 wf b' i j
  have w2 := window2 wf b' i j
  unfold ScatterDims.resultIdx?
  split
  · rename_i h
    have h0 := h 0
    have h1 := h 1
    have h2 := h 2
    rw [s0, w0] at h0
    rw [s1, w1] at h1
    rw [s2, w2] at h2
    constructor
    · intro hh
      have hh := Option.some.inj hh
      have e0 := congrArg Fin.val (congrFun hh 0)
      have e1 := congrArg Fin.val (congrFun hh 1)
      have e2 := congrArg Fin.val (congrFun hh 2)
      change ((dims wf).start (ix3 b' i j) idx 0 + ((dims wf).window (ix3 b' i j) 0 : Nat)).toNat = b.val at e0
      change ((dims wf).start (ix3 b' i j) idx 1 + ((dims wf).window (ix3 b' i j) 1 : Nat)).toNat = r.val at e1
      change ((dims wf).start (ix3 b' i j) idx 2 + ((dims wf).window (ix3 b' i j) 2 : Nat)).toNat = q.val at e2
      rw [s0, w0] at e0
      rw [s1, w1] at e1
      rw [s2, w2] at e2
      exact ⟨by omega, by omega, by omega⟩
    · rintro ⟨hb, hr, hq⟩
      congr 1
      funext a
      match a with
      | ⟨0, _⟩ =>
        apply Fin.ext
        change ((dims wf).start (ix3 b' i j) idx 0 + ((dims wf).window (ix3 b' i j) 0 : Nat)).toNat = b.val
        rw [s0, w0]; omega
      | ⟨1, _⟩ =>
        apply Fin.ext
        change ((dims wf).start (ix3 b' i j) idx 1 + ((dims wf).window (ix3 b' i j) 1 : Nat)).toNat = r.val
        rw [s1, w1]; omega
      | ⟨2, _⟩ =>
        apply Fin.ext
        change ((dims wf).start (ix3 b' i j) idx 2 + ((dims wf).window (ix3 b' i j) 2 : Nat)).toNat = q.val
        rw [s2, w2]; omega
  · rename_i h
    constructor
    · intro hh; exact absurd hh (by simp)
    · rintro ⟨hb, hr, hq⟩
      exfalso; apply h
      intro a
      match a with
      | ⟨0, _⟩ =>
        change 0 ≤ (dims wf).start (ix3 b' i j) idx 0 + ((dims wf).window (ix3 b' i j) 0 : Nat) ∧
          (dims wf).start (ix3 b' i j) idx 0 + ((dims wf).window (ix3 b' i j) 0 : Nat) < ((8 : Nat) : Int)
        rw [s0, w0]; have := b.isLt; omega
      | ⟨1, _⟩ =>
        change 0 ≤ (dims wf).start (ix3 b' i j) idx 1 + ((dims wf).window (ix3 b' i j) 1 : Nat) ∧
          (dims wf).start (ix3 b' i j) idx 1 + ((dims wf).window (ix3 b' i j) 1 : Nat) < ((515 : Nat) : Int)
        rw [s1, w1]; have := r.isLt; omega
      | ⟨2, _⟩ =>
        change 0 ≤ (dims wf).start (ix3 b' i j) idx 2 + ((dims wf).window (ix3 b' i j) 2 : Nat) ∧
          (dims wf).start (ix3 b' i j) idx 2 + ((dims wf).window (ix3 b' i j) 2 : Nat) < ((515 : Nat) : Int)
        rw [s2, w2]; have := q.isLt; omega

/-- The accumulating scatter read at map element (b, r, q), when update (b', i, j)'s batch word is b' itself: the
    map's element plus the sum, over the pixels (i, j) of batch b whose row and column words, read signed, are r
    and q, of the update at (b, i, j). -/
theorem scatterAdd_apply (x : SMap.Idx → EReal) (upd : SUpd.Idx → EReal)
    (hbatch : ∀ (b' : Fin 8) (i j : Fin 512), (idx (ix4 b' i j 0)).toInt = (b'.val : Int))
    (b : Fin 8) (r q : Fin 515) :
    Ideal.hostScatterAdd (dims wf) x idx upd (ix3 b r q)
      = x (ix3 b r q) + ∑ u ∈ (Finset.univ : Finset (Fin 512 × Fin 512)).filter (fun u =>
            (idx (ix4 b u.1 u.2 1)).toInt = (r.val : Int) ∧ (idx (ix4 b u.1 u.2 2)).toInt = (q.val : Int)),
          upd (ix3 b u.1 u.2) := by
  change x (ix3 b r q) + ∑ j ∈ Finset.univ.filter (fun j => (dims wf).resultIdx? j idx = some (ix3 b r q)), upd j = _
  congr 1
  have coords : ∀ a : SUpd.Idx, ∃ (a0 : Fin 8) (a1 a2 : Fin 512), a = ix3 a0 a1 a2 := fun a => ⟨a 0, a 1, a 2, eq_ix3 a⟩
  refine Finset.sum_nbij' (fun j : SUpd.Idx => ((j 1, j 2) : Fin 512 × Fin 512)) (fun u => ix3 b u.1 u.2) ?_ ?_ ?_ ?_ ?_
  · intro a ha
    obtain ⟨a0, a1, a2, rfl⟩ := coords a
    rw [Finset.mem_filter] at ha ⊢
    have ha2 := ha.2
    rw [resultIdx_iff] at ha2
    have hb : a0 = b := Fin.ext (by have := hbatch a0 a1 a2; omega)
    subst hb
    exact ⟨Finset.mem_univ _, ha2.2.1, ha2.2.2⟩
  · intro u hu
    rw [Finset.mem_filter] at hu ⊢
    refine ⟨Finset.mem_univ _, ?_⟩
    rw [resultIdx_iff]
    exact ⟨hbatch b u.1 u.2, hu.2.1, hu.2.2⟩
  · intro a ha
    obtain ⟨a0, a1, a2, rfl⟩ := coords a
    rw [Finset.mem_filter] at ha
    have ha2 := ha.2
    rw [resultIdx_iff] at ha2
    have hb : a0 = b := Fin.ext (by have := hbatch a0 a1 a2; omega)
    subst hb
    rfl
  · intro u _
    rfl
  · intro a ha
    obtain ⟨a0, a1, a2, rfl⟩ := coords a
    rw [Finset.mem_filter] at ha
    have ha2 := ha.2
    rw [resultIdx_iff] at ha2
    have hb : a0 = b := Fin.ext (by have := hbatch a0 a1 a2; omega)
    subst hb
    rfl

/-! ## The index words -/

/-- The wrap of a negative index leaves a word that is nonnegative, read signed, alone. -/
theorem wrap_id (v k : BitVec 32) (h : 0 ≤ v.toInt) :
    Scalar.select (IntOp.cmpi .slt v 0#32) (IntOp.addi v k) v = v := by
  have hs : v.slt 0#32 = false := by
    rw [BitVec.slt, decide_eq_false_iff_not, BitVec.toInt_zero]; omega
  show (if BitVec.ofBool (v.slt 0#32) = 1 then _ else _) = v
  rw [hs]; rfl

/-- The batch number as a word, read signed, is itself. -/
theorem batch_toInt (b : Fin 8) : (BitVec.ofNat 32 b.val).toInt = (b.val : Int) := by
  have := b.isLt
  rw [BitVec.toInt_ofNat']
  simp only [Int.bmod]
  omega

/-- A cell plus one, read signed, is the cell plus one: no wrap, the cell being at most 513. -/
theorem cell_succ_toInt (x : EReal) : (cell x + 1#32).toInt = (cell x).toInt + 1 := by
  have := cell_range x
  have h1 : (1#32).toInt = 1 := by decide
  rw [BitVec.toInt_add, h1]
  simp only [Int.bmod]
  omega

/-- A cell plus the corner offset 0 or 1 is nonnegative, read signed. -/
theorem cell_add_nonneg (x : EReal) (d : BitVec 32) (hd : d = 0#32 ∨ d = 1#32) : 0 ≤ (cell x + d).toInt := by
  have := cell_range x
  rcases hd with rfl | rfl
  · rw [BitVec.add_zero]; exact this.1
  · rw [cell_succ_toInt]; omega

/-! ## The index array: three one-component pieces joined on the last axis -/

abbrev SOne : Shape := ⟨4, ![8, 512, 512, 1]⟩

/-- Three [8, 512, 512, 1] pieces joined along axis 3, read at component 0, 1 or 2 of position (b, i, j): the
    first, second or third piece at (b, i, j, 0). -/
theorem concat3_apply {α : Type} (x0 x1 x2 : SOne.Idx → α) (h : Shape.Concatenates [SOne, SOne, SOne] SInd 3)
    (b : Fin 8) (i j : Fin 512) :
    concatenate SInd 3 [⟨SOne, x0⟩, ⟨SOne, x1⟩, ⟨SOne, x2⟩] h (ix4 b i j 0) = x0 (ix4 b i j 0)
    ∧ concatenate SInd 3 [⟨SOne, x0⟩, ⟨SOne, x1⟩, ⟨SOne, x2⟩] h (ix4 b i j 1) = x1 (ix4 b i j 0)
    ∧ concatenate SInd 3 [⟨SOne, x0⟩, ⟨SOne, x1⟩, ⟨SOne, x2⟩] h (ix4 b i j 2) = x2 (ix4 b i j 0) := by
  have hi : ∀ c : Fin 3, ∀ e : Fin SOne.rank, e.cast (rfl : SOne.rank = SInd.rank) ≠ (3 : Fin SInd.rank) →
      ((ix4 b i j (0 : Fin 1) : SOne.Idx) e).val = ((ix4 b i j c : SInd.Idx) (e.cast rfl)).val := by
    intro c e he
    match e with
    | ⟨0, _⟩ => rfl
    | ⟨1, _⟩ => rfl
    | ⟨2, _⟩ => rfl
    | ⟨3, _⟩ => exact absurd rfl he
  refine ⟨?_, ?_, ?_⟩
  · exact concatenate_apply_piece (3 : Fin SInd.rank) [⟨SOne, x0⟩, ⟨SOne, x1⟩, ⟨SOne, x2⟩] h (ix4 b i j 0) 0
      (by show (0 : Nat) < 3; omega) SOne x0 rfl rfl 0 rfl
      (ix4 b i j 0) (hi 0) rfl
  · exact concatenate_apply_piece (3 : Fin SInd.rank) [⟨SOne, x0⟩, ⟨SOne, x1⟩, ⟨SOne, x2⟩] h (ix4 b i j 1) 1
      (by show (1 : Nat) < 3; omega) SOne x1 rfl rfl 1 rfl
      (ix4 b i j 0) (hi 1) rfl
  · exact concatenate_apply_piece (3 : Fin SInd.rank) [⟨SOne, x0⟩, ⟨SOne, x1⟩, ⟨SOne, x2⟩] h (ix4 b i j 2) 2
      (by show (2 : Nat) < 3; omega) SOne x2 rfl rfl 2 rfl
      (ix4 b i j 0) (hi 2) rfl

/-! ## One corner of the scatter form -/

/-- A scatter whose index words at pixel (b, i, j) are the batch number, the row cell plus di and the column
    cell plus dj, and whose update there is the product of the two tent weights against those shifted cells,
    adds the corner (di, dj) of the scatter form to the map. -/
theorem scatter_corner (a : (⟨4, ![8, 512, 512, 2]⟩ : Shape).Idx → EReal) (x : SMap.Idx → EReal) (ind : IVec SInd 32)
    (upd : SUpd.Idx → EReal) (di dj : BitVec 32)
    (h0 : ∀ (b : Fin 8) (i j : Fin 512), ind (ix4 b i j 0) = BitVec.ofNat 32 b.val)
    (h1 : ∀ (b : Fin 8) (i j : Fin 512), ind (ix4 b i j 1) = cell (a (ix4 b i j 0)) + di)
    (h2 : ∀ (b : Fin 8) (i j : Fin 512), ind (ix4 b i j 2) = cell (a (ix4 b i j 1)) + dj)
    (hu : ∀ (b : Fin 8) (i j : Fin 512), upd (ix3 b i j)
      = tent (a (ix4 b i j 0)) (cell (a (ix4 b i j 0)) + di) * tent (a (ix4 b i j 1)) (cell (a (ix4 b i j 1)) + dj))
    (b : Fin 8) (r q : Fin 515) :
    Ideal.hostScatterAdd (dims wf) x ind upd (ix3 b r q) = x (ix3 b r q) + corner a di dj b r q := by
  rw [scatterAdd_apply wf ind x upd (fun b' i j => by rw [h0]; exact batch_toInt b') b r q]
  congr 1
  unfold corner
  refine Finset.sum_congr (Finset.filter_congr fun u _ => by rw [h1, h2]) fun u _ => hu b u.1 u.2

end Cert.Splat.Scatter

end
-- ==== Proof.RefIdx.lean ====
/-
  The index words of the reference's four scatters, read at a pixel.

  Each scatter's start indices are three words per source pixel (batch, row, column), joined on a last axis of
  extent 3. The batch word is the pixel's batch number, from a count along the batch axis; the row and column words
  are the pixel's two cells plus the corner offset 0 or 1. Every word then passes through the wrap of negative
  indices (w < 0 ? w + extent : w, the extent 8 for the batch and 515 for the rows and columns of the padded map),
  which leaves a word that is nonnegative, read signed, as it is: the batch number always is, and the cells plus
  their offsets are under the hypothesis each statement carries.
-/
import proofs.«115873_j3066606649874_1_alg».proof.Proof.Gen.ReferenceIdeal.Read
import proofs.«115873_j3066606649874_1_alg».proof.Proof.RefScatter

noncomputable section

namespace Cert.ReferenceIdeal.RefValue

open Cert.ReferenceIdeal Cert.ReferenceIdeal.Gen Cert.ReferenceIdeal.Read Idealize.ShloMosaic Idealize.ShloMosaic.ValueIdx

/-! ## The batch words -/

/-- A pixel's batch number, as a word, passes the wrap of negative indices unchanged. -/
theorem idxw_batch (i : S8x512x512.Idx) :
    Scalar.select (IntOp.cmpi .slt (BitVec.ofNat 32 (i 0).val) 0#32) (IntOp.addi (BitVec.ofNat 32 (i 0).val) 8#32)
        (BitVec.ofNat 32 (i 0).val) = BitVec.ofNat 32 (i 0).val :=
  Cert.Splat.Scatter.wrap_id _ _ (le_trans (Int.natCast_nonneg _) (Cert.Splat.Scatter.batch_toInt (i 0)).ge)

/-- The batch word of the first scatter. -/
theorem batch1 (i : S8x512x512.Idx) : val_main_v59 (F := Ideal) i = BitVec.ofNat 32 (i 0).val := by
  rw [val_main_v59_apply, val_main_v48_apply, val_main_v45_apply, val_main_v47_apply, val_main_v44_apply,
    val_main_c_15_apply, val_main_v46_apply, val_main_c_16_apply, val_main_v21_apply, val_main_v20_apply]
  exact idxw_batch i

/-- The batch word of the second scatter. -/
theorem batch2 (i : S8x512x512.Idx) : val_main_v93 (F := Ideal) i = BitVec.ofNat 32 (i 0).val := by
  rw [val_main_v93_apply, val_main_v82_apply, val_main_v79_apply, val_main_v81_apply, val_main_v78_apply,
    val_main_c_25_apply, val_main_v80_apply, val_main_c_26_apply, val_main_v21_apply, val_main_v20_apply]
  exact idxw_batch i

/-- The batch word of the third scatter. -/
theorem batch3 (i : S8x512x512.Idx) : val_main_v135 (F := Ideal) i = BitVec.ofNat 32 (i 0).val := by
  rw [val_main_v135_apply, val_main_v124_apply, val_main_v121_apply, val_main_v123_apply, val_main_v120_apply,
    val_main_c_37_apply, val_main_v122_apply, val_main_c_38_apply, val_main_v21_apply, val_main_v20_apply]
  exact idxw_batch i

/-- The batch word of the fourth scatter. -/
theorem batch4 (i : S8x512x512.Idx) : val_main_v169 (F := Ideal) i = BitVec.ofNat 32 (i 0).val := by
  rw [val_main_v169_apply, val_main_v158_apply, val_main_v155_apply, val_main_v157_apply, val_main_v154_apply,
    val_main_c_47_apply, val_main_v156_apply, val_main_c_48_apply, val_main_v21_apply, val_main_v20_apply]
  exact idxw_batch i

/-! ## The row words -/

/-- The row word of the first scatter: the row cell plus 0. -/
theorem row1 (a : (⟨S8x512x512x2, .f32⟩ : BufTy).Contents (Elt Ideal)) (i : S8x512x512.Idx)
    (h : 0 ≤ (val_main_v18 (F := Ideal) a i + 0#32).toInt) :
    val_main_v53 (F := Ideal) a i = val_main_v18 (F := Ideal) a i + 0#32 := by
  rw [val_main_v53_apply, val_main_v50_apply, val_main_v52_apply, val_main_v49_apply, val_main_c_17_apply,
    val_main_v51_apply, val_main_c_18_apply, val_main_v40_apply, val_main_v39_apply, val_main_c_13_apply]
  exact Cert.Splat.Scatter.wrap_id (val_main_v18 (F := Ideal) a i + 0#32) 515#32 h

/-- The row word of the second scatter: the row cell plus 0. -/
theorem row2 (a : (⟨S8x512x512x2, .f32⟩ : BufTy).Contents (Elt Ideal)) (i : S8x512x512.Idx)
    (h : 0 ≤ (val_main_v18 (F := Ideal) a i + 0#32).toInt) :
    val_main_v87 (F := Ideal) a i = val_main_v18 (F := Ideal) a i + 0#32 := by
  rw [val_main_v87_apply, val_main_v84_apply, val_main_v86_apply, val_main_v83_apply, val_main_c_27_apply,
    val_main_v85_apply, val_main_c_28_apply, val_main_v74_apply, val_main_v73_apply, val_main_c_23_apply]
  exact Cert.Splat.Scatter.wrap_id (val_main_v18 (F := Ideal) a i + 0#32) 515#32 h

/-- The row word of the third scatter: the row cell plus 1. -/
theorem row3 (a : (⟨S8x512x512x2, .f32⟩ : BufTy).Contents (Elt Ideal)) (i : S8x512x512.Idx)
    (h : 0 ≤ (val_main_v18 (F := Ideal) a i + 1#32).toInt) :
    val_main_v129 (F := Ideal) a i = val_main_v18 (F := Ideal) a i + 1#32 := by
  rw [val_main_v129_apply, val_main_v126_apply, val_main_v128_apply, val_main_v125_apply, val_main_c_39_apply,
    val_main_v127_apply, val_main_c_40_apply, val_main_v116_apply, val_main_v115_apply, val_main_c_35_apply]
  exact Cert.Splat.Scatter.wrap_id (val_main_v18 (F := Ideal) a i + 1#32) 515#32 h

/-- The row word of the fourth scatter: the row cell plus 1. -/
theorem row4 (a : (⟨S8x512x512x2, .f32⟩ : BufTy).Contents (Elt Ideal)) (i : S8x512x512.Idx)
    (h : 0 ≤ (val_main_v18 (F := Ideal) a i + 1#32).toInt) :
    val_main_v163 (F := Ideal) a i = val_main_v18 (F := Ideal) a i + 1#32 := by
  rw [val_main_v163_apply, val_main_v160_apply, val_main_v162_apply, val_main_v159_apply, val_main_c_49_apply,
    val_main_v161_apply, val_main_c_50_apply, val_main_v150_apply, val_main_v149_apply, val_main_c_45_apply]
  exact Cert.Splat.Scatter.wrap_id (val_main_v18 (F := Ideal) a i + 1#32) 515#32 h

/-! ## The column words -/

/-- The column word of the first scatter: the column cell plus 0. -/
theorem col1 (a : (⟨S8x512x512x2, .f32⟩ : BufTy).Contents (Elt Ideal)) (i : S8x512x512.Idx)
    (h : 0 ≤ (val_main_v19 (F := Ideal) a i + 0#32).toInt) :
    val_main_v58 (F := Ideal) a i = val_main_v19 (F := Ideal) a i + 0#32 := by
  rw [val_main_v58_apply, val_main_v55_apply, val_main_v57_apply, val_main_v54_apply, val_main_c_19_apply,
    val_main_v56_apply, val_main_c_20_apply, val_main_v42_apply, val_main_v41_apply, val_main_c_14_apply]
  exact Cert.Splat.Scatter.wrap_id (val_main_v19 (F := Ideal) a i + 0#32) 515#32 h

/-- The column word of the second scatter: the column cell plus 1. -/
theorem col2 (a : (⟨S8x512x512x2, .f32⟩ : BufTy).Contents (Elt Ideal)) (i : S8x512x512.Idx)
    (h : 0 ≤ (val_main_v19 (F := Ideal) a i + 1#32).toInt) :
    val_main_v92 (F := Ideal) a i = val_main_v19 (F := Ideal) a i + 1#32 := by
  rw [val_main_v92_apply, val_main_v89_apply, val_main_v91_apply, val_main_v88_apply, val_main_c_29_apply,
    val_main_v90_apply, val_main_c_30_apply, val_main_v76_apply, val_main_v75_apply, val_main_c_24_apply]
  exact Cert.Splat.Scatter.wrap_id (val_main_v19 (F := Ideal) a i + 1#32) 515#32 h

/-- The column word of the third scatter: the column cell plus 0. -/
theorem col3 (a : (⟨S8x512x512x2, .f32⟩ : BufTy).Contents (Elt Ideal)) (i : S8x512x512.Idx)
    (h : 0 ≤ (val_main_v19 (F := Ideal) a i + 0#32).toInt) :
    val_main_v134 (F := Ideal) a i = val_main_v19 (F := Ideal) a i + 0#32 := by
  rw [val_main_v134_apply, val_main_v131_apply, val_main_v133_apply, val_main_v130_apply, val_main_c_41_apply,
    val_main_v132_apply, val_main_c_42_apply, val_main_v118_apply, val_main_v117_apply, val_main_c_36_apply]
  exact Cert.Splat.Scatter.wrap_id (val_main_v19 (F := Ideal) a i + 0#32) 515#32 h

/-- The column word of the fourth scatter: the column cell plus 1. -/
theorem col4 (a : (⟨S8x512x512x2, .f32⟩ : BufTy).Contents (Elt Ideal)) (i : S8x512x512.Idx)
    (h : 0 ≤ (val_main_v19 (F := Ideal) a i + 1#32).toInt) :
    val_main_v168 (F := Ideal) a i = val_main_v19 (F := Ideal) a i + 1#32 := by
  rw [val_main_v168_apply, val_main_v165_apply, val_main_v167_apply, val_main_v164_apply, val_main_c_51_apply,
    val_main_v166_apply, val_main_c_52_apply, val_main_v152_apply, val_main_v151_apply, val_main_c_46_apply]
  exact Cert.Splat.Scatter.wrap_id (val_main_v19 (F := Ideal) a i + 1#32) 515#32 h

/-! ## The joined index arrays -/

/-- Position (b, i, j, 0) of a one-component piece is pixel (b, i, j) of the array it repeats. -/
theorem idxw_pix_v60 (b : Fin 8) (i j : Fin 512) : idx_main_v60 (ix4 b i j 0) = ix3 b i j := by
  funext d; match d with | ⟨0, _⟩ => rfl | ⟨1, _⟩ => rfl | ⟨2, _⟩ => rfl
theorem idxw_pix_v61 (b : Fin 8) (i j : Fin 512) : idx_main_v61 (ix4 b i j 0) = ix3 b i j := by
  funext d; match d with | ⟨0, _⟩ => rfl | ⟨1, _⟩ => rfl | ⟨2, _⟩ => rfl
theorem idxw_pix_v62 (b : Fin 8) (i j : Fin 512) : idx_main_v62 (ix4 b i j 0) = ix3 b i j := by
  funext d; match d with | ⟨0, _⟩ => rfl | ⟨1, _⟩ => rfl | ⟨2, _⟩ => rfl
theorem idxw_pix_v94 (b : Fin 8) (i j : Fin 512) : idx_main_v94 (ix4 b i j 0) = ix3 b i j := by
  funext d; match d with | ⟨0, _⟩ => rfl | ⟨1, _⟩ => rfl | ⟨2, _⟩ => rfl
theorem idxw_pix_v95 (b : Fin 8) (i j : Fin 512) : idx_main_v95 (ix4 b i j 0) = ix3 b i j := by
  funext d; match d with | ⟨0, _⟩ => rfl | ⟨1, _⟩ => rfl | ⟨2, _⟩ => rfl
theorem idxw_pix_v96 (b : Fin 8) (i j : Fin 512) : idx_main_v96 (ix4 b i j 0) = ix3 b i j := by
  funext d; match d with | ⟨0, _⟩ => rfl | ⟨1, _⟩ => rfl | ⟨2, _⟩ => rfl
theorem idxw_pix_v136 (b : Fin 8) (i j : Fin 512) : idx_main_v136 (ix4 b i j 0) = ix3 b i j := by
  funext d; match d with | ⟨0, _⟩ => rfl | ⟨1, _⟩ => rfl | ⟨2, _⟩ => rfl
theorem idxw_pix_v137 (b : Fin 8) (i j : Fin 512) : idx_main_v137 (ix4 b i j 0) = ix3 b i j := by
  funext d; match d with | ⟨0, _⟩ => rfl | ⟨1, _⟩ => rfl | ⟨2, _⟩ => rfl
theorem idxw_pix_v138 (b : Fin 8) (i j : Fin 512) : idx_main_v138 (ix4 b i j 0) = ix3 b i j := by
  funext d; match d with | ⟨0, _⟩ => rfl | ⟨1, _⟩ => rfl | ⟨2, _⟩ => rfl
theorem idxw_pix_v170 (b : Fin 8) (i j : Fin 512) : idx_main_v170 (ix4 b i j 0) = ix3 b i j := by
  funext d; match d with | ⟨0, _⟩ => rfl | ⟨1, _⟩ => rfl | ⟨2, _⟩ => rfl
theorem idxw_pix_v171 (b : Fin 8) (i j : Fin 512) : idx_main_v171 (ix4 b i j 0) = ix3 b i j := by
  funext d; match d with | ⟨0, _⟩ => rfl | ⟨1, _⟩ => rfl | ⟨2, _⟩ => rfl
theorem idxw_pix_v172 (b : Fin 8) (i j : Fin 512) : idx_main_v172 (ix4 b i j 0) = ix3 b i j := by
  funext d; match d with | ⟨0, _⟩ => rfl | ⟨1, _⟩ => rfl | ⟨2, _⟩ => rfl

/-- The index array of the first scatter at pixel (b, i, j): its batch, row and column words. -/
theorem ind1 (a : (⟨S8x512x512x2, .f32⟩ : BufTy).Contents (Elt Ideal)) (b : Fin 8) (i j : Fin 512) :
    val_main_v63 (F := Ideal) a (ix4 b i j 0) = val_main_v59 (F := Ideal) (ix3 b i j)
    ∧ val_main_v63 (F := Ideal) a (ix4 b i j 1) = val_main_v53 (F := Ideal) a (ix3 b i j)
    ∧ val_main_v63 (F := Ideal) a (ix4 b i j 2) = val_main_v58 (F := Ideal) a (ix3 b i j) := by
  have h := Cert.Splat.Scatter.concat3_apply (val_main_v60 (F := Ideal)) (val_main_v61 (F := Ideal) a) (val_main_v62 (F := Ideal) a)
    concatenates_S8x512x512x1_S8x512x512x1_S8x512x512x1_S8x512x512x3_d3 b i j
  exact ⟨h.1.trans ((val_main_v60_apply _).trans (congrArg (val_main_v59 (F := Ideal)) (idxw_pix_v60 b i j))),
    h.2.1.trans ((val_main_v61_apply a _).trans (congrArg (val_main_v53 (F := Ideal) a) (idxw_pix_v61 b i j))),
    h.2.2.trans ((val_main_v62_apply a _).trans (congrArg (val_main_v58 (F := Ideal) a) (idxw_pix_v62 b i j)))⟩

/-- The index array of the second scatter at pixel (b, i, j): its batch, row and column words. -/
theorem ind2 (a : (⟨S8x512x512x2, .f32⟩ : BufTy).Contents (Elt Ideal)) (b : Fin 8) (i j : Fin 512) :
    val_main_v97 (F := Ideal) a (ix4 b i j 0) = val_main_v93 (F := Ideal) (ix3 b i j)
    ∧ val_main_v97 (F := Ideal) a (ix4 b i j 1) = val_main_v87 (F := Ideal) a (ix3 b i j)
    ∧ val_main_v97 (F := Ideal) a (ix4 b i j 2) = val_main_v92 (F := Ideal) a (ix3 b i j) := by
  have h := Cert.Splat.Scatter.concat3_apply (val_main_v94 (F := Ideal)) (val_main_v95 (F := Ideal) a) (val_main_v96 (F := Ideal) a)
    concatenates_S8x512x512x1_S8x512x512x1_S8x512x512x1_S8x512x512x3_d3 b i j
  exact ⟨h.1.trans ((val_main_v94_apply _).trans (congrArg (val_main_v93 (F := Ideal)) (idxw_pix_v94 b i j))),
    h.2.1.trans ((val_main_v95_apply a _).trans (congrArg (val_main_v87 (F := Ideal) a) (idxw_pix_v95 b i j))),
    h.2.2.trans ((val_main_v96_apply a _).trans (congrArg (val_main_v92 (F := Ideal) a) (idxw_pix_v96 b i j)))⟩

/-- The index array of the third scatter at pixel (b, i, j): its batch, row and column words. -/
theorem ind3 (a : (⟨S8x512x512x2, .f32⟩ : BufTy).Contents (Elt Ideal)) (b : Fin 8) (i j : Fin 512) :
    val_main_v139 (F := Ideal) a (ix4 b i j 0) = val_main_v135 (F := Ideal) (ix3 b i j)
    ∧ val_main_v139 (F := Ideal) a (ix4 b i j 1) = val_main_v129 (F := Ideal) a (ix3 b i j)
    ∧ val_main_v139 (F := Ideal) a (ix4 b i j 2) = val_main_v134 (F := Ideal) a (ix3 b i j) := by
  have h := Cert.Splat.Scatter.concat3_apply (val_main_v136 (F := Ideal)) (val_main_v137 (F := Ideal) a) (val_main_v138 (F := Ideal) a)
    concatenates_S8x512x512x1_S8x512x512x1_S8x512x512x1_S8x512x512x3_d3 b i j
  exact ⟨h.1.trans ((val_main_v136_apply _).trans (congrArg (val_main_v135 (F := Ideal)) (idxw_pix_v136 b i j))),
    h.2.1.trans ((val_main_v137_apply a _).trans (congrArg (val_main_v129 (F := Ideal) a) (idxw_pix_v137 b i j))),
    h.2.2.trans ((val_main_v138_apply a _).trans (congrArg (val_main_v134 (F := Ideal) a) (idxw_pix_v138 b i j)))⟩

/-- The index array of the fourth scatter at pixel (b, i, j): its batch, row and column words. -/
theorem ind4 (a : (⟨S8x512x512x2, .f32⟩ : BufTy).Contents (Elt Ideal)) (b : Fin 8) (i j : Fin 512) :
    val_main_v173 (F := Ideal) a (ix4 b i j 0) = val_main_v169 (F := Ideal) (ix3 b i j)
    ∧ val_main_v173 (F := Ideal) a (ix4 b i j 1) = val_main_v163 (F := Ideal) a (ix3 b i j)
    ∧ val_main_v173 (F := Ideal) a (ix4 b i j 2) = val_main_v168 (F := Ideal) a (ix3 b i j) := by
  have h := Cert.Splat.Scatter.concat3_apply (val_main_v170 (F := Ideal)) (val_main_v171 (F := Ideal) a) (val_main_v172 (F := Ideal) a)
    concatenates_S8x512x512x1_S8x512x512x1_S8x512x512x1_S8x512x512x3_d3 b i j
  exact ⟨h.1.trans ((val_main_v170_apply _).trans (congrArg (val_main_v169 (F := Ideal)) (idxw_pix_v170 b i j))),
    h.2.1.trans ((val_main_v171_apply a _).trans (congrArg (val_main_v163 (F := Ideal) a) (idxw_pix_v171 b i j))),
    h.2.2.trans ((val_main_v172_apply a _).trans (congrArg (val_main_v168 (F := Ideal) a) (idxw_pix_v172 b i j)))⟩

end Cert.ReferenceIdeal.RefValue

end
-- ==== Proof.RefWeights.lean ====
/-
  The reference's pointwise values over the extended reals, at a pixel (b, r, q) of the grid: the two axes' clamped
  positions, their cells, the tent weights against the cell and the next one, and the four corners' products — each
  the function of `Spec` of the pixel's two raw coordinates `a (b, r, q, 0)` and `a (b, r, q, 1)`.
-/
import proofs.«115873_j3066606649874_1_alg».proof.Proof.Gen.ReferenceIdeal.Read
import proofs.«115873_j3066606649874_1_alg».proof.Proof.Spec

set_option maxRecDepth 16384

noncomputable section

namespace Cert.ReferenceIdeal.RefValue

open Cert.ReferenceIdeal Cert.ReferenceIdeal.Gen Cert.ReferenceIdeal.Read
open Idealize.ShloMosaic Idealize.ShloMosaic.ValueIdx

/-! ## Where the two column slices read

The grid [8, 512, 512, 2] is sliced to one column [8, 512, 512, 1] and reshaped to [8, 512, 512]: entry (b, r, q) of
the result is entry (b, r, q, 0), respectively (b, r, q, 1), of the grid (the row-major number of (b, r, q) divided
back into its three coordinates). -/

theorem read0 (i : S8x512x512.Idx) :
    idx_main_v4 (idx_main_v5 i) = (ix4 (i 0) (i 1) (i 2) 0 : S8x512x512x2.Idx) := by
  have h0 : (i 0).val < 8 := (i 0).isLt
  have h1 : (i 1).val < 512 := (i 1).isLt
  have h2 : (i 2).val < 512 := (i 2).isLt
  refine funext fun (k : Fin 4) => Fin.ext ?_
  match k with
  | ⟨0, _⟩ => show (((i 0).val * 512 + (i 1).val) * 512 + (i 2).val) / 262144 = (i 0).val; omega
  | ⟨1, _⟩ => show (((i 0).val * 512 + (i 1).val) * 512 + (i 2).val) / 512 % 512 = (i 1).val; omega
  | ⟨2, _⟩ => show (((i 0).val * 512 + (i 1).val) * 512 + (i 2).val) / 1 % 512 = (i 2).val; omega
  | ⟨3, _⟩ => rfl

theorem read1 (i : S8x512x512.Idx) :
    idx_main_v11 (idx_main_v12 i) = (ix4 (i 0) (i 1) (i 2) 1 : S8x512x512x2.Idx) := by
  have h0 : (i 0).val < 8 := (i 0).isLt
  have h1 : (i 1).val < 512 := (i 1).isLt
  have h2 : (i 2).val < 512 := (i 2).isLt
  refine funext fun (k : Fin 4) => Fin.ext ?_
  match k with
  | ⟨0, _⟩ => show (((i 0).val * 512 + (i 1).val) * 512 + (i 2).val) / 262144 = (i 0).val; omega
  | ⟨1, _⟩ => show (((i 0).val * 512 + (i 1).val) * 512 + (i 2).val) / 512 % 512 = (i 1).val; omega
  | ⟨2, _⟩ => show (((i 0).val * 512 + (i 1).val) * 512 + (i 2).val) / 1 % 512 = (i 2).val; omega
  | ⟨3, _⟩ => rfl

/-! ## Positions and cells -/

/-- The first axis' clamped position: min 513 (max 0 ((x + 1) · ½ · 512 + 1)) of the pixel's first coordinate. -/
theorem pos0 (a : (⟨S8x512x512x2, .f32⟩ : BufTy).Contents (Elt Ideal)) (i : S8x512x512.Idx) :
    val_main_v10 (F := Ideal) a i = Cert.Splat.pos (a (ix4 (i 0) (i 1) (i 2) 0)) := by
  rw [val_main_v10_apply, val_main_call0_v4_apply, val_main_call0_v3_apply, val_main_cst_4_apply,
    val_main_call0_v2_apply, val_main_call0_v1_apply, val_main_call0_v0_apply, val_main_cst_3_apply,
    val_main_v9_apply, val_main_v8_apply, val_main_cst_2_apply, val_main_v7_apply, val_main_v6_apply, val_main_cst_1_apply,
    val_main_v5_apply, val_main_v4_apply, val_main_v3_apply, val_main_v2_apply, val_main_cst_0_apply,
    val_main_v1_apply, val_main_v0_apply, val_main_cst_apply, read0]
  rfl

/-- The second axis' clamped position, of the pixel's second coordinate. -/
theorem pos1 (a : (⟨S8x512x512x2, .f32⟩ : BufTy).Contents (Elt Ideal)) (i : S8x512x512.Idx) :
    val_main_v17 (F := Ideal) a i = Cert.Splat.pos (a (ix4 (i 0) (i 1) (i 2) 1)) := by
  rw [val_main_v17_apply, val_main_call1_v4_apply, val_main_call1_v3_apply, val_main_cst_8_apply,
    val_main_call1_v2_apply, val_main_call1_v1_apply, val_main_call1_v0_apply, val_main_cst_7_apply,
    val_main_v16_apply, val_main_v15_apply, val_main_cst_6_apply, val_main_v14_apply, val_main_v13_apply, val_main_cst_5_apply,
    val_main_v12_apply, val_main_v11_apply, val_main_v3_apply, val_main_v2_apply, val_main_cst_0_apply,
    val_main_v1_apply, val_main_v0_apply, val_main_cst_apply, read1]
  rfl

/-- The first axis' cell: its position truncated toward zero. -/
theorem cell0 (a : (⟨S8x512x512x2, .f32⟩ : BufTy).Contents (Elt Ideal)) (i : S8x512x512.Idx) :
    val_main_v18 (F := Ideal) a i = Cert.Splat.cell (a (ix4 (i 0) (i 1) (i 2) 0)) :=
  congrArg (Ideal.fptosi 32) (pos0 a i)

/-- The second axis' cell. -/
theorem cell1 (a : (⟨S8x512x512x2, .f32⟩ : BufTy).Contents (Elt Ideal)) (i : S8x512x512.Idx) :
    val_main_v19 (F := Ideal) a i = Cert.Splat.cell (a (ix4 (i 0) (i 1) (i 2) 1)) :=
  congrArg (Ideal.fptosi 32) (pos1 a i)

/-! ## Tent weights

Each is max (1 - |position - k|) 0 with k the cell, or the cell plus one, read signed; the absolute value is
max y (-y). -/

/-- The first axis' tent weight against its own cell. -/
theorem w30 (a : (⟨S8x512x512x2, .f32⟩ : BufTy).Contents (Elt Ideal)) (i : S8x512x512.Idx) :
    val_main_v30 (F := Ideal) a i = Cert.Splat.tent (a (ix4 (i 0) (i 1) (i 2) 0)) (Cert.Splat.cell (a (ix4 (i 0) (i 1) (i 2) 0)) + 0#32) := by
  rw [val_main_v30_apply, val_main_call2_v0_apply, val_main_call2_cst_apply, val_main_v29_apply, val_main_v28_apply,
    val_main_cst_10_apply, val_main_v27_apply, val_main_v26_apply, val_main_v25_apply, val_main_v24_apply,
    val_main_v23_apply, val_main_c_apply, pos0, cell0]
  rfl

/-- The second axis' tent weight against its own cell. -/
theorem w38 (a : (⟨S8x512x512x2, .f32⟩ : BufTy).Contents (Elt Ideal)) (i : S8x512x512.Idx) :
    val_main_v38 (F := Ideal) a i = Cert.Splat.tent (a (ix4 (i 0) (i 1) (i 2) 1)) (Cert.Splat.cell (a (ix4 (i 0) (i 1) (i 2) 1)) + 0#32) := by
  rw [val_main_v38_apply, val_main_call3_v0_apply, val_main_call3_cst_apply, val_main_v37_apply, val_main_v36_apply,
    val_main_cst_12_apply, val_main_v35_apply, val_main_v34_apply, val_main_v33_apply, val_main_v32_apply,
    val_main_v31_apply, val_main_c_11_apply, pos1, cell1]
  rfl

/-- The second axis' tent weight against the next cell. -/
theorem w72 (a : (⟨S8x512x512x2, .f32⟩ : BufTy).Contents (Elt Ideal)) (i : S8x512x512.Idx) :
    val_main_v72 (F := Ideal) a i = Cert.Splat.tent (a (ix4 (i 0) (i 1) (i 2) 1)) (Cert.Splat.cell (a (ix4 (i 0) (i 1) (i 2) 1)) + 1#32) := by
  rw [val_main_v72_apply, val_main_call4_v0_apply, val_main_call4_cst_apply, val_main_v71_apply, val_main_v70_apply,
    val_main_cst_22_apply, val_main_v69_apply, val_main_v68_apply, val_main_v67_apply, val_main_v66_apply,
    val_main_v65_apply, val_main_c_21_apply, pos1, cell1]
  rfl

/-- The first axis' tent weight against the next cell. -/
theorem w106 (a : (⟨S8x512x512x2, .f32⟩ : BufTy).Contents (Elt Ideal)) (i : S8x512x512.Idx) :
    val_main_v106 (F := Ideal) a i = Cert.Splat.tent (a (ix4 (i 0) (i 1) (i 2) 0)) (Cert.Splat.cell (a (ix4 (i 0) (i 1) (i 2) 0)) + 1#32) := by
  rw [val_main_v106_apply, val_main_call5_v0_apply, val_main_call5_cst_apply, val_main_v105_apply, val_main_v104_apply,
    val_main_cst_32_apply, val_main_v103_apply, val_main_v102_apply, val_main_v101_apply, val_main_v100_apply,
    val_main_v99_apply, val_main_c_31_apply, pos0, cell0]
  rfl

/-- The second axis' tent weight against its own cell, as the third corner computes it again. -/
theorem w114 (a : (⟨S8x512x512x2, .f32⟩ : BufTy).Contents (Elt Ideal)) (i : S8x512x512.Idx) :
    val_main_v114 (F := Ideal) a i = Cert.Splat.tent (a (ix4 (i 0) (i 1) (i 2) 1)) (Cert.Splat.cell (a (ix4 (i 0) (i 1) (i 2) 1)) + 0#32) := by
  rw [val_main_v114_apply, val_main_call6_v0_apply, val_main_call6_cst_apply, val_main_v113_apply, val_main_v112_apply,
    val_main_cst_34_apply, val_main_v111_apply, val_main_v110_apply, val_main_v109_apply, val_main_v108_apply,
    val_main_v107_apply, val_main_c_33_apply, pos1, cell1]
  rfl

/-- The second axis' tent weight against the next cell, as the fourth corner computes it again. -/
theorem w148 (a : (⟨S8x512x512x2, .f32⟩ : BufTy).Contents (Elt Ideal)) (i : S8x512x512.Idx) :
    val_main_v148 (F := Ideal) a i = Cert.Splat.tent (a (ix4 (i 0) (i 1) (i 2) 1)) (Cert.Splat.cell (a (ix4 (i 0) (i 1) (i 2) 1)) + 1#32) := by
  rw [val_main_v148_apply, val_main_call7_v0_apply, val_main_call7_cst_apply, val_main_v147_apply, val_main_v146_apply,
    val_main_cst_44_apply, val_main_v145_apply, val_main_v144_apply, val_main_v143_apply, val_main_v142_apply,
    val_main_v141_apply, val_main_c_43_apply, pos1, cell1]
  rfl

/-! ## The four corners' weights -/

/-- The weight of the corner (cell, cell). -/
theorem u43 (a : (⟨S8x512x512x2, .f32⟩ : BufTy).Contents (Elt Ideal)) (i : S8x512x512.Idx) :
    val_main_v43 (F := Ideal) a i = Cert.Splat.tent (a (ix4 (i 0) (i 1) (i 2) 0)) (Cert.Splat.cell (a (ix4 (i 0) (i 1) (i 2) 0)) + 0#32) * Cert.Splat.tent (a (ix4 (i 0) (i 1) (i 2) 1)) (Cert.Splat.cell (a (ix4 (i 0) (i 1) (i 2) 1)) + 0#32) :=
  congrArg₂ (fun x y : EReal => x * y) (w30 a i) (w38 a i)

/-- The weight of the corner (cell, cell + 1). -/
theorem u77 (a : (⟨S8x512x512x2, .f32⟩ : BufTy).Contents (Elt Ideal)) (i : S8x512x512.Idx) :
    val_main_v77 (F := Ideal) a i = Cert.Splat.tent (a (ix4 (i 0) (i 1) (i 2) 0)) (Cert.Splat.cell (a (ix4 (i 0) (i 1) (i 2) 0)) + 0#32) * Cert.Splat.tent (a (ix4 (i 0) (i 1) (i 2) 1)) (Cert.Splat.cell (a (ix4 (i 0) (i 1) (i 2) 1)) + 1#32) :=
  congrArg₂ (fun x y : EReal => x * y) (w30 a i) (w72 a i)

/-- The weight of the corner (cell + 1, cell). -/
theorem u119 (a : (⟨S8x512x512x2, .f32⟩ : BufTy).Contents (Elt Ideal)) (i : S8x512x512.Idx) :
    val_main_v119 (F := Ideal) a i = Cert.Splat.tent (a (ix4 (i 0) (i 1) (i 2) 0)) (Cert.Splat.cell (a (ix4 (i 0) (i 1) (i 2) 0)) + 1#32) * Cert.Splat.tent (a (ix4 (i 0) (i 1) (i 2) 1)) (Cert.Splat.cell (a (ix4 (i 0) (i 1) (i 2) 1)) + 0#32) :=
  congrArg₂ (fun x y : EReal => x * y) (w106 a i) (w114 a i)

/-- The weight of the corner (cell + 1, cell + 1). -/
theorem u153 (a : (⟨S8x512x512x2, .f32⟩ : BufTy).Contents (Elt Ideal)) (i : S8x512x512.Idx) :
    val_main_v153 (F := Ideal) a i = Cert.Splat.tent (a (ix4 (i 0) (i 1) (i 2) 0)) (Cert.Splat.cell (a (ix4 (i 0) (i 1) (i 2) 0)) + 1#32) * Cert.Splat.tent (a (ix4 (i 0) (i 1) (i 2) 1)) (Cert.Splat.cell (a (ix4 (i 0) (i 1) (i 2) 1)) + 1#32) :=
  congrArg₂ (fun x y : EReal => x * y) (w106 a i) (w148 a i)

end Cert.ReferenceIdeal.RefValue

end
-- ==== Proof.Ref.lean ====
/-
  The reference's result is the scatter form of the splat map.

  The reference adds, corner by corner, the products of the two axes' tent weights onto a zero map of shape
  [8, 515, 515] by four accumulating scatters, crops the border and repeats the map on the 32 channels.  Each
  scatter's index words at pixel (b, i, j) are the batch number and the two cells shifted by the corner, and its
  update there is the product of the tent weights against the shifted cells: it adds one corner of the scatter
  form.  The crop reads map element (h + 1, w + 1), and the two broadcasts read it on every channel.
-/
import proofs.«115873_j3066606649874_1_alg».proof.Proof.Gen.ReferenceIdeal.Run
import proofs.«115873_j3066606649874_1_alg».proof.Proof.Gen.ReferenceIdeal.Read
import proofs.«115873_j3066606649874_1_alg».proof.Proof.RefScatter
import proofs.«115873_j3066606649874_1_alg».proof.Proof.RefIdx
import proofs.«115873_j3066606649874_1_alg».proof.Proof.RefWeights

noncomputable section

namespace Cert.ReferenceIdeal.RefValue

open Cert.ReferenceIdeal Cert.ReferenceIdeal.Gen Cert.ReferenceIdeal.Read Idealize.ShloMosaic Idealize.ShloMosaic.ValueIdx
open Cert.Splat Cert.Splat.Scatter

variable (a : (⟨S8x512x512x2, .f32⟩ : BufTy).Contents (Elt Ideal))

/-! ## The four scatters, each adding one corner -/

/-- After the first scatter the map holds corner (0, 0) on the zero map. -/
theorem map1 (b : Fin 8) (r q : Fin 515) :
    val_main_v64 (F := Ideal) a (ix3 b r q) = Cert.Splat.zero + corner a 0#32 0#32 b r q := by
  have h := scatter_corner Facts₀.scatter_S8x515x515_S8x512x512x3_S8x512x512_n_012_012_3_wf a
    (val_main_v22 (F := Ideal)) (val_main_v63 (F := Ideal) a) (val_main_v43 (F := Ideal) a) 0#32 0#32
    (fun b i j => by rw [(ind1 a b i j).1, batch1])
    (fun b i j => by
      rw [(ind1 a b i j).2.1,
        row1 a (ix3 b i j) (by rw [cell0]; exact cell_add_nonneg _ _ (Or.inl rfl)), cell0])
    (fun b i j => by
      rw [(ind1 a b i j).2.2,
        col1 a (ix3 b i j) (by rw [cell1]; exact cell_add_nonneg _ _ (Or.inl rfl)), cell1])
    (fun b i j => u43 a (ix3 b i j)) b r q
  refine h.trans ?_
  rw [val_main_v22_apply, val_main_cst_9_apply]
  rfl

/-- After the second, corner (0, 1) is added. -/
theorem map2 (b : Fin 8) (r q : Fin 515) :
    val_main_v98 (F := Ideal) a (ix3 b r q)
      = (Cert.Splat.zero + corner a 0#32 0#32 b r q) + corner a 0#32 1#32 b r q := by
  have h := scatter_corner Facts₀.scatter_S8x515x515_S8x512x512x3_S8x512x512_n_012_012_3_wf a
    (val_main_v64 (F := Ideal) a) (val_main_v97 (F := Ideal) a) (val_main_v77 (F := Ideal) a) 0#32 1#32
    (fun b i j => by rw [(ind2 a b i j).1, batch2])
    (fun b i j => by
      rw [(ind2 a b i j).2.1,
        row2 a (ix3 b i j) (by rw [cell0]; exact cell_add_nonneg _ _ (Or.inl rfl)), cell0])
    (fun b i j => by
      rw [(ind2 a b i j).2.2,
        col2 a (ix3 b i j) (by rw [cell1]; exact cell_add_nonneg _ _ (Or.inr rfl)), cell1])
    (fun b i j => u77 a (ix3 b i j)) b r q
  refine h.trans ?_
  rw [map1]

/-- After the third, corner (1, 0). -/
theorem map3 (b : Fin 8) (r q : Fin 515) :
    val_main_v140 (F := Ideal) a (ix3 b r q)
      = ((Cert.Splat.zero + corner a 0#32 0#32 b r q) + corner a 0#32 1#32 b r q) + corner a 1#32 0#32 b r q := by
  have h := scatter_corner Facts₀.scatter_S8x515x515_S8x512x512x3_S8x512x512_n_012_012_3_wf a
    (val_main_v98 (F := Ideal) a) (val_main_v139 (F := Ideal) a) (val_main_v119 (F := Ideal) a) 1#32 0#32
    (fun b i j => by rw [(ind3 a b i j).1, batch3])
    (fun b i j => by
      rw [(ind3 a b i j).2.1,
        row3 a (ix3 b i j) (by rw [cell0]; exact cell_add_nonneg _ _ (Or.inr rfl)), cell0])
    (fun b i j => by
      rw [(ind3 a b i j).2.2,
        col3 a (ix3 b i j) (by rw [cell1]; exact cell_add_nonneg _ _ (Or.inl rfl)), cell1])
    (fun b i j => u119 a (ix3 b i j)) b r q
  refine h.trans ?_
  rw [map2]

/-- After the fourth, corner (1, 1): the whole padded map of the scatter form. -/
theorem map4 (b : Fin 8) (r q : Fin 515) :
    val_main_v174 (F := Ideal) a (ix3 b r q)
      = (((Cert.Splat.zero + corner a 0#32 0#32 b r q) + corner a 0#32 1#32 b r q) + corner a 1#32 0#32 b r q)
          + corner a 1#32 1#32 b r q := by
  have h := scatter_corner Facts₀.scatter_S8x515x515_S8x512x512x3_S8x512x512_n_012_012_3_wf a
    (val_main_v140 (F := Ideal) a) (val_main_v173 (F := Ideal) a) (val_main_v153 (F := Ideal) a) 1#32 1#32
    (fun b i j => by rw [(ind4 a b i j).1, batch4])
    (fun b i j => by
      rw [(ind4 a b i j).2.1,
        row4 a (ix3 b i j) (by rw [cell0]; exact cell_add_nonneg _ _ (Or.inr rfl)), cell0])
    (fun b i j => by
      rw [(ind4 a b i j).2.2,
        col4 a (ix3 b i j) (by rw [cell1]; exact cell_add_nonneg _ _ (Or.inr rfl)), cell1])
    (fun b i j => u153 a (ix3 b i j)) b r q
  refine h.trans ?_
  rw [map3]

/-! ## The crop and the channels -/

/-- The crop and the two broadcasts read output element (b, c, h, w) at map element (b, h + 1, w + 1). -/
theorem crop_idx (i : S8x32x512x512.Idx) :
    idx_main_v175 (idx_main_v176 (idx_main_v177 i)) = @ix3 8 515 515 (i 0) (inner (i 2)) (inner (i 3)) := by
  funext c
  match c with
  | ⟨0, _⟩ => rfl
  | ⟨1, _⟩ => exact Fin.ext (Nat.add_comm _ _)
  | ⟨2, _⟩ => exact Fin.ext (Nat.add_comm _ _)

/-- The reference's result, as a function of the grid, is the scatter form. -/
theorem ref_eq (a : (⟨S8x512x512x2, .f32⟩ : BufTy).Contents (Elt Ideal)) :
    Cert.ReferenceIdeal.Read.val_main_v177 (F := Ideal) a = Cert.Splat.scat a := by
  funext i
  rw [val_main_v177_apply, val_main_v176_apply, val_main_v175_apply, crop_idx]
  exact map4 a (i 0) (inner (i 2)) (inner (i 3))

end Cert.ReferenceIdeal.RefValue

end
-- ==== Proof.lean ====
/-
  The certificate of the splat kernel against its scatter-add reference.

  Both programs map a grid of raw coordinates [8, 512, 512, 2] to, per batch, the 512 × 512 map that adds, for every
  source pixel, its four bilinear corner weights onto the cells its clamped position touches, and repeat that map on
  32 channels. The kernel builds the map as a sum, tile by tile, of outer products of two weight rows per pixel
  (a contraction over the tile's pixels, accumulated in a scratch buffer), then copies it to the channels in a second
  region; the reference scatters the four corners' products onto a padded map and crops it. Over the extended reals
  the two are one function: the product of two two-entry rows spreads into the four corner products
  (`Cert.Splat.splat_eq_scat`), and sums over the extended reals may be taken in any order.

  The frames of the two kernel programs are the run of @main as a host reshape and two kernel regions
  (`Hand.frame`, at the word level and at the ideal instance); the value of the idealized kernel's result is read off
  that run (`Hand.run_value`) through the blocks the regions write back (`final0`, `final1`); the reference's run and
  its result, operation by operation, are the generated run and read modules, closed by `ref_eq`.
-/
import proofs.«115873_j3066606649874_1_alg».proof.Defs
import proofs.«115873_j3066606649874_1_alg».proof.Proof.Gen.Kernel
import proofs.«115873_j3066606649874_1_alg».proof.Proof.Gen.KernelIdeal
import proofs.«115873_j3066606649874_1_alg».proof.Proof.Gen.ReferenceIdeal
import proofs.«115873_j3066606649874_1_alg».proof.Proof.Gen.Pre_finite_inputs
import proofs.«115873_j3066606649874_1_alg».proof.Proof.K.Run
import proofs.«115873_j3066606649874_1_alg».proof.Proof.KI.Run
import proofs.«115873_j3066606649874_1_alg».proof.Proof.KI.Value
import proofs.«115873_j3066606649874_1_alg».proof.Proof.KI.Value1
import proofs.«115873_j3066606649874_1_alg».proof.Proof.Flat
import proofs.«115873_j3066606649874_1_alg».proof.Proof.Bridge
import proofs.«115873_j3066606649874_1_alg».proof.Proof.Ref
import Idealize.ShloMosaic.Adequacy
import Idealize.ShloMosaic.Init

noncomputable section

namespace Cert.Proof

open Idealize.ShloMosaic Idealize.ShloMosaic.TcCoe Idealize.SL.Sem

/-- The idealized kernel's result, on every core: the scatter form of the grid it was launched with. The second
    region's write-backs give the first region's map on every channel; the first region's give the splat map of the
    grid the host reshape flattened; the splat map on every channel is the scatter form. -/
theorem kernel_value (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    (Cert.KernelIdeal.Hand.dat1 (F := Ideal) (Cert.KernelIdeal.Hand.V2 m ρ) c).arrAt 1 Cert.KernelIdeal.cfg1.N
      = (Cert.Splat.scat (m ((c.tc : Thread Cert.KernelIdeal.nD Cert.KernelIdeal.τ).loc Cert.KernelIdeal.main_arg1))
          : Cert.KernelIdeal.S8x32x512x512.Idx → EReal) := by
  rw [Cert.KernelIdeal.Hand.final1, Cert.KernelIdeal.Hand.V2_main_v1, Cert.KernelIdeal.Hand.final0,
    Cert.KernelIdeal.Hand.V1_main_v0]
  exact (congrArg Cert.Splat.onChannels (congrArg Cert.Splat.splat (Cert.Splat.shapeCast_eq_flat _ _))).trans
    (Cert.Splat.splat_eq_scat _)

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: the idealization is the program's own text read over the extended reals. -/
theorem preserves : Cert.preserves_Kernel_KernelIdeal := trivial

/-- From memories agreeing on the arguments both programs end with the scatter form of the grid. -/
theorem algebraic : Cert.algebraic_KernelIdeal_ReferenceIdeal := by
  intro m ρ m' ρ' _ hagree
  refine ⟨fun c => (Cert.Splat.scat (m ((c.tc : Thread Cert.KernelIdeal.nD Cert.KernelIdeal.τ).loc Cert.KernelIdeal.main_arg1))
    : Cert.KernelIdeal.S8x32x512x512.Idx → EReal), ?_, ?_⟩
  · exact (θ_run Cert.KernelIdeal.defs _ _).mono (fun _ h c => ⟨(h c).1.trans (kernel_value m ρ c), (h c).2⟩)
      (Cert.KernelIdeal.Hand.run_value (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v177_eq, (hagree c).2]
    exact Cert.ReferenceIdeal.RefValue.ref_eq _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
